-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x512 : Shape := ⟨3, ![4096, 64, 512]⟩
abbrev S4096 : Shape := ⟨1, ![4096]⟩
abbrev S_ : Shape := ⟨0, ![]⟩

class Facts : Prop where
  bcast_S_S4096x64x512 : S_.BroadcastsInDim S4096x64x512 (![] : Fin 0 → Fin S4096x64x512.rank)
  reducesTo_S4096x64x512_S_d0_1_2 : S4096x64x512.ReducesTo [0, 1, 2] S_
  h_S_ : 0 < S_.numel

variable [Facts]

def fn {F : FTy → Type} [FloatOps F] (main_arg0 : FVec F S4096x64x512 .f32) (main_arg1 : IVec S4096 32) : IVec S_ 1 :=
  let main_v0 : FVec F S4096x64x512 .f32 := Host.absf main_arg0
  let main_cst : FVec F S_ .f32 := constant S_ .f32 0x7F800000#32
  let main_v1 : FVec F S4096x64x512 .f32 := broadcastInDim S4096x64x512 ![] bcast_S_S4096x64x512 main_cst
  let main_v2 : IVec S4096x64x512 1 := cmpf .olt main_v0 main_v1
  let main_c : IVec S_ 1 := constantI S_ 1 1#1
  let main_v3 : IVec S_ 1 := (fun x v => Host.reduce IntOp.andi x v reducesTo_S4096x64x512_S_d0_1_2 h_S_) main_v2 main_c
  main_v3
-- ==== Kernel.lean ====
abbrev S4096x64x512 : Shape := ⟨3, ![4096, 64, 512]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S_ : Shape := ⟨0, ![]⟩
abbrev S4 : Shape := ⟨1, ![4]⟩
abbrev S4096x32768 : Shape := ⟨2, ![4096, 32768]⟩
abbrev S2x4x32768 : Shape := ⟨3, ![2, 4, 32768]⟩
abbrev S64x32768 : Shape := ⟨2, ![64, 32768]⟩
abbrev S64x4 : Shape := ⟨2, ![64, 4]⟩
abbrev S1x4x32768 : Shape := ⟨3, ![1, 4, 32768]⟩
abbrev S4x32768 : Shape := ⟨2, ![4, 32768]⟩
abbrev S4x64x512 : Shape := ⟨3, ![4, 64, 512]⟩
abbrev S4x1x1 : Shape := ⟨3, ![4, 1, 1]⟩
abbrev S4x1x64x512 : Shape := ⟨4, ![4, 1, 64, 512]⟩
abbrev S1x4x64x512 : Shape := ⟨4, ![1, 4, 64, 512]⟩
abbrev S4x4x64x512 : Shape := ⟨4, ![4, 4, 64, 512]⟩
abbrev S4x4 : Shape := ⟨2, ![4, 4]⟩
abbrev S16 : Shape := ⟨1, ![16]⟩
abbrev S6 : Shape := ⟨1, ![6]⟩
abbrev S16x1 : Shape := ⟨2, ![16, 1]⟩
abbrev S6x1 : Shape := ⟨2, ![6, 1]⟩
abbrev S6x2 : Shape := ⟨2, ![6, 2]⟩

abbrev nBuf : Space → Nat
  | .hbm => 170
  | .vmem => 5
  | .smem => 0
  | _ => 0

abbrev hbmTy0_0 (i : Nat) : BufTy := match i % 128 with
  | 0 => ⟨S4096x64x512, .f32⟩
  | 1 => ⟨S4096, .i32⟩
  | 2 => ⟨S4096x1, .i32⟩
  | 3 => ⟨S1x4, .i32⟩
  | 4 => ⟨S4096x4, .i32⟩
  | 5 => ⟨S4096x4, .i32⟩
  | 6 => ⟨S4096x4, .i1⟩
  | 7 => ⟨S4096x4, .bf16⟩
  | 8 => ⟨S4096x4, .f32⟩
  | 9 => ⟨S_, .f32⟩
  | 10 => ⟨S4, .f32⟩
  | 11 => ⟨S4096x32768, .f32⟩
  | 12 => ⟨S2x4x32768, .f32⟩
  | 13 => ⟨S_, .f32⟩
  | 14 => ⟨S4x32768, .f32⟩
  | 15 => ⟨S4x64x512, .f32⟩
  | 16 => ⟨S_, .f32⟩
  | 17 => ⟨S4, .f32⟩
  | 18 => ⟨S4, .f32⟩
  | 19 => ⟨S4x1x1, .f32⟩
  | 20 => ⟨S4x64x512, .f32⟩
  | 21 => ⟨S4x64x512, .f32⟩
  | 22 => ⟨S4x1x64x512, .f32⟩
  | 23 => ⟨S1x4x64x512, .f32⟩
  | 24 => ⟨S4x4x64x512, .f32⟩
  | 25 => ⟨S4x4x64x512, .f32⟩
  | 26 => ⟨S4x4x64x512, .f32⟩
  | 27 => ⟨S4x4x64x512, .f32⟩
  | 28 => ⟨S_, .f32⟩
  | 29 => ⟨S4x4, .f32⟩
  | 30 => ⟨S4x4, .f32⟩
  | 31 => ⟨S_, .f32⟩
  | 32 => ⟨S4x4, .f32⟩
  | 33 => ⟨S4x4, .i32⟩
  | 34 => ⟨S_, .i32⟩
  | 35 => ⟨S4x4, .i32⟩
  | 36 => ⟨S4x4, .i32⟩
  | 37 => ⟨S4x4, .i32⟩
  | 38 => ⟨S4x4, .i1⟩
  | 39 => ⟨S_, .f32⟩
  | 40 => ⟨S4x4, .f32⟩
  | 41 => ⟨S4x4, .f32⟩
  | 42 => ⟨S_, .f32⟩
  | 43 => ⟨S4x4, .f32⟩
  | 44 => ⟨S4x4, .i1⟩
  | 45 => ⟨S16, .i1⟩
  | 46 => ⟨S16, .i32⟩
  | 47 => ⟨S_, .i32⟩
  | 48 => ⟨S_, .i32⟩
  | 49 => ⟨S16, .i32⟩
  | 50 => ⟨S_, .i32⟩
  | 51 => ⟨S6, .i32⟩
  | 52 => ⟨S_, .i32⟩
  | 53 => ⟨S_, .i32⟩
  | 54 => ⟨S16, .i32⟩
  | 55 => ⟨S16, .i32⟩
  | 56 => ⟨S_, .i32⟩
  | 57 => ⟨S16, .i32⟩
  | 58 => ⟨S16, .i1⟩
  | 59 => ⟨S_, .i32⟩
  | 60 => ⟨S16, .i32⟩
  | 61 => ⟨S16, .i32⟩
  | 62 => ⟨S16, .i32⟩
  | 63 => ⟨S16x1, .i32⟩
  | 64 => ⟨S_, .i32⟩
  | 65 => ⟨S16, .i32⟩
  | 66 => ⟨S6, .i32⟩
  | 67 => ⟨S_, .i32⟩
  | 68 => ⟨S_, .i32⟩
  | 69 => ⟨S6, .i32⟩
  | 70 => ⟨S_, .i32⟩
  | 71 => ⟨S6, .i32⟩
  | 72 => ⟨S6, .i32⟩
  | 73 => ⟨S6, .i32⟩
  | 74 => ⟨S_, .i32⟩
  | 75 => ⟨S6, .i32⟩
  | 76 => ⟨S6, .i1⟩
  | 77 => ⟨S6, .i32⟩
  | 78 => ⟨S6, .i32⟩
  | 79 => ⟨S_, .i32⟩
  | 80 => ⟨S6, .i32⟩
  | 81 => ⟨S6, .i1⟩
  | 82 => ⟨S6, .i1⟩
  | 83 => ⟨S_, .i32⟩
  | 84 => ⟨S6, .i32⟩
  | 85 => ⟨S6, .i32⟩
  | 86 => ⟨S6, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S6, .i32⟩
  | 94 => ⟨S6, .i32⟩
  | 95 => ⟨S_, .i32⟩
  | 96 => ⟨S6, .i32⟩
  | 97 => ⟨S6, .i1⟩
  | 98 => ⟨S_, .i32⟩
  | 99 => ⟨S6, .i32⟩
  | 100 => ⟨S6, .i1⟩
  | 101 => ⟨S_, .i32⟩
  | 102 => ⟨S_, .i1⟩
  | 103 => ⟨S6, .i1⟩
  | 104 => ⟨S6, .i1⟩
  | 105 => ⟨S6, .i1⟩
  | 106 => ⟨S6, .i32⟩
  | 107 => ⟨S6, .i32⟩
  | 108 => ⟨S6, .i32⟩
  | 109 => ⟨S_, .i32⟩
  | 110 => ⟨S6, .i32⟩
  | 111 => ⟨S6, .i32⟩
  | 112 => ⟨S6, .i32⟩
  | 113 => ⟨S_, .i32⟩
  | 114 => ⟨S6, .i32⟩
  | 115 => ⟨S6, .i1⟩
  | 116 => ⟨S6, .i32⟩
  | 117 => ⟨S6, .i32⟩
  | 118 => ⟨S_, .i32⟩
  | 119 => ⟨S6, .i32⟩
  | 120 => ⟨S6, .i1⟩
  | 121 => ⟨S6, .i1⟩
  | 122 => ⟨S_, .i32⟩
  | 123 => ⟨S6, .i32⟩
  | 124 => ⟨S6, .i32⟩
  | 125 => ⟨S6, .i32⟩
  | 126 => ⟨S_, .i32⟩
  | 127 => ⟨S_, .i32⟩
  | _ => ⟨S4096x64x512, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S6, .i32⟩
  | 5 => ⟨S6, .i32⟩
  | 6 => ⟨S_, .i32⟩
  | 7 => ⟨S6, .i32⟩
  | 8 => ⟨S6, .i1⟩
  | 9 => ⟨S_, .i32⟩
  | 10 => ⟨S6, .i32⟩
  | 11 => ⟨S6, .i1⟩
  | 12 => ⟨S_, .i32⟩
  | 13 => ⟨S_, .i1⟩
  | 14 => ⟨S6, .i1⟩
  | 15 => ⟨S6, .i1⟩
  | 16 => ⟨S6, .i1⟩
  | 17 => ⟨S6, .i32⟩
  | 18 => ⟨S6, .i32⟩
  | 19 => ⟨S6, .i32⟩
  | 20 => ⟨S_, .i32⟩
  | 21 => ⟨S6, .i32⟩
  | 22 => ⟨S6, .i1⟩
  | 23 => ⟨S_, .i32⟩
  | 24 => ⟨S6, .i32⟩
  | 25 => ⟨S6, .i32⟩
  | 26 => ⟨S6, .i32⟩
  | 27 => ⟨S_, .i32⟩
  | 28 => ⟨S6, .i32⟩
  | 29 => ⟨S6, .i1⟩
  | 30 => ⟨S_, .i32⟩
  | 31 => ⟨S6, .i32⟩
  | 32 => ⟨S6, .i32⟩
  | 33 => ⟨S6, .i32⟩
  | 34 => ⟨S6x1, .i32⟩
  | 35 => ⟨S6x1, .i32⟩
  | 36 => ⟨S6x2, .i32⟩
  | 37 => ⟨S6, .f32⟩
  | 38 => ⟨S_, .f32⟩
  | 39 => ⟨S_, .f32⟩
  | 40 => ⟨S_, .f32⟩
  | 41 => ⟨S_, .f32⟩
  | _ => ⟨S4096x64x512, .f32⟩

abbrev hbmTy (i : Nat) : BufTy := match i / 128 with
  | 0 => hbmTy0_0 i
  | 1 => hbmTy0_1 i
  | _ => ⟨S4096x64x512, .f32⟩

abbrev bufTy : (tb : Table) → Fin (tcTables nBuf tb) → BufTy
  | .hbm, ⟨i, _⟩ => hbmTy i
  | .local _ .vmem, ⟨0, _⟩ => ⟨S64x32768, .f32⟩
  | .local _ .vmem, ⟨1, _⟩ => ⟨S64x32768, .f32⟩
  | .local _ .vmem, ⟨2, _⟩ => ⟨S64x4, .bf16⟩
  | .local _ .vmem, ⟨3, _⟩ => ⟨S64x4, .bf16⟩
  | .local _ .vmem, ⟨4, _⟩ => ⟨S1x4x32768, .f32⟩
  | _, _ => ⟨S4096x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_cst : Ref sig .tc := ⟨.hbm, 39, rfl⟩
abbrev main_call1_v5 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_call2_v0 : Ref sig .tc := ⟨.hbm, 45, rfl⟩
abbrev main_call2_v1 : Ref sig .tc := ⟨.hbm, 46, rfl⟩
abbrev main_call2_call0_c : Ref sig .tc := ⟨.hbm, 47, rfl⟩
abbrev main_call2_call0_v0 : Ref sig .tc := ⟨.hbm, 48, rfl⟩
abbrev main_v24 : Ref sig .tc := ⟨.hbm, 49, rfl⟩
abbrev main_c : Ref sig .tc := ⟨.hbm, 50, rfl⟩
abbrev main_v25 : Ref sig .tc := ⟨.hbm, 51, rfl⟩
abbrev main_c_5 : Ref sig .tc := ⟨.hbm, 52, rfl⟩
abbrev main_call3_v0 : Ref sig .tc := ⟨.hbm, 53, rfl⟩
abbrev main_call3_v1 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_call4_call0_c : Ref sig .tc := ⟨.hbm, 67, rfl⟩
abbrev main_call4_call0_v0 : Ref sig .tc := ⟨.hbm, 68, rfl⟩
abbrev main_v35 : Ref sig .tc := ⟨.hbm, 69, rfl⟩
abbrev main_c_9 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_v6 : Ref sig .tc := ⟨.hbm, 77, rfl⟩
abbrev main_call5_v7 : Ref sig .tc := ⟨.hbm, 78, rfl⟩
abbrev main_call5_c : Ref sig .tc := ⟨.hbm, 79, rfl⟩
abbrev main_call5_v8 : Ref sig .tc := ⟨.hbm, 80, rfl⟩
abbrev main_call5_v9 : Ref sig .tc := ⟨.hbm, 81, rfl⟩
abbrev main_call5_v10 : Ref sig .tc := ⟨.hbm, 82, rfl⟩
abbrev main_call5_c_0 : Ref sig .tc := ⟨.hbm, 83, rfl⟩
abbrev main_call5_v11 : Ref sig .tc := ⟨.hbm, 84, rfl⟩
abbrev main_call5_v12 : Ref sig .tc := ⟨.hbm, 85, rfl⟩
abbrev main_v36 : Ref sig .tc := ⟨.hbm, 86, rfl⟩
abbrev main_c_10 : Ref sig .tc := ⟨.hbm, 87, rfl⟩
abbrev main_call6_v0 : Ref sig .tc := ⟨.hbm, 88, rfl⟩
abbrev main_call6_c : Ref sig .tc := ⟨.hbm, 89, rfl⟩
abbrev main_call6_v1 : Ref sig .tc := ⟨.hbm, 90, rfl⟩
abbrev main_call6_c_0 : Ref sig .tc := ⟨.hbm, 91, rfl⟩
abbrev main_call6_v2 : Ref sig .tc := ⟨.hbm, 92, rfl⟩
abbrev main_call6_v3 : Ref sig .tc := ⟨.hbm, 93, rfl⟩
abbrev main_call6_v4 : Ref sig .tc := ⟨.hbm, 94, rfl⟩
abbrev main_call6_c_1 : Ref sig .tc := ⟨.hbm, 95, rfl⟩
abbrev main_call6_v5 : Ref sig .tc := ⟨.hbm, 96, rfl⟩
abbrev main_call6_v6 : Ref sig .tc := ⟨.hbm, 97, rfl⟩
abbrev main_call6_c_2 : Ref sig .tc := ⟨.hbm, 98, rfl⟩
abbrev main_call6_v7 : Ref sig .tc := ⟨.hbm, 99, rfl⟩
abbrev main_call6_v8 : Ref sig .tc := ⟨.hbm, 100, rfl⟩
abbrev main_call6_c_3 : Ref sig .tc := ⟨.hbm, 101, rfl⟩
abbrev main_call6_v9 : Ref sig .tc := ⟨.hbm, 102, rfl⟩
abbrev main_call6_v10 : Ref sig .tc := ⟨.hbm, 103, rfl⟩
abbrev main_call6_v11 : Ref sig .tc := ⟨.hbm, 104, rfl⟩
abbrev main_call6_v12 : Ref sig .tc := ⟨.hbm, 105, rfl⟩
abbrev main_call6_v13 : Ref sig .tc := ⟨.hbm, 106, rfl⟩
abbrev main_call6_v14 : Ref sig .tc := ⟨.hbm, 107, rfl⟩
abbrev main_v37 : Ref sig .tc := ⟨.hbm, 108, rfl⟩
abbrev main_c_11 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_v5 : Ref sig .tc := ⟨.hbm, 115, rfl⟩
abbrev main_call7_v6 : Ref sig .tc := ⟨.hbm, 116, rfl⟩
abbrev main_call7_v7 : Ref sig .tc := ⟨.hbm, 117, rfl⟩
abbrev main_call7_c : Ref sig .tc := ⟨.hbm, 118, rfl⟩
abbrev main_call7_v8 : Ref sig .tc := ⟨.hbm, 119, rfl⟩
abbrev main_call7_v9 : Ref sig .tc := ⟨.hbm, 120, rfl⟩
abbrev main_call7_v10 : Ref sig .tc := ⟨.hbm, 121, rfl⟩
abbrev main_call7_c_0 : Ref sig .tc := ⟨.hbm, 122, rfl⟩
abbrev main_call7_v11 : Ref sig .tc := ⟨.hbm, 123, rfl⟩
abbrev main_call7_v12 : Ref sig .tc := ⟨.hbm, 124, rfl⟩
abbrev main_v38 : Ref sig .tc := ⟨.hbm, 125, rfl⟩
abbrev main_c_12 : Ref sig .tc := ⟨.hbm, 126, rfl⟩
abbrev main_call8_v0 : Ref sig .tc := ⟨.hbm, 127, rfl⟩
abbrev main_call8_c : Ref sig .tc := ⟨.hbm, 128, rfl⟩
abbrev main_call8_v1 : Ref sig .tc := ⟨.hbm, 129, rfl⟩
abbrev main_call8_c_0 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_call8_c_1 : Ref sig .tc := ⟨.hbm, 134, rfl⟩
abbrev main_call8_v5 : Ref sig .tc := ⟨.hbm, 135, rfl⟩
abbrev main_call8_v6 : Ref sig .tc := ⟨.hbm, 136, rfl⟩
abbrev main_call8_c_2 : Ref sig .tc := ⟨.hbm, 137, rfl⟩
abbrev main_call8_v7 : Ref sig .tc := ⟨.hbm, 138, rfl⟩
abbrev main_call8_v8 : Ref sig .tc := ⟨.hbm, 139, rfl⟩
abbrev main_call8_c_3 : Ref sig .tc := ⟨.hbm, 140, rfl⟩
abbrev main_call8_v9 : Ref sig .tc := ⟨.hbm, 141, rfl⟩
abbrev main_call8_v10 : Ref sig .tc := ⟨.hbm, 142, rfl⟩
abbrev main_call8_v11 : Ref sig .tc := ⟨.hbm, 143, rfl⟩
abbrev main_call8_v12 : Ref sig .tc := ⟨.hbm, 144, rfl⟩
abbrev main_call8_v13 : Ref sig .tc := ⟨.hbm, 145, rfl⟩
abbrev main_call8_v14 : Ref sig .tc := ⟨.hbm, 146, rfl⟩
abbrev main_v39 : Ref sig .tc := ⟨.hbm, 147, rfl⟩
abbrev main_c_13 : Ref sig .tc := ⟨.hbm, 148, rfl⟩
abbrev main_v40 : Ref sig .tc := ⟨.hbm, 149, rfl⟩
abbrev main_v41 : Ref sig .tc := ⟨.hbm, 150, rfl⟩
abbrev main_c_14 : Ref sig .tc := ⟨.hbm, 151, rfl⟩
abbrev main_v42 : Ref sig .tc := ⟨.hbm, 152, rfl⟩
abbrev main_v43 : Ref sig .tc := ⟨.hbm, 153, rfl⟩
abbrev main_v44 : Ref sig .tc := ⟨.hbm, 154, rfl⟩
abbrev main_c_15 : Ref sig .tc := ⟨.hbm, 155, rfl⟩
abbrev main_v45 : Ref sig .tc := ⟨.hbm, 156, rfl⟩
abbrev main_v46 : Ref sig .tc := ⟨.hbm, 157, rfl⟩
abbrev main_c_16 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_cst_17 : Ref sig .tc := ⟨.hbm, 166, rfl⟩
abbrev main_v54 : Ref sig .tc := ⟨.hbm, 167, rfl⟩
abbrev main_cst_18 : Ref sig .tc := ⟨.hbm, 168, rfl⟩
abbrev main_v55 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  bcast_S1x4_S4096x4_0_1 : S1x4.BroadcastsInDim S4096x4 (![0, 1] : Fin 2 → Fin S4096x4.rank)
  bitsLt_bf16_f32 : FTy.bits .bf16 < FTy.bits .f32
  reducesTo_S4096x4_S4_d0 : S4096x4.ReducesTo [0] S4
  h_S_ : 0 < S_.numel
  shapeCasts_S4096x64x512_S4096x32768 : S4096x64x512.ShapeCasts S4096x32768
  inb_S1x4x32768_S1x4x32768_0_0_0 : ∀ a, (![0, 0, 0] : Fin 3 → Nat) a + S1x4x32768.size a ≤ S1x4x32768.size a
  h_S1x4x32768 : 0 < S1x4x32768.numel
  shapeCasts_S1x4x32768_S4x32768 : S1x4x32768.ShapeCasts S4x32768
  shapeCasts_S4x32768_S1x4x32768 : S4x32768.ShapeCasts S1x4x32768
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  inb_S64x4_S64x4_0_0 : ∀ a, (![0, 0] : Fin 2 → Nat) a + S64x4.size a ≤ S64x4.size a
  h_S64x4 : 0 < S64x4.numel
  shapeCasts_S64x4_S64x4 : S64x4.ShapeCasts S64x4
  reducesTo_S2x4x32768_S4x32768_d0 : S2x4x32768.ReducesTo [0] S4x32768
  shapeCasts_S4x32768_S4x64x512 : S4x32768.ShapeCasts S4x64x512
  bcast_S_S4 : S_.BroadcastsInDim S4 (![] : Fin 0 → Fin S4.rank)
  bcast_S4_S4x1x1_0 : S4.BroadcastsInDim S4x1x1 (![0] : Fin 1 → Fin S4x1x1.rank)
  bcast_S4x1x1_S4x64x512_0_1_2 : S4x1x1.BroadcastsInDim S4x64x512 (![0, 1, 2] : Fin 3 → Fin S4x64x512.rank)
  bcast_S4x64x512_S4x1x64x512_0_2_3 : S4x64x512.BroadcastsInDim S4x1x64x512 (![0, 2, 3] : Fin 3 → Fin S4x1x64x512.rank)
  bcast_S4x64x512_S1x4x64x512_1_2_3 : S4x64x512.BroadcastsInDim S1x4x64x512 (![1, 2, 3] : Fin 3 → Fin S1x4x64x512.rank)
  bcast_S4x1x64x512_S4x4x64x512_0_1_2_3 : S4x1x64x512.BroadcastsInDim S4x4x64x512 (![0, 1, 2, 3] : Fin 4 → Fin S4x4x64x512.rank)
  bcast_S1x4x64x512_S4x4x64x512_0_1_2_3 : S1x4x64x512.BroadcastsInDim S4x4x64x512 (![0, 1, 2, 3] : Fin 4 → Fin S4x4x64x512.rank)
  reducesTo_S4x4x64x512_S4x4_d2_3 : S4x4x64x512.ReducesTo [2, 3] S4x4
  bcast_S_S4x4 : S_.BroadcastsInDim S4x4 (![] : Fin 0 → Fin S4x4.rank)
  shapeCasts_S4x4_S16 : S4x4.ShapeCasts S16
  natLt_1_32 : 1 < 32
  bcast_S_S_ : S_.BroadcastsInDim S_ (![] : Fin 0 → Fin S_.rank)
  reduceWindows_S16_S16_w16s1p15_0 : S16.ReduceWindows (![16] : Fin 1 → Nat) ![1] ![15] ![0] S16
  bcast_S_S6 : S_.BroadcastsInDim S6 (![] : Fin 0 → Fin S6.rank)
  bcast_S_S16 : S_.BroadcastsInDim S16 (![] : Fin 0 → Fin S16.rank)
  bcast_S16_S16x1_0 : S16.BroadcastsInDim S16x1 (![0] : Fin 1 → Fin S16x1.rank)
  reduceWindows_S6_S6_w6s1p5_0 : S6.ReduceWindows (![6] : Fin 1 → Nat) ![1] ![5] ![0] S6
  bcast_S6_S6x1_0 : S6.BroadcastsInDim S6x1 (![0] : Fin 1 → Fin S6x1.rank)
  concatenates_S6x1_S6x1_S6x2_d1 : Shape.Concatenates [S6x1, S6x1] S6x2 1
  reducesTo_S6_S_d0 : S6.ReducesTo [0] S_
  dot_S64x4_S64x32768_S4x32768_0_0_1_1_n_n_wf : DotDims.WF S64x4 S64x32768 S4x32768 [0] [0] [1] [1] [] []
  scatter_S6_S16x1_S16_n_0_0_1_wf : ScatterDims.WF S6 S16x1 S16 [] [0] [0] 1
  gather_S4x4_S6x2_S6_n_01_n_n_01_1_11_wf : GatherDims.WF S4x4 S6x2 S6 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32768.size a ≤ S4096x32768.size a
  hwx0_0 : ∀ i : grid0.Coords, EltTy.bits .f32 = 32 ∨ (Rect.block (s := S4096x32768) S64x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S4096x4.size a
  hwx0_1 : ∀ i : grid0.Coords, EltTy.bits .bf16 = 32 ∨ (Rect.block (s := S4096x4) S64x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4x32768.size a ≤ S2x4x32768.size a
  hwx0_2 : ∀ i : grid0.Coords, EltTy.bits .f32 = 32 ∨ (Rect.block (s := S2x4x32768) S1x4x32768.size (cc0_transform_2 i) (hinb0_2 i)).WholeWords (EltTy.packing .f32)

variable [Facts₀]

def dot_S64x4_S64x32768_S4x32768_0_0_1_1_n_n : DotDims S64x4 S64x32768 S4x32768 where
  lhsContracting := [0]
  rhsContracting := [0]
  lhsNonContracting := [1]
  rhsNonContracting := [1]
  lhsBatch := []
  rhsBatch := []
  wf := dot_S64x4_S64x32768_S4x32768_0_0_1_1_n_n_wf
def scatter_S6_S16x1_S16_n_0_0_1 : ScatterDims S6 S16x1 S16 where
  updateWindowDims := []
  insertedWindowDims := [0]
  scatterDimsToOperandDims := [0]
  indexVectorDim := 1
  wf := scatter_S6_S16x1_S16_n_0_0_1_wf
def gather_S4x4_S6x2_S6_n_01_n_n_01_1_11 : GatherDims S4x4 S6x2 S6 where
  offsetDims := []
  collapsedSliceDims := [0, 1]
  operandBatchingDims := []
  startIndicesBatchingDims := []
  startIndexMap := [0, 1]
  indexVectorDim := 1
  sliceSizes := ![1, 1]
  wf := gather_S4x4_S6x2_S6_n_01_n_n_01_1_11_wf

abbrev win0_0 : Pipeline.Window sig grid0 :=
  Pipeline.Window.ofSpec (Memref.whole main_v3) S64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4x32768.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64x512 : Shape := ⟨3, ![4096, 64, 512]⟩
abbrev S4096 : Shape := ⟨1, ![4096]⟩
abbrev S_ : Shape := ⟨0, ![]⟩
abbrev S4 : Shape := ⟨1, ![4]⟩
abbrev S4096x1 : Shape := ⟨2, ![4096, 1]⟩
abbrev S4x64x512 : Shape := ⟨3, ![4, 64, 512]⟩
abbrev S4x1x1 : Shape := ⟨3, ![4, 1, 1]⟩
abbrev S4x1x64x512 : Shape := ⟨4, ![4, 1, 64, 512]⟩
abbrev S1x4x64x512 : Shape := ⟨4, ![1, 4, 64, 512]⟩
abbrev S4x4x64x512 : Shape := ⟨4, ![4, 4, 64, 512]⟩
abbrev S4x4 : Shape := ⟨2, ![4, 4]⟩
abbrev S16 : Shape := ⟨1, ![16]⟩
abbrev S6 : Shape := ⟨1, ![6]⟩
abbrev S16x1 : Shape := ⟨2, ![16, 1]⟩
abbrev S6x1 : Shape := ⟨2, ![6, 1]⟩
abbrev S6x2 : Shape := ⟨2, ![6, 2]⟩

abbrev nBuf : Space → Nat
  | .hbm => 166
  | .vmem => 0
  | .smem => 0
  | _ => 0

abbrev hbmTy0_0 (i : Nat) : BufTy := match i % 128 with
  | 0 => ⟨S4096x64x512, .f32⟩
  | 1 => ⟨S4096, .i32⟩
  | 2 => ⟨S_, .f32⟩
  | 3 => ⟨S4096, .f32⟩
  | 4 => ⟨S_, .f32⟩
  | 5 => ⟨S4, .f32⟩
  | 6 => ⟨S4096x1, .i32⟩
  | 7 => ⟨S4, .f32⟩
  | 8 => ⟨S_, .f32⟩
  | 9 => ⟨S4x64x512, .f32⟩
  | 10 => ⟨S4096x1, .i32⟩
  | 11 => ⟨S4x64x512, .f32⟩
  | 12 => ⟨S_, .f32⟩
  | 13 => ⟨S4, .f32⟩
  | 14 => ⟨S4, .f32⟩
  | 15 => ⟨S4x1x1, .f32⟩
  | 16 => ⟨S4x64x512, .f32⟩
  | 17 => ⟨S4x64x512, .f32⟩
  | 18 => ⟨S4x1x64x512, .f32⟩
  | 19 => ⟨S1x4x64x512, .f32⟩
  | 20 => ⟨S4x4x64x512, .f32⟩
  | 21 => ⟨S4x4x64x512, .f32⟩
  | 22 => ⟨S4x4x64x512, .f32⟩
  | 23 => ⟨S4x4x64x512, .f32⟩
  | 24 => ⟨S_, .f32⟩
  | 25 => ⟨S4x4, .f32⟩
  | 26 => ⟨S4x4, .f32⟩
  | 27 => ⟨S_, .f32⟩
  | 28 => ⟨S4x4, .f32⟩
  | 29 => ⟨S4x4, .i32⟩
  | 30 => ⟨S_, .i32⟩
  | 31 => ⟨S4x4, .i32⟩
  | 32 => ⟨S4x4, .i32⟩
  | 33 => ⟨S4x4, .i32⟩
  | 34 => ⟨S4x4, .i1⟩
  | 35 => ⟨S_, .f32⟩
  | 36 => ⟨S4x4, .f32⟩
  | 37 => ⟨S4x4, .f32⟩
  | 38 => ⟨S_, .f32⟩
  | 39 => ⟨S4x4, .f32⟩
  | 40 => ⟨S4x4, .i1⟩
  | 41 => ⟨S16, .i1⟩
  | 42 => ⟨S16, .i32⟩
  | 43 => ⟨S_, .i32⟩
  | 44 => ⟨S_, .i32⟩
  | 45 => ⟨S16, .i32⟩
  | 46 => ⟨S_, .i32⟩
  | 47 => ⟨S6, .i32⟩
  | 48 => ⟨S_, .i32⟩
  | 49 => ⟨S_, .i32⟩
  | 50 => ⟨S16, .i32⟩
  | 51 => ⟨S16, .i32⟩
  | 52 => ⟨S_, .i32⟩
  | 53 => ⟨S16, .i32⟩
  | 54 => ⟨S16, .i1⟩
  | 55 => ⟨S_, .i32⟩
  | 56 => ⟨S16, .i32⟩
  | 57 => ⟨S16, .i32⟩
  | 58 => ⟨S16, .i32⟩
  | 59 => ⟨S16x1, .i32⟩
  | 60 => ⟨S_, .i32⟩
  | 61 => ⟨S16, .i32⟩
  | 62 => ⟨S6, .i32⟩
  | 63 => ⟨S_, .i32⟩
  | 64 => ⟨S_, .i32⟩
  | 65 => ⟨S6, .i32⟩
  | 66 => ⟨S_, .i32⟩
  | 67 => ⟨S6, .i32⟩
  | 68 => ⟨S6, .i32⟩
  | 69 => ⟨S6, .i32⟩
  | 70 => ⟨S_, .i32⟩
  | 71 => ⟨S6, .i32⟩
  | 72 => ⟨S6, .i1⟩
  | 73 => ⟨S6, .i32⟩
  | 74 => ⟨S6, .i32⟩
  | 75 => ⟨S_, .i32⟩
  | 76 => ⟨S6, .i32⟩
  | 77 => ⟨S6, .i1⟩
  | 78 => ⟨S6, .i1⟩
  | 79 => ⟨S_, .i32⟩
  | 80 => ⟨S6, .i32⟩
  | 81 => ⟨S6, .i32⟩
  | 82 => ⟨S6, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S6, .i32⟩
  | 90 => ⟨S6, .i32⟩
  | 91 => ⟨S_, .i32⟩
  | 92 => ⟨S6, .i32⟩
  | 93 => ⟨S6, .i1⟩
  | 94 => ⟨S_, .i32⟩
  | 95 => ⟨S6, .i32⟩
  | 96 => ⟨S6, .i1⟩
  | 97 => ⟨S_, .i32⟩
  | 98 => ⟨S_, .i1⟩
  | 99 => ⟨S6, .i1⟩
  | 100 => ⟨S6, .i1⟩
  | 101 => ⟨S6, .i1⟩
  | 102 => ⟨S6, .i32⟩
  | 103 => ⟨S6, .i32⟩
  | 104 => ⟨S6, .i32⟩
  | 105 => ⟨S_, .i32⟩
  | 106 => ⟨S6, .i32⟩
  | 107 => ⟨S6, .i32⟩
  | 108 => ⟨S6, .i32⟩
  | 109 => ⟨S_, .i32⟩
  | 110 => ⟨S6, .i32⟩
  | 111 => ⟨S6, .i1⟩
  | 112 => ⟨S6, .i32⟩
  | 113 => ⟨S6, .i32⟩
  | 114 => ⟨S_, .i32⟩
  | 115 => ⟨S6, .i32⟩
  | 116 => ⟨S6, .i1⟩
  | 117 => ⟨S6, .i1⟩
  | 118 => ⟨S_, .i32⟩
  | 119 => ⟨S6, .i32⟩
  | 120 => ⟨S6, .i32⟩
  | 121 => ⟨S6, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S4096x64x512, .f32⟩

abbrev hbmTy0_1 (i : Nat) : BufTy := match i % 128 with
  | 0 => ⟨S6, .i32⟩
  | 1 => ⟨S6, .i32⟩
  | 2 => ⟨S_, .i32⟩
  | 3 => ⟨S6, .i32⟩
  | 4 => ⟨S6, .i1⟩
  | 5 => ⟨S_, .i32⟩
  | 6 => ⟨S6, .i32⟩
  | 7 => ⟨S6, .i1⟩
  | 8 => ⟨S_, .i32⟩
  | 9 => ⟨S_, .i1⟩
  | 10 => ⟨S6, .i1⟩
  | 11 => ⟨S6, .i1⟩
  | 12 => ⟨S6, .i1⟩
  | 13 => ⟨S6, .i32⟩
  | 14 => ⟨S6, .i32⟩
  | 15 => ⟨S6, .i32⟩
  | 16 => ⟨S_, .i32⟩
  | 17 => ⟨S6, .i32⟩
  | 18 => ⟨S6, .i1⟩
  | 19 => ⟨S_, .i32⟩
  | 20 => ⟨S6, .i32⟩
  | 21 => ⟨S6, .i32⟩
  | 22 => ⟨S6, .i32⟩
  | 23 => ⟨S_, .i32⟩
  | 24 => ⟨S6, .i32⟩
  | 25 => ⟨S6, .i1⟩
  | 26 => ⟨S_, .i32⟩
  | 27 => ⟨S6, .i32⟩
  | 28 => ⟨S6, .i32⟩
  | 29 => ⟨S6, .i32⟩
  | 30 => ⟨S6x1, .i32⟩
  | 31 => ⟨S6x1, .i32⟩
  | 32 => ⟨S6x2, .i32⟩
  | 33 => ⟨S6, .f32⟩
  | 34 => ⟨S_, .f32⟩
  | 35 => ⟨S_, .f32⟩
  | 36 => ⟨S_, .f32⟩
  | 37 => ⟨S_, .f32⟩
  | _ => ⟨S4096x64x512, .f32⟩

abbrev hbmTy (i : Nat) : BufTy := match i / 128 with
  | 0 => hbmTy0_0 i
  | 1 => hbmTy0_1 i
  | _ => ⟨S4096x64x512, .f32⟩

abbrev bufTy : (tb : Table) → Fin (tcTables nBuf tb) → BufTy
  | .hbm, ⟨i, _⟩ => hbmTy i
  | _, _ => ⟨S4096x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_cst : Ref sig .tc := ⟨.hbm, 35, rfl⟩
abbrev main_call0_v5 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_call1_v0 : Ref sig .tc := ⟨.hbm, 41, rfl⟩
abbrev main_call1_v1 : Ref sig .tc := ⟨.hbm, 42, rfl⟩
abbrev main_call1_call0_c : Ref sig .tc := ⟨.hbm, 43, rfl⟩
abbrev main_call1_call0_v0 : Ref sig .tc := ⟨.hbm, 44, rfl⟩
abbrev main_v24 : Ref sig .tc := ⟨.hbm, 45, rfl⟩
abbrev main_c : Ref sig .tc := ⟨.hbm, 46, rfl⟩
abbrev main_v25 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_v26 : Ref sig .tc := ⟨.hbm, 51, rfl⟩
abbrev main_c_7 : Ref sig .tc := ⟨.hbm, 52, rfl⟩
abbrev main_v27 : Ref sig .tc := ⟨.hbm, 53, rfl⟩
abbrev main_v28 : Ref sig .tc := ⟨.hbm, 54, rfl⟩
abbrev main_c_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_9 : Ref sig .tc := ⟨.hbm, 60, rfl⟩
abbrev main_v33 : Ref sig .tc := ⟨.hbm, 61, rfl⟩
abbrev main_v34 : Ref sig .tc := ⟨.hbm, 62, rfl⟩
abbrev main_call3_call0_c : Ref sig .tc := ⟨.hbm, 63, rfl⟩
abbrev main_call3_call0_v0 : Ref sig .tc := ⟨.hbm, 64, rfl⟩
abbrev main_v35 : Ref sig .tc := ⟨.hbm, 65, rfl⟩
abbrev main_c_10 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_v6 : Ref sig .tc := ⟨.hbm, 73, rfl⟩
abbrev main_call4_v7 : Ref sig .tc := ⟨.hbm, 74, rfl⟩
abbrev main_call4_c : Ref sig .tc := ⟨.hbm, 75, rfl⟩
abbrev main_call4_v8 : Ref sig .tc := ⟨.hbm, 76, rfl⟩
abbrev main_call4_v9 : Ref sig .tc := ⟨.hbm, 77, rfl⟩
abbrev main_call4_v10 : Ref sig .tc := ⟨.hbm, 78, rfl⟩
abbrev main_call4_c_0 : Ref sig .tc := ⟨.hbm, 79, rfl⟩
abbrev main_call4_v11 : Ref sig .tc := ⟨.hbm, 80, rfl⟩
abbrev main_call4_v12 : Ref sig .tc := ⟨.hbm, 81, rfl⟩
abbrev main_v36 : Ref sig .tc := ⟨.hbm, 82, rfl⟩
abbrev main_c_11 : Ref sig .tc := ⟨.hbm, 83, rfl⟩
abbrev main_call5_v0 : Ref sig .tc := ⟨.hbm, 84, rfl⟩
abbrev main_call5_c : Ref sig .tc := ⟨.hbm, 85, rfl⟩
abbrev main_call5_v1 : Ref sig .tc := ⟨.hbm, 86, rfl⟩
abbrev main_call5_c_0 : Ref sig .tc := ⟨.hbm, 87, rfl⟩
abbrev main_call5_v2 : Ref sig .tc := ⟨.hbm, 88, rfl⟩
abbrev main_call5_v3 : Ref sig .tc := ⟨.hbm, 89, rfl⟩
abbrev main_call5_v4 : Ref sig .tc := ⟨.hbm, 90, rfl⟩
abbrev main_call5_c_1 : Ref sig .tc := ⟨.hbm, 91, rfl⟩
abbrev main_call5_v5 : Ref sig .tc := ⟨.hbm, 92, rfl⟩
abbrev main_call5_v6 : Ref sig .tc := ⟨.hbm, 93, rfl⟩
abbrev main_call5_c_2 : Ref sig .tc := ⟨.hbm, 94, rfl⟩
abbrev main_call5_v7 : Ref sig .tc := ⟨.hbm, 95, rfl⟩
abbrev main_call5_v8 : Ref sig .tc := ⟨.hbm, 96, rfl⟩
abbrev main_call5_c_3 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_v12 : Ref sig .tc := ⟨.hbm, 101, rfl⟩
abbrev main_call5_v13 : Ref sig .tc := ⟨.hbm, 102, rfl⟩
abbrev main_call5_v14 : Ref sig .tc := ⟨.hbm, 103, rfl⟩
abbrev main_v37 : Ref sig .tc := ⟨.hbm, 104, rfl⟩
abbrev main_c_12 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_v5 : Ref sig .tc := ⟨.hbm, 111, rfl⟩
abbrev main_call6_v6 : Ref sig .tc := ⟨.hbm, 112, rfl⟩
abbrev main_call6_v7 : Ref sig .tc := ⟨.hbm, 113, rfl⟩
abbrev main_call6_c : Ref sig .tc := ⟨.hbm, 114, rfl⟩
abbrev main_call6_v8 : Ref sig .tc := ⟨.hbm, 115, rfl⟩
abbrev main_call6_v9 : Ref sig .tc := ⟨.hbm, 116, rfl⟩
abbrev main_call6_v10 : Ref sig .tc := ⟨.hbm, 117, rfl⟩
abbrev main_call6_c_0 : Ref sig .tc := ⟨.hbm, 118, rfl⟩
abbrev main_call6_v11 : Ref sig .tc := ⟨.hbm, 119, rfl⟩
abbrev main_call6_v12 : Ref sig .tc := ⟨.hbm, 120, rfl⟩
abbrev main_v38 : Ref sig .tc := ⟨.hbm, 121, rfl⟩
abbrev main_c_13 : Ref sig .tc := ⟨.hbm, 122, rfl⟩
abbrev main_call7_v0 : Ref sig .tc := ⟨.hbm, 123, rfl⟩
abbrev main_call7_c : Ref sig .tc := ⟨.hbm, 124, rfl⟩
abbrev main_call7_v1 : Ref sig .tc := ⟨.hbm, 125, rfl⟩
abbrev main_call7_c_0 : Ref sig .tc := ⟨.hbm, 126, rfl⟩
abbrev main_call7_v2 : Ref sig .tc := ⟨.hbm, 127, rfl⟩
abbrev main_call7_v3 : Ref sig .tc := ⟨.hbm, 128, rfl⟩
abbrev main_call7_v4 : Ref sig .tc := ⟨.hbm, 129, rfl⟩
abbrev main_call7_c_1 : Ref sig .tc := ⟨.hbm, 130, rfl⟩
abbrev main_call7_v5 : Ref sig .tc := ⟨.hbm, 131, rfl⟩
abbrev main_call7_v6 : Ref sig .tc := ⟨.hbm, 132, rfl⟩
abbrev main_call7_c_2 : Ref sig .tc := ⟨.hbm, 133, rfl⟩
abbrev main_call7_v7 : Ref sig .tc := ⟨.hbm, 134, rfl⟩
abbrev main_call7_v8 : Ref sig .tc := ⟨.hbm, 135, rfl⟩
abbrev main_call7_c_3 : Ref sig .tc := ⟨.hbm, 136, rfl⟩
abbrev main_call7_v9 : Ref sig .tc := ⟨.hbm, 137, rfl⟩
abbrev main_call7_v10 : Ref sig .tc := ⟨.hbm, 138, rfl⟩
abbrev main_call7_v11 : Ref sig .tc := ⟨.hbm, 139, rfl⟩
abbrev main_call7_v12 : Ref sig .tc := ⟨.hbm, 140, rfl⟩
abbrev main_call7_v13 : Ref sig .tc := ⟨.hbm, 141, rfl⟩
abbrev main_call7_v14 : Ref sig .tc := ⟨.hbm, 142, rfl⟩
abbrev main_v39 : Ref sig .tc := ⟨.hbm, 143, rfl⟩
abbrev main_c_14 : Ref sig .tc := ⟨.hbm, 144, rfl⟩
abbrev main_v40 : Ref sig .tc := ⟨.hbm, 145, rfl⟩
abbrev main_v41 : Ref sig .tc := ⟨.hbm, 146, rfl⟩
abbrev main_c_15 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_c_16 : Ref sig .tc := ⟨.hbm, 151, rfl⟩
abbrev main_v45 : Ref sig .tc := ⟨.hbm, 152, rfl⟩
abbrev main_v46 : Ref sig .tc := ⟨.hbm, 153, rfl⟩
abbrev main_c_17 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_cst_18 : Ref sig .tc := ⟨.hbm, 162, rfl⟩
abbrev main_v54 : Ref sig .tc := ⟨.hbm, 163, rfl⟩
abbrev main_cst_19 : Ref sig .tc := ⟨.hbm, 164, rfl⟩
abbrev main_v55 : Ref sig .tc := ⟨.hbm, 165, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S4 : S_.BroadcastsInDim S4 (![] : Fin 0 → Fin S4.rank)
  bcast_S4096_S4096x1_0 : S4096.BroadcastsInDim S4096x1 (![0] : Fin 1 → Fin S4096x1.rank)
  bcast_S_S4x64x512 : S_.BroadcastsInDim S4x64x512 (![] : Fin 0 → Fin S4x64x512.rank)
  bcast_S4_S4x1x1_0 : S4.BroadcastsInDim S4x1x1 (![0] : Fin 1 → Fin S4x1x1.rank)
  bcast_S4x1x1_S4x64x512_0_1_2 : S4x1x1.BroadcastsInDim S4x64x512 (![0, 1, 2] : Fin 3 → Fin S4x64x512.rank)
  bcast_S4x64x512_S4x1x64x512_0_2_3 : S4x64x512.BroadcastsInDim S4x1x64x512 (![0, 2, 3] : Fin 3 → Fin S4x1x64x512.rank)
  bcast_S4x64x512_S1x4x64x512_1_2_3 : S4x64x512.BroadcastsInDim S1x4x64x512 (![1, 2, 3] : Fin 3 → Fin S1x4x64x512.rank)
  bcast_S4x1x64x512_S4x4x64x512_0_1_2_3 : S4x1x64x512.BroadcastsInDim S4x4x64x512 (![0, 1, 2, 3] : Fin 4 → Fin S4x4x64x512.rank)
  bcast_S1x4x64x512_S4x4x64x512_0_1_2_3 : S1x4x64x512.BroadcastsInDim S4x4x64x512 (![0, 1, 2, 3] : Fin 4 → Fin S4x4x64x512.rank)
  reducesTo_S4x4x64x512_S4x4_d2_3 : S4x4x64x512.ReducesTo [2, 3] S4x4
  h_S_ : 0 < S_.numel
  bcast_S_S4x4 : S_.BroadcastsInDim S4x4 (![] : Fin 0 → Fin S4x4.rank)
  shapeCasts_S4x4_S16 : S4x4.ShapeCasts S16
  natLt_1_32 : 1 < 32
  bcast_S_S_ : S_.BroadcastsInDim S_ (![] : Fin 0 → Fin S_.rank)
  reduceWindows_S16_S16_w16s1p15_0 : S16.ReduceWindows (![16] : Fin 1 → Nat) ![1] ![15] ![0] S16
  bcast_S_S6 : S_.BroadcastsInDim S6 (![] : Fin 0 → Fin S6.rank)
  bcast_S_S16 : S_.BroadcastsInDim S16 (![] : Fin 0 → Fin S16.rank)
  bcast_S16_S16x1_0 : S16.BroadcastsInDim S16x1 (![0] : Fin 1 → Fin S16x1.rank)
  reduceWindows_S6_S6_w6s1p5_0 : S6.ReduceWindows (![6] : Fin 1 → Nat) ![1] ![5] ![0] S6
  bcast_S6_S6x1_0 : S6.BroadcastsInDim S6x1 (![0] : Fin 1 → Fin S6x1.rank)
  concatenates_S6x1_S6x1_S6x2_d1 : Shape.Concatenates [S6x1, S6x1] S6x2 1
  reducesTo_S6_S_d0 : S6.ReducesTo [0] S_
  scatter_S4_S4096x1_S4096_n_0_0_1_wf : ScatterDims.WF S4 S4096x1 S4096 [] [0] [0] 1
  scatter_S4x64x512_S4096x1_S4096x64x512_12_0_0_1_wf : ScatterDims.WF S4x64x512 S4096x1 S4096x64x512 [1, 2] [0] [0] 1
  scatter_S6_S16x1_S16_n_0_0_1_wf : ScatterDims.WF S6 S16x1 S16 [] [0] [0] 1
  gather_S4x4_S6x2_S6_n_01_n_n_01_1_11_wf : GatherDims.WF S4x4 S6x2 S6 [] [0, 1] [] [0, 1] [] 1 ![1, 1]

variable [Facts₀]

def scatter_S4_S4096x1_S4096_n_0_0_1 : ScatterDims S4 S4096x1 S4096 where
  updateWindowDims := []
  insertedWindowDims := [0]
  scatterDimsToOperandDims := [0]
  indexVectorDim := 1
  wf := scatter_S4_S4096x1_S4096_n_0_0_1_wf
def scatter_S4x64x512_S4096x1_S4096x64x512_12_0_0_1 : ScatterDims S4x64x512 S4096x1 S4096x64x512 where
  updateWindowDims := [1, 2]
  insertedWindowDims := [0]
  scatterDimsToOperandDims := [0]
  indexVectorDim := 1
  wf := scatter_S4x64x512_S4096x1_S4096x64x512_12_0_0_1_wf
def scatter_S6_S16x1_S16_n_0_0_1 : ScatterDims S6 S16x1 S16 where
  updateWindowDims := []
  insertedWindowDims := [0]
  scatterDimsToOperandDims := [0]
  indexVectorDim := 1
  wf := scatter_S6_S16x1_S16_n_0_0_1_wf
def gather_S4x4_S6x2_S6_n_01_n_n_01_1_11 : GatherDims S4x4 S6x2 S6 where
  offsetDims := []
  collapsedSliceDims := [0, 1]
  operandBatchingDims := []
  startIndicesBatchingDims := []
  startIndexMap := [0, 1]
  indexVectorDim := 1
  sliceSizes := ![1, 1]
  wf := gather_S4x4_S6x2_S6_n_01_n_n_01_1_11_wf

class Facts : Prop extends Facts₀ where

variable [Facts]
-- ==== Proof.KRuns.lean ====
/-
  The kernel program's run, first part: what its buffers hold when the accelerator region is entered (the host lines
  before it applied to the launch memory), the program as "host lines, the region, host lines", the facts about
  the lines after the region that let them run beside the region's arrays (they touch only unscoped buffers,
  allocate nothing, and never write one of the three arrays the region stages), each window's block at a grid
  point, and the body's one branch condition: the second grid coordinate is zero, which holds at the points
  0 and 32 of the 64 (the first step of each half).
-/
import proofs.«431240_j9079560864491_3_alg».proof.Proof.Gen.Kernel.Launch
import proofs.«431240_j9079560864491_3_alg».proof.Proof.Gen.Kernel.Skeleton
import proofs.«431240_j9079560864491_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host lines after the region, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- What core c's buffers hold when the region is entered: the host lines before it applied to the launch memory. -/
abbrev V0 (c : Dev nD) : Valuation τ sig (Elt F) := StableHlo.after (List.flatten [hostOps0, hostOps0_1]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0, hostOps0_1] tailOpss ⟨hostOps0_sub, hostOps0_1_sub⟩
    ⟨hostOps0_fresh, hostOps0_1_fresh⟩ main_chain

/-- The lines after the region touch unscoped buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop

/-- The buffers no host line after the region may write: the region's three arrays and the two arguments. -/
abbrev guarded : List (Ref sig .tc) := [main_v3, main_v0, main_v4, main_arg0, main_arg1]

theorem hostOps1_keeps : ∀ op ∈ (hostOps1 : List (HloOp τ sig (Elt F))), ∀ b ∈ guarded, Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ b ∈ guarded, Proc.devRef .tc b ∉ op.writes := by
  intro op hop
  simp only [hostOps1_1, List.mem_cons, List.mem_nil_iff, or_false] at hop
  rcases hop with rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ b ∈ guarded, Proc.devRef .tc b ∉ op.writes := by
  intro op hop
  simp only [hostOps1_2, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ b ∈ guarded, Proc.devRef .tc b ∉ op.writes := by
  intro op hop
  simp only [hostOps1_3, List.mem_cons, List.mem_nil_iff, or_false] at hop
  rcases hop with rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ b ∈ guarded, Proc.devRef .tc b ∉ op.writes := by
  intro op hop
  simp only [hostOps1_4, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ b ∈ guarded, Proc.devRef .tc b ∉ op.writes := by
  intro op hop
  simp only [hostOps1_5, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ b ∈ guarded, Proc.devRef .tc b ∉ op.writes := by
  intro op hop
  simp only [hostOps1_6, List.mem_cons, List.mem_nil_iff, or_false] at hop
  rcases hop with rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : ∀ op ∈ (hostOps1_7 : List (HloOp τ sig (Elt F))), ∀ b ∈ guarded, Proc.devRef .tc b ∉ op.writes := by
  intro op hop
  simp only [hostOps1_7, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : ∀ op ∈ (hostOps1_8 : List (HloOp τ sig (Elt F))), ∀ b ∈ guarded, Proc.devRef .tc b ∉ op.writes := by
  intro op hop
  simp only [hostOps1_8, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : ∀ op ∈ (hostOps1_9 : List (HloOp τ sig (Elt F))), ∀ b ∈ guarded, Proc.devRef .tc b ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : ∀ op ∈ (hostOps1_10 : List (HloOp τ sig (Elt F))), ∀ b ∈ guarded, Proc.devRef .tc b ∉ op.writes := by
  intro op hop
  simp only [hostOps1_10, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_11_keeps : ∀ op ∈ (hostOps1_11 : List (HloOp τ sig (Elt F))), ∀ b ∈ guarded, Proc.devRef .tc b ∉ op.writes := by
  intro op hop
  simp only [hostOps1_11, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_12_keeps : ∀ op ∈ (hostOps1_12 : List (HloOp τ sig (Elt F))), ∀ b ∈ guarded, Proc.devRef .tc b ∉ op.writes := by
  intro op hop
  simp only [hostOps1_12, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_13_keeps : ∀ op ∈ (hostOps1_13 : List (HloOp τ sig (Elt F))), ∀ b ∈ guarded, Proc.devRef .tc b ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_14_keeps : ∀ op ∈ (hostOps1_14 : List (HloOp τ sig (Elt F))), ∀ b ∈ guarded, Proc.devRef .tc b ∉ op.writes := by
  intro op hop
  simp only [hostOps1_14, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_15_keeps : ∀ op ∈ (hostOps1_15 : List (HloOp τ sig (Elt F))), ∀ b ∈ guarded, Proc.devRef .tc b ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_16_keeps : ∀ op ∈ (hostOps1_16 : List (HloOp τ sig (Elt F))), ∀ b ∈ guarded, Proc.devRef .tc b ∉ op.writes := by
  intro op hop
  simp only [hostOps1_16, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The host lines before the region write neither argument. -/
theorem pre_keeps : ∀ op ∈ (List.flatten [hostOps0, hostOps0_1] : List (HloOp τ sig (Elt F))), ∀ b ∈ [main_arg0, main_arg1], Proc.devRef .tc b ∉ op.writes := by
  intro op hop
  simp only [hostOps0, hostOps0_1, List.flatten_cons, List.flatten_nil, List.append_nil, List.cons_append, List.nil_append, List.mem_cons, List.mem_nil_iff, or_false] at hop
  rcases hop with rfl | rfl | rfl | rfl | rfl | rfl | rfl | rfl | rfl | rfl
  all_goals intro b hb; simp only [List.mem_cons, List.mem_nil_iff, or_false] at hb; rcases hb with rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line after the region writes a guarded buffer. -/
theorem tail_keeps : ∀ op ∈ (List.flatten tailOpss : List (HloOp τ sig (Elt F))), ∀ b ∈ guarded, Proc.devRef .tc b ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop

/-- And none writes one of the region's three arrays: each writes only its own result buffer. -/
theorem sfx_keeps : ∀ ops ∈ (tailOpss : List (List (HloOp τ sig (Elt F)))), ∀ op ∈ ops,
    ∀ w, Proc.devRef .tc (Pipeline.arrRef spec0 w) ∉ op.writes := by
  intro ops hops op hop w
  refine tail_keeps op (List.mem_flatten.mpr ⟨ops, hops, hop⟩) (Pipeline.arrRef spec0 w) ?_
  fin_cases w <;> decide

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch: the second grid coordinate is zero. -/
abbrev cond0_0 (i : grid0.Coords) : Prop := (Scalar.cmpi .ne (Scalar.extui (Scalar.cmpi .eq (BitVec.ofNat 32 (i 1).val) 0#32)) 0#32) = 1#1
/-- It holds at the first of every 32 points. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs -/

/-- One staging buffer of the output window, through which its contents are stated. -/
abbrev VO0_2 : View sig .tc .vmem S1x4x32768 .f32 := (Memref.whole cc0_stg2_0 : Memref sig .tc .vmem S1x4x32768 .f32).view
/-- Each window's current staging memref at point t, as the pipeline passes it, and its wholeness. -/
abbrev ms0_0 (t : Fin cfg0.N) : Memref sig .tc .vmem S64x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x32768 .f32 := win0_2.stage (cfg0.slots t 2)
abbrev hs0_2 (t : Fin cfg0.N) : (ms0_2 t).IsWhole := hstage0_2 ((cfg0.slots t 2).cast nbuf0_2)

end Cert.Kernel.Fr

end
-- ==== Proof.KRunA.lean ====
/-
  The kernel body run once, whole, in the case where its branch is taken (the first step of a half: the output block is first set to zero):
  on whole staging buffers — the two inputs' at their contents, the output's at anything — it runs to the end,
  hands the inputs back as they were, and leaves the output buffer written over by the pieces the run finds.
-/
import proofs.«431240_j9079560864491_3_alg».proof.Proof.KRuns

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer (last first) in this case, with the proof that
    the body runs to its continuation holding the inputs as they were and the output with those pieces written. -/
noncomputable def kernelRun0_A (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : cond0_0 i)
    (x0 : Vec F S64x32768 .f32) (x1 : Vec F S64x4 .bf16) :
    { L2 : List (View.Piece (Elt F) S1x4x32768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.KRunB.lean ====
/-
  The kernel body run once, whole, in the case where its branch is not taken (a later step of a half: the output block holds the running sum):
  on whole staging buffers — the two inputs' at their contents, the output's at its running contents — it runs to the end,
  hands the inputs back as they were, and leaves the output buffer written over by the pieces the run finds.
-/
import proofs.«431240_j9079560864491_3_alg».proof.Proof.KRunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer (last first) in this case, with the proof that
    the body runs to its continuation holding the inputs as they were and the output with those pieces written. -/
noncomputable def kernelRun0_B (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : ¬cond0_0 i)
    (x0 : Vec F S64x32768 .f32) (x1 : Vec F S64x4 .bf16) (xo2 : Vec F S1x4x32768 .f32) :
    { L2 : List (View.Piece (Elt F) S1x4x32768 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.KFrame.lean ====
/-
  The kernel program's run, last part. What the output's staging buffer holds after the body at each grid point:
  at the first step of a half the block is set to zero and the step's product added; at a later step the product
  is added to what the step before left (the buffer is written back only after the last step of a half, and is not
  touched between). With that as proof data the body meets its obligation at every point, so the whole program
  runs to its end without a fault: the three arrays the region stages end at what the write-backs leave, every other
  buffer at what the host lines after the region compute, and the two argument arrays as they were launched.
-/
import proofs.«431240_j9079560864491_3_alg».proof.Proof.KRunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the reset case the pieces the body leaves tile the output block, so they cover it. -/
theorem cover0_A_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : cond0_0 i)
    (x0 : Vec F S64x32768 .f32) (x1 : Vec F S64x4 .bf16) (y : S1x4x32768.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x32768.size (by sl_kernel_rfl) y

/-- What the reset case leaves in the output's staging buffer: its pieces read back. -/
def out0_A_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : cond0_0 i)
    (x0 : Vec F S64x32768 .f32) (x1 : Vec F S64x4 .bf16) : Vec F S1x4x32768 .f32 :=
  VO0_2.read (Elt F) (VO0_2.writes (Elt F) VO0_2.junk (kernelRun0_A c i arg2 harg2 arg3 harg3 arg4 harg4 hc0 x0 x1).1)

/-- In the accumulating case too. -/
theorem cover0_B_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : ¬cond0_0 i)
    (x0 : Vec F S64x32768 .f32) (x1 : Vec F S64x4 .bf16) (xo2 : Vec F S1x4x32768 .f32) (y : S1x4x32768.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x32768.size (by sl_kernel_rfl) y

/-- What the accumulating case leaves in the output's staging buffer, over what it found there. -/
def out0_B_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : ¬cond0_0 i)
    (x0 : Vec F S64x32768 .f32) (x1 : Vec F S64x4 .bf16) (xo2 : Vec F S1x4x32768 .f32) : Vec F S1x4x32768 .f32 :=
  VO0_2.read (Elt F) (VO0_2.writes (Elt F) VO0_2.junk (kernelRun0_B c i arg2 harg2 arg3 harg3 arg4 harg4 hc0 x0 x1 xo2).1)

/-! ## What the output's buffer holds after each point -/

/-- The accumulation: after point n the output's staging buffer holds the reset case's result at the first step of
    a half, and otherwise the accumulating case's over what point n - 1 left. -/
def outsAt0 (c : Dev nD) : (n : ℕ) → n < cfg0.N → Vec F S1x4x32768 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 32 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At the first step of a half: the reset case's result. -/
theorem outsAt0_A (c : Dev nD) (t : Fin cfg0.N) (h0 : t.val % 32 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later step: the accumulating case's result over what the point before left. -/
theorem outsAt0_B (c : Dev nD) (t : Fin cfg0.N) (h0 : ¬t.val % 32 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point t each input's buffer at its block and the output's at
    the accumulation; nothing carried besides; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later step of a half the output's staging buffer holds what the body left at the point before: the buffer
    was not written back between. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' buffers hold their blocks; the point is the first step of a half or a later
    one; at a later one the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 64 := lt_of_lt_of_eq t.isLt (show cfg0.N = 64 from N_0)
  by_cases h0 : t.val % 32 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault; at the
    end each of the region's arrays holds what the write-backs leave and every other unscoped buffer what the host
    lines after the region compute from the region's exit. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- No host line before or after the region writes an argument array, and neither is one of the region's arrays. -/
theorem arg_kept (c : Dev nD) (b : Ref sig .tc) (hb : b ∈ [main_arg0, main_arg1]) :
    Pipeline.afterTail₀ cfgs (dats m) 0 (V0 m) tailOpss c b = m ((c.tc : Thread nD τ).loc b) := by
  have hg : b ∈ guarded := by
    simp only [List.mem_cons, List.mem_nil_iff, or_false] at hb
    rcases hb with rfl | rfl <;> decide
  have harr : ∀ w, Pipeline.arrRef spec0 w ≠ b := by
    simp only [List.mem_cons, List.mem_nil_iff, or_false] at hb
    rcases hb with rfl | rfl <;> decide
  unfold Pipeline.afterTail₀
  rw [StableHlo.after_of_forall_not_mem _ _ (fun op hop => tail_keeps op hop b hg), Pipeline.withArrays_of_ne _ c (V0 m c) _ b harr]
  exact StableHlo.after_of_forall_not_mem _ _ (fun op hop => pre_keeps op hop b hb)

/-- THE FRAME: the program runs to its end without a fault and its two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (arg_kept m c main_arg0 (by decide)),
     ((h c).2 main_arg1 (Pipeline.mem_restRefs_of main_arg1 rfl (by decide))).trans (arg_kept m c main_arg1 (by decide))⟩)
    (run_main m ρ)

end Cert.Kernel.Fr

end
-- ==== Proof.KIRuns.lean ====
/-
  The kernel program's run, first part: what its buffers hold when the accelerator region is entered (the host lines
  before it applied to the launch memory), the program as "host lines, the region, host lines", the facts about
  the lines after the region that let them run beside the region's arrays (they touch only unscoped buffers,
  allocate nothing, and never write one of the three arrays the region stages), each window's block at a grid
  point, and the body's one branch condition: the second grid coordinate is zero, which holds at the points
  0 and 32 of the 64 (the first step of each half).
-/
import proofs.«431240_j9079560864491_3_alg».proof.Proof.Gen.KernelIdeal.Launch
import proofs.«431240_j9079560864491_3_alg».proof.Proof.Gen.KernelIdeal.Skeleton
import proofs.«431240_j9079560864491_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host lines after the region, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- What core c's buffers hold when the region is entered: the host lines before it applied to the launch memory. -/
abbrev V0 (c : Dev nD) : Valuation τ sig (Elt F) := StableHlo.after (List.flatten [hostOps0, hostOps0_1]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- The program is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0, hostOps0_1] tailOpss ⟨hostOps0_sub, hostOps0_1_sub⟩
    ⟨hostOps0_fresh, hostOps0_1_fresh⟩ main_chain

/-- The lines after the region touch unscoped buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop

/-- The buffers no host line after the region may write: the region's three arrays and the two arguments. -/
abbrev guarded : List (Ref sig .tc) := [main_v3, main_v0, main_v4, main_arg0, main_arg1]

theorem hostOps1_keeps : ∀ op ∈ (hostOps1 : List (HloOp τ sig (Elt F))), ∀ b ∈ guarded, Proc.devRef .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : ∀ op ∈ (hostOps1_1 : List (HloOp τ sig (Elt F))), ∀ b ∈ guarded, Proc.devRef .tc b ∉ op.writes := by
  intro op hop
  simp only [hostOps1_1, List.mem_cons, List.mem_nil_iff, or_false] at hop
  rcases hop with rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : ∀ op ∈ (hostOps1_2 : List (HloOp τ sig (Elt F))), ∀ b ∈ guarded, Proc.devRef .tc b ∉ op.writes := by
  intro op hop
  simp only [hostOps1_2, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : ∀ op ∈ (hostOps1_3 : List (HloOp τ sig (Elt F))), ∀ b ∈ guarded, Proc.devRef .tc b ∉ op.writes := by
  intro op hop
  simp only [hostOps1_3, List.mem_cons, List.mem_nil_iff, or_false] at hop
  rcases hop with rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : ∀ op ∈ (hostOps1_4 : List (HloOp τ sig (Elt F))), ∀ b ∈ guarded, Proc.devRef .tc b ∉ op.writes := by
  intro op hop
  simp only [hostOps1_4, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : ∀ op ∈ (hostOps1_5 : List (HloOp τ sig (Elt F))), ∀ b ∈ guarded, Proc.devRef .tc b ∉ op.writes := by
  intro op hop
  simp only [hostOps1_5, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : ∀ op ∈ (hostOps1_6 : List (HloOp τ sig (Elt F))), ∀ b ∈ guarded, Proc.devRef .tc b ∉ op.writes := by
  intro op hop
  simp only [hostOps1_6, List.mem_cons, List.mem_nil_iff, or_false] at hop
  rcases hop with rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : ∀ op ∈ (hostOps1_7 : List (HloOp τ sig (Elt F))), ∀ b ∈ guarded, Proc.devRef .tc b ∉ op.writes := by
  intro op hop
  simp only [hostOps1_7, List.mem_cons, List.mem_nil_iff, or_false] at hop
  rcases hop with rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : ∀ op ∈ (hostOps1_8 : List (HloOp τ sig (Elt F))), ∀ b ∈ guarded, Proc.devRef .tc b ∉ op.writes := by
  intro op hop
  simp only [hostOps1_8, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : ∀ op ∈ (hostOps1_9 : List (HloOp τ sig (Elt F))), ∀ b ∈ guarded, Proc.devRef .tc b ∉ op.writes := by
  intro op hop
  simp only [hostOps1_9, List.mem_cons, List.mem_nil_iff, or_false] at hop
  rcases hop with rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : ∀ op ∈ (hostOps1_10 : List (HloOp τ sig (Elt F))), ∀ b ∈ guarded, Proc.devRef .tc b ∉ op.writes := by
  intro op hop
  simp only [hostOps1_10, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_11_keeps : ∀ op ∈ (hostOps1_11 : List (HloOp τ sig (Elt F))), ∀ b ∈ guarded, Proc.devRef .tc b ∉ op.writes := by
  intro op hop
  simp only [hostOps1_11, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_12_keeps : ∀ op ∈ (hostOps1_12 : List (HloOp τ sig (Elt F))), ∀ b ∈ guarded, Proc.devRef .tc b ∉ op.writes := by
  intro op hop
  simp only [hostOps1_12, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_13_keeps : ∀ op ∈ (hostOps1_13 : List (HloOp τ sig (Elt F))), ∀ b ∈ guarded, Proc.devRef .tc b ∉ op.writes := by
  intro op hop
  simp only [hostOps1_13, List.mem_cons, List.mem_nil_iff, or_false] at hop
  rcases hop with rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_14_keeps : ∀ op ∈ (hostOps1_14 : List (HloOp τ sig (Elt F))), ∀ b ∈ guarded, Proc.devRef .tc b ∉ op.writes := by
  intro op hop
  simp only [hostOps1_14, List.mem_cons, List.mem_nil_iff, or_false] at hop
  rcases hop with rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_15_keeps : ∀ op ∈ (hostOps1_15 : List (HloOp τ sig (Elt F))), ∀ b ∈ guarded, Proc.devRef .tc b ∉ op.writes := by
  intro op hop
  simp only [hostOps1_15, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_16_keeps : ∀ op ∈ (hostOps1_16 : List (HloOp τ sig (Elt F))), ∀ b ∈ guarded, Proc.devRef .tc b ∉ op.writes := by
  intro op hop
  simp only [hostOps1_16, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro b hb; simp only [guarded, List.mem_cons, List.mem_nil_iff, or_false] at hb; rcases hb with rfl | rfl | rfl | rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The host lines before the region write neither argument. -/
theorem pre_keeps : ∀ op ∈ (List.flatten [hostOps0, hostOps0_1] : List (HloOp τ sig (Elt F))), ∀ b ∈ [main_arg0, main_arg1], Proc.devRef .tc b ∉ op.writes := by
  intro op hop
  simp only [hostOps0, hostOps0_1, List.flatten_cons, List.flatten_nil, List.append_nil, List.cons_append, List.nil_append, List.mem_cons, List.mem_nil_iff, or_false] at hop
  rcases hop with rfl | rfl | rfl | rfl | rfl | rfl | rfl | rfl | rfl | rfl
  all_goals intro b hb; simp only [List.mem_cons, List.mem_nil_iff, or_false] at hb; rcases hb with rfl | rfl <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line after the region writes a guarded buffer. -/
theorem tail_keeps : ∀ op ∈ (List.flatten tailOpss : List (HloOp τ sig (Elt F))), ∀ b ∈ guarded, Proc.devRef .tc b ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop
  · exact hostOps1_15_keeps op hop
  · exact hostOps1_16_keeps op hop

/-- And none writes one of the region's three arrays: each writes only its own result buffer. -/
theorem sfx_keeps : ∀ ops ∈ (tailOpss : List (List (HloOp τ sig (Elt F)))), ∀ op ∈ ops,
    ∀ w, Proc.devRef .tc (Pipeline.arrRef spec0 w) ∉ op.writes := by
  intro ops hops op hop w
  refine tail_keeps op (List.mem_flatten.mpr ⟨ops, hops, hop⟩) (Pipeline.arrRef spec0 w) ?_
  fin_cases w <;> decide

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one branch: the second grid coordinate is zero. -/
abbrev cond0_0 (i : grid0.Coords) : Prop := (Scalar.cmpi .ne (Scalar.extui (Scalar.cmpi .eq (BitVec.ofNat 32 (i 1).val) 0#32)) 0#32) = 1#1
/-- It holds at the first of every 32 points. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs -/

/-- One staging buffer of the output window, through which its contents are stated. -/
abbrev VO0_2 : View sig .tc .vmem S1x4x32768 .f32 := (Memref.whole cc0_stg2_0 : Memref sig .tc .vmem S1x4x32768 .f32).view
/-- Each window's current staging memref at point t, as the pipeline passes it, and its wholeness. -/
abbrev ms0_0 (t : Fin cfg0.N) : Memref sig .tc .vmem S64x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x32768 .f32 := win0_2.stage (cfg0.slots t 2)
abbrev hs0_2 (t : Fin cfg0.N) : (ms0_2 t).IsWhole := hstage0_2 ((cfg0.slots t 2).cast nbuf0_2)

end Cert.KernelIdeal.Fr

end
-- ==== Proof.KIRunA.lean ====
/-
  The kernel body run once, whole, in the case where its branch is taken (the first step of a half: the output block is first set to zero):
  on whole staging buffers — the two inputs' at their contents, the output's at anything — it runs to the end,
  hands the inputs back as they were, and leaves the output buffer written over by the pieces the run finds.
-/
import proofs.«431240_j9079560864491_3_alg».proof.Proof.KIRuns

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer (last first) in this case, with the proof that
    the body runs to its continuation holding the inputs as they were and the output with those pieces written. -/
noncomputable def kernelRun0_A (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : cond0_0 i)
    (x0 : Vec F S64x32768 .f32) (x1 : Vec F S64x4 .bf16) :
    { L2 : List (View.Piece (Elt F) S1x4x32768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KIRunB.lean ====
/-
  The kernel body run once, whole, in the case where its branch is not taken (a later step of a half: the output block holds the running sum):
  on whole staging buffers — the two inputs' at their contents, the output's at its running contents — it runs to the end,
  hands the inputs back as they were, and leaves the output buffer written over by the pieces the run finds.
-/
import proofs.«431240_j9079560864491_3_alg».proof.Proof.KIRunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer (last first) in this case, with the proof that
    the body runs to its continuation holding the inputs as they were and the output with those pieces written. -/
noncomputable def kernelRun0_B (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : ¬cond0_0 i)
    (x0 : Vec F S64x32768 .f32) (x1 : Vec F S64x4 .bf16) (xo2 : Vec F S1x4x32768 .f32) :
    { L2 : List (View.Piece (Elt F) S1x4x32768 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, fun E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KIFrame.lean ====
/-
  The kernel program's run, last part. What the output's staging buffer holds after the body at each grid point:
  at the first step of a half the block is set to zero and the step's product added; at a later step the product
  is added to what the step before left (the buffer is written back only after the last step of a half, and is not
  touched between). With that as proof data the body meets its obligation at every point, so the whole program
  runs to its end without a fault: the three arrays the region stages end at what the write-backs leave, every other
  buffer at what the host lines after the region compute, and the two argument arrays as they were launched.
-/
import proofs.«431240_j9079560864491_3_alg».proof.Proof.KIRunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In the reset case the pieces the body leaves tile the output block, so they cover it. -/
theorem cover0_A_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : cond0_0 i)
    (x0 : Vec F S64x32768 .f32) (x1 : Vec F S64x4 .bf16) (y : S1x4x32768.Idx) :
    ∃ pc ∈ (kernelRun0_A c i arg2 harg2 arg3 harg3 arg4 harg4 hc0 x0 x1).1, y ∈ pc.1.set :=
  View.cover_of_tiledL (kernelRun0_A c i arg2 harg2 arg3 harg3 arg4 harg4 hc0 x0 x1).1 S1x4x32768.size (by sl_kernel_rfl) y

/-- What the reset case leaves in the output's staging buffer: its pieces read back. -/
def out0_A_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : cond0_0 i)
    (x0 : Vec F S64x32768 .f32) (x1 : Vec F S64x4 .bf16) : Vec F S1x4x32768 .f32 :=
  VO0_2.read (Elt F) (VO0_2.writes (Elt F) VO0_2.junk (kernelRun0_A c i arg2 harg2 arg3 harg3 arg4 harg4 hc0 x0 x1).1)

/-- In the accumulating case too. -/
theorem cover0_B_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : ¬cond0_0 i)
    (x0 : Vec F S64x32768 .f32) (x1 : Vec F S64x4 .bf16) (xo2 : Vec F S1x4x32768 .f32) (y : S1x4x32768.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x4x32768.size (by sl_kernel_rfl) y

/-- What the accumulating case leaves in the output's staging buffer, over what it found there. -/
def out0_B_2 (c : Dev nD) (i : grid0.Coords) (arg2 : Memref sig .tc .vmem S64x32768 .f32) (harg2 : arg2.IsWhole) (arg3 : Memref sig .tc .vmem S64x4 .bf16) (harg3 : arg3.IsWhole) (arg4 : Memref sig .tc .vmem S1x4x32768 .f32) (harg4 : arg4.IsWhole) (hc0 : ¬cond0_0 i)
    (x0 : Vec F S64x32768 .f32) (x1 : Vec F S64x4 .bf16) (xo2 : Vec F S1x4x32768 .f32) : Vec F S1x4x32768 .f32 :=
  VO0_2.read (Elt F) (VO0_2.writes (Elt F) VO0_2.junk (kernelRun0_B c i arg2 harg2 arg3 harg3 arg4 harg4 hc0 x0 x1 xo2).1)

/-! ## What the output's buffer holds after each point -/

/-- The accumulation: after point n the output's staging buffer holds the reset case's result at the first step of
    a half, and otherwise the accumulating case's over what point n - 1 left. -/
def outsAt0 (c : Dev nD) : (n : ℕ) → n < cfg0.N → Vec F S1x4x32768 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 32 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At the first step of a half: the reset case's result. -/
theorem outsAt0_A (c : Dev nD) (t : Fin cfg0.N) (h0 : t.val % 32 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later step: the accumulating case's result over what the point before left. -/
theorem outsAt0_B (c : Dev nD) (t : Fin cfg0.N) (h0 : ¬t.val % 32 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point t each input's buffer at its block and the output's at
    the accumulation; nothing carried besides; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later step of a half the output's staging buffer holds what the body left at the point before: the buffer
    was not written back between. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)) := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1600000 in
/-- The body at any point: the inputs' buffers hold their blocks; the point is the first step of a half or a later
    one; at a later one the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 64 := lt_of_lt_of_eq t.isLt (show cfg0.N = 64 from N_0)
  by_cases h0 : t.val % 32 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates without a fault; at the
    end each of the region's arrays holds what the write-backs leave and every other unscoped buffer what the host
    lines after the region compute from the region's exit. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- No host line before or after the region writes an argument array, and neither is one of the region's arrays. -/
theorem arg_kept (c : Dev nD) (b : Ref sig .tc) (hb : b ∈ [main_arg0, main_arg1]) :
    Pipeline.afterTail₀ cfgs (dats m) 0 (V0 m) tailOpss c b = m ((c.tc : Thread nD τ).loc b) := by
  have hg : b ∈ guarded := by
    simp only [List.mem_cons, List.mem_nil_iff, or_false] at hb
    rcases hb with rfl | rfl <;> decide
  have harr : ∀ w, Pipeline.arrRef spec0 w ≠ b := by
    simp only [List.mem_cons, List.mem_nil_iff, or_false] at hb
    rcases hb with rfl | rfl <;> decide
  unfold Pipeline.afterTail₀
  rw [StableHlo.after_of_forall_not_mem _ _ (fun op hop => tail_keeps op hop b hg), Pipeline.withArrays_of_ne _ c (V0 m c) _ b harr]
  exact StableHlo.after_of_forall_not_mem _ _ (fun op hop => pre_keeps op hop b hb)

/-- THE FRAME: the program runs to its end without a fault and its two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (arg_kept m c main_arg0 (by decide)),
     ((h c).2 main_arg1 (Pipeline.mem_restRefs_of main_arg1 rfl (by decide))).trans (arg_kept m c main_arg1 (by decide))⟩)
    (run_main m ρ)

end Cert.KernelIdeal.Fr

end
-- ==== Proof.Tail.lean ====
/-
  The part of the computation that both programs share, as named functions of the two quantities that enter it:
  the per-class counts (four numbers) and the per-class sums (a 4 x 64 x 512 array).
  From them: each class centre is its sum divided by max(count, 1); the 4 x 4 matrix of Frobenius distances
  between centres is the square root of the sum over the trailing two axes of the squared differences; the
  six pairs (i, j) with i < j are found by the usual masked count (an upper-triangular mask of ones, its
  running count, a scatter of ones at the running counts, a second running count, then quotient and remainder
  by 4 of the flat positions); the result is the mean of the six distances.
  Nothing here is evaluated: both programs' final value is this one term of their counts and sums.
-/
import proofs.«431240_j9079560864491_3_alg».proof.KernelIdeal
import proofs.«431240_j9079560864491_3_alg».proof.Proof.Gen.KernelIdeal

noncomputable section

namespace Cert.Tail

open Idealize.ShloMosaic Cert.KernelIdeal Cert.KernelIdeal.Facts₀

variable {F : FTy → Type} [FloatOps F]

/-- The 4 x 4 matrix of Frobenius distances between the class centres sums / max(counts, 1). -/
def norms (cnt : FVec F S4 .f32) (sums : FVec F S4x64x512 .f32) : FVec F S4x4 .f32 :=
  let safe : FVec F S4 .f32 := maximumf cnt (broadcastInDim S4 ![] bcast_S_S4 (constant S_ .f32 0x3F800000#32))
  let centers : FVec F S4x64x512 .f32 :=
    Host.divf sums (broadcastInDim S4x64x512 ![0, 1, 2] bcast_S4x1x1_S4x64x512_0_1_2 (broadcastInDim S4x1x1 ![0] bcast_S4_S4x1x1_0 safe))
  let d : FVec F S4x4x64x512 .f32 :=
    subf (broadcastInDim S4x4x64x512 ![0, 1, 2, 3] bcast_S4x1x64x512_S4x4x64x512_0_1_2_3 (broadcastInDim S4x1x64x512 ![0, 2, 3] bcast_S4x64x512_S4x1x64x512_0_2_3 centers))
      (broadcastInDim S4x4x64x512 ![0, 1, 2, 3] bcast_S1x4x64x512_S4x4x64x512_0_1_2_3 (broadcastInDim S1x4x64x512 ![1, 2, 3] bcast_S4x64x512_S1x4x64x512_1_2_3 centers))
  Host.sqrt (Host.reduceAdd (mulf d d) (constant S_ .f32 0x00000000#32) reducesTo_S4x4x64x512_S4x4_d2_3 h_S_)

/-- The strictly-upper-triangular mask of a 4 x 4 matrix of ones, as booleans: entry (i, j) is set when i < j. -/
def upperMask (F : FTy → Type) [FloatOps F] : IVec S4x4 1 :=
  let ones : FVec F S4x4 .f32 := broadcastInDim S4x4 ![] bcast_S_S4x4 (constant S_ .f32 0x3F800000#32)
  let lower : IVec S4x4 1 := cmpi .sge (addi (iotaInDim S4x4 32 0) (broadcastInDim S4x4 ![] bcast_S_S4x4 (constantI S_ 32 0#32))) (iotaInDim S4x4 32 1)
  let tri : FVec F S4x4 .f32 := select lower (broadcastInDim S4x4 ![] bcast_S_S4x4 (constant S_ .f32 0x00000000#32)) ones
  cmpf .une tri (broadcastInDim S4x4 ![] bcast_S_S4x4 (constant S_ .f32 0x00000000#32))

/-- The running count of the flattened mask (sixteen entries). -/
def runningCount (mask : IVec S4x4 1) : IVec S16 32 :=
  Host.reduceWindow IntOp.addi ![16] ![1] ![15] ![0] (extui 32 (shapeCast S16 mask shapeCasts_S4x4_S16) natLt_1_32)
    (broadcastInDim S_ ![] bcast_S_S_ (constantI S_ 32 0#32)) reduceWindows_S16_S16_w16s1p15_0 h_S_

/-- For each of the six slots, the flat position of the mask entry that fills it: ones scattered at the running counts
    (clipped below at zero, negative positions wrapped by six), then counted along the slots. -/
def flatPos (rc : IVec S16 32) : IVec S6 32 :=
  let clipped : IVec S16 32 := maxsi (broadcastInDim S16 ![] bcast_S_S16 (id (constantI S_ 32 0#32))) rc
  let wrapped : IVec S16 32 :=
    select (cmpi .slt clipped (broadcastInDim S16 ![] bcast_S_S16 (constantI S_ 32 0#32)))
      (addi clipped (broadcastInDim S16 ![] bcast_S_S16 (constantI S_ 32 6#32))) clipped
  let hits : IVec S6 32 :=
    Host.scatter scatter_S6_S16x1_S16_n_0_0_1 IntOp.addi (broadcastInDim S6 ![] bcast_S_S6 (constantI S_ 32 0#32))
      (broadcastInDim S16x1 ![0] bcast_S16_S16x1_0 wrapped) (broadcastInDim S16 ![] bcast_S_S16 (constantI S_ 32 1#32))
  Host.reduceWindow IntOp.addi ![6] ![1] ![5] ![0] hits (broadcastInDim S_ ![] bcast_S_S_ (constantI S_ 32 0#32)) reduceWindows_S6_S6_w6s1p5_0 h_S_

/-- Floor division of six integers by one: the truncated quotient, less one where the signs differ and the division is inexact. -/
def floorDiv (x : IVec S6 32) (d : IVec S_ 32) : IVec S6 32 :=
  let q : IVec S6 32 := Host.divsi x (broadcastInDim S6 ![] bcast_S_S6 d)
  select (andi (cmpi .ne (signi x) (broadcastInDim S6 ![] bcast_S_S6 (signi d)))
      (cmpi .ne (Host.remsi x (broadcastInDim S6 ![] bcast_S_S6 d)) (broadcastInDim S6 ![] bcast_S_S6 (constantI S_ 32 0#32))))
    (subi q (broadcastInDim S6 ![] bcast_S_S6 (constantI S_ 32 1#32))) q

/-- The remainder of six integers by one with the divisor's sign (a zero divisor read as one). -/
def floorRem (x : IVec S6 32) (d : IVec S_ 32) : IVec S6 32 :=
  let d' : IVec S_ 32 := select (cmpi .eq (id d) (constantI S_ 32 0#32)) (constantI S_ 32 1#32) (id d)
  let r : IVec S6 32 := Host.remsi x (broadcastInDim S6 ![] bcast_S_S6 d')
  select (andi (cmpi .ne (cmpi .slt r (broadcastInDim S6 ![] bcast_S_S6 (constantI S_ 32 0#32)))
        (broadcastInDim S6 ![] bcast_S_S6 (cmpi .slt d' (constantI S_ 32 0#32))))
      (cmpi .ne r (broadcastInDim S6 ![] bcast_S_S6 (constantI S_ 32 0#32))))
    (addi r (broadcastInDim S6 ![] bcast_S_S6 d')) r

/-- A negative index wrapped by four. -/
def wrap4 (a : IVec S6 32) : IVec S6 32 :=
  select (cmpi .slt a (broadcastInDim S6 ![] bcast_S_S6 (constantI S_ 32 0#32))) (addi a (broadcastInDim S6 ![] bcast_S_S6 (constantI S_ 32 4#32))) a

/-- The row indices of the six pairs: the flat positions divided by four, then taken modulo four. -/
def rowIdx (F : FTy → Type) [FloatOps F] : IVec S6 32 :=
  floorRem (floorDiv (flatPos (runningCount (upperMask F))) (constantI S_ 32 4#32)) (constantI S_ 32 4#32)

/-- The column indices of the six pairs: the flat positions divided by one, then taken modulo four. -/
def colIdx (F : FTy → Type) [FloatOps F] : IVec S6 32 :=
  floorRem (floorDiv (flatPos (runningCount (upperMask F))) (constantI S_ 32 1#32)) (constantI S_ 32 4#32)

/-- The mean over the six index pairs (a, b) of the matrix's entries there. -/
def meanAt (N : FVec F S4x4 .f32) (a b : IVec S6 32) : FVec F S_ .f32 :=
  Host.divf (Host.reduceAdd
      (Host.gather gather_S4x4_S6x2_S6_n_01_n_n_01_1_11 N
        (concatenate S6x2 1 [⟨S6x1, broadcastInDim S6x1 ![0] bcast_S6_S6x1_0 (wrap4 a)⟩, ⟨S6x1, broadcastInDim S6x1 ![0] bcast_S6_S6x1_0 (wrap4 b)⟩] concatenates_S6x1_S6x1_S6x2_d1))
      (constant S_ .f32 0x00000000#32) reducesTo_S6_S_d0 h_S_)
    (constant S_ .f32 0x40C00000#32)

/-- The whole shared computation: the mean pairwise distance between class centres, from the counts and the sums. -/
def tail (cnt : FVec F S4 .f32) (sums : FVec F S4x64x512 .f32) : FVec F S_ .f32 :=
  meanAt (norms cnt sums) (rowIdx F) (colIdx F)

end Cert.Tail

end
-- ==== Proof.KerDefs.lean ====
/-
  The kernel program's quantities before and after its one accelerator region: the one-hot encoding of the labels
  (row n, column k is 1 when label n is k, else 0), the counts as its column sums, x with its two trailing axes
  merged, and the per-class sums recovered from the region's result (two partial sums, one per half of the rows)
  by adding the halves and splitting the merged axis again.
-/
import proofs.«431240_j9079560864491_3_alg».proof.KernelIdeal
import proofs.«431240_j9079560864491_3_alg».proof.Proof.Gen.KernelIdeal

noncomputable section

namespace Cert.KernelIdeal.Kv

open Idealize.ShloMosaic Cert.KernelIdeal Cert.KernelIdeal.Facts₀

variable {F : FTy → Type} [FloatOps F]

/-- The one-hot encoding of the labels over four classes. -/
def onehot (lab : IVec S4096 32) : FVec F S4096x4 .bf16 :=
  uitofp .bf16 (cmpi .eq
    (broadcastInDim S4096x4 ![0, 1] bcast_S4096x1_S4096x4_0_1 (broadcastInDim S4096x1 ![0] bcast_S4096_S4096x1_0 lab))
    (broadcastInDim S4096x4 ![0, 1] bcast_S1x4_S4096x4_0_1 (iotaInDim S1x4 32 1)))

/-- The counts: the one-hot columns summed over the rows. -/
def kerCounts (lab : IVec S4096 32) : FVec F S4 .f32 :=
  Host.reduceAdd (extf .f32 (onehot (F := F) lab) bitsLt_bf16_f32) (constant S_ .f32 0x00000000#32) reducesTo_S4096x4_S4_d0 h_S_

/-- x with its two trailing axes merged into one of 32768. -/
def xflat (x : FVec F S4096x64x512 .f32) : FVec F S4096x32768 .f32 :=
  shapeCast S4096x32768 x shapeCasts_S4096x64x512_S4096x32768

/-- The per-class sums from the two partial sums: the halves added, the merged axis split. -/
def sumsOf (acc : FVec F S2x4x32768 .f32) : FVec F S4x64x512 .f32 :=
  shapeCast S4x64x512 (Host.reduceAdd acc (constant S_ .f32 0x00000000#32) reducesTo_S2x4x32768_S4x32768_d0 h_S_) shapeCasts_S4x32768_S4x64x512

end Cert.KernelIdeal.Kv

end
-- ==== Proof.KITail.lean ====
/-
  The kernel program's host lines around its one accelerator region, read as named functions.
  After the region: the per-class sums are recovered from the region's two partial sums, and from them and the counts
  the lines compute the class centres, the 4 x 4 matrix of Frobenius distances between them, the index pairs (i, j)
  with i < j by a masked count, and the mean of the six distances there — the shared computation, line for line.
  The 157 lines are read in five stretches cut where few values are alive (the matrix of distances; the flat
  positions; the row indices; the column indices), each stretch's result stated over any contents before it, and the
  stretches composed. Before the region: the one-hot encoding of the labels, the counts, and x with its trailing axes
  merged. No line on either side writes an argument.
-/
import proofs.«431240_j9079560864491_3_alg».proof.Proof.Gen.KernelIdeal.Launch
import proofs.«431240_j9079560864491_3_alg».proof.Proof.Tail
import proofs.«431240_j9079560864491_3_alg».proof.Proof.KerDefs
import Idealize.ShloMosaic.Lib.StableHlo.Run

noncomputable section

namespace Cert.KernelIdeal.Tl

open Cert.KernelIdeal Cert.KernelIdeal.Gen Idealize.ShloMosaic Idealize.ShloMosaic.TcCoe Idealize.SL.Sem Idealize.ShloMosaic.StableHlo

variable {F : FTy → Type} [FloatOps F]

/-! ## Two lines run one after the other -/

/-- The contents after a line followed by another are the second line's over the first's. -/
theorem after_append (a b : List (HloOp τ sig (Elt F))) (V : Valuation τ sig (Elt F)) :
    after (a ++ b) V = after b (after a V) := by
  induction a generalizing V with
  | nil => rfl
  | cons op a ih => rw [List.cons_append, after_cons, after_cons, ih]

/-! ## The first stretch: the per-class sums, the centres, the matrix of distances, a matrix of ones

The partial sums are added over the leading axis and the merged axis is split: the per-class sums. The counts are
raised to at least one, the sums divided by them, every pair of centres subtracted, the squares summed over the two
trailing axes, and the square root taken. The last two lines of the stretch make the 4 x 4 matrix of ones that the
triangular mask starts from. -/

attribute [local irreducible] Host.reduceAdd Host.divf Host.sqrt in
theorem segA_v19 (W : Valuation τ sig (Elt F)) :
    after (hostOps1 (F := F)) W (Proc.devRef .tc main_v19)
      = Cert.Tail.norms (F := F) (W (Proc.devRef .tc main_v2)) (Cert.KernelIdeal.Kv.sumsOf (W (Proc.devRef .tc main_v4))) := by
  after_results_simp
  rfl

theorem segA_v20 (W : Valuation τ sig (Elt F)) :
    after (hostOps1 (F := F)) W (Proc.devRef .tc main_v20)
      = broadcastInDim S4x4 ![] bcast_S_S4x4 (constant (F := F) S_ .f32 0x3F800000#32) := by
  after_results_simp

/-! ## The second stretch: the triangular mask, its running count, the scattered ones, the flat positions

Seven lines: the mask of the entries strictly above the diagonal (from the matrix of ones), the comparison with zero,
the running count of the sixteen flattened entries, the clip at zero and the wrap by six, the scatter of ones at those
positions into six slots, and the running count of the slots. The matrix of distances is not touched. -/

/-- The mask and count lines run one after the other. -/
abbrev runB (V : Valuation τ sig (Elt F)) : Valuation τ sig (Elt F) :=
  after hostOps1_7 (after hostOps1_6 (after hostOps1_5 (after hostOps1_4 (after hostOps1_3 (after hostOps1_2 (after hostOps1_1 V))))))

attribute [local irreducible] Host.reduceWindow Host.scatter in
theorem segB_v35 (V : Valuation τ sig (Elt F))
    (h20 : V (Proc.devRef .tc main_v20) = broadcastInDim S4x4 ![] bcast_S_S4x4 (constant (F := F) S_ .f32 0x3F800000#32)) :
    runB V (Proc.devRef .tc main_v35) = Cert.Tail.flatPos (Cert.Tail.runningCount (Cert.Tail.upperMask F)) := by
  unfold runB
  after_results_simp
  rw [h20]
  rfl

theorem segB_v19 (V : Valuation τ sig (Elt F)) :
    runB V (Proc.devRef .tc main_v19) = V (Proc.devRef .tc main_v19) := by
  unfold runB
  after_results_simp

/-! ## The third stretch: the row indices

The flat positions floor-divided by four, then the remainder by four with the divisor's sign. The flat positions and
the matrix of distances are not touched. -/

/-- Division by four, then the remainder by four. -/
abbrev runC (V : Valuation τ sig (Elt F)) : Valuation τ sig (Elt F) :=
  after hostOps1_11 (after hostOps1_10 (after hostOps1_9 (after hostOps1_8 V)))

attribute [local irreducible] Host.divsi Host.remsi in
theorem segC_v37 (V : Valuation τ sig (Elt F)) :
    runC V (Proc.devRef .tc main_v37)
      = Cert.Tail.floorRem (Cert.Tail.floorDiv (V (Proc.devRef .tc main_v35)) (constantI S_ 32 4#32)) (constantI S_ 32 4#32) := by
  unfold runC
  after_results_simp
  rfl

theorem segC_v19 (V : Valuation τ sig (Elt F)) :
    runC V (Proc.devRef .tc main_v19) = V (Proc.devRef .tc main_v19) := by
  unfold runC
  after_results_simp

theorem segC_v35 (V : Valuation τ sig (Elt F)) :
    runC V (Proc.devRef .tc main_v35) = V (Proc.devRef .tc main_v35) := by
  unfold runC
  after_results_simp

/-! ## The fourth stretch: the column indices

The flat positions floor-divided by one, then the remainder by four. The row indices and the matrix of distances are
not touched. -/

/-- Division by one, then the remainder by four. -/
abbrev runD (V : Valuation τ sig (Elt F)) : Valuation τ sig (Elt F) :=
  after hostOps1_15 (after hostOps1_14 (after hostOps1_13 (after hostOps1_12 V)))

attribute [local irreducible] Host.divsi Host.remsi in
theorem segD_v39 (V : Valuation τ sig (Elt F)) :
    runD V (Proc.devRef .tc main_v39)
      = Cert.Tail.floorRem (Cert.Tail.floorDiv (V (Proc.devRef .tc main_v35)) (constantI S_ 32 1#32)) (constantI S_ 32 4#32) := by
  unfold runD
  after_results_simp
  rfl

theorem segD_v19 (V : Valuation τ sig (Elt F)) :
    runD V (Proc.devRef .tc main_v19) = V (Proc.devRef .tc main_v19) := by
  unfold runD
  after_results_simp

theorem segD_v37 (V : Valuation τ sig (Elt F)) :
    runD V (Proc.devRef .tc main_v37) = V (Proc.devRef .tc main_v37) := by
  unfold runD
  after_results_simp

/-! ## The last stretch: the mean of the six distances

Negative indices wrapped by four, the two index columns set side by side, the six entries of the matrix of distances
gathered there, summed, and divided by six. -/

attribute [local irreducible] Host.gather Host.reduceAdd Host.divf in
theorem segE_v55 (V : Valuation τ sig (Elt F)) :
    after (hostOps1_16 (F := F)) V (Proc.devRef .tc main_v55)
      = Cert.Tail.meanAt (V (Proc.devRef .tc main_v19)) (V (Proc.devRef .tc main_v37)) (V (Proc.devRef .tc main_v39)) := by
  after_results_simp
  rfl

/-! ## The whole of the lines after the accelerator region -/

/-- The lines after the accelerator region, in order. -/
abbrev tailOpss : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16]

/-- The whole line is its five stretches, one after the other. -/
theorem tail_split (W : Valuation τ sig (Elt F)) :
    after (List.flatten (tailOpss (F := F))) W = after hostOps1_16 (runD (runC (runB (after hostOps1 W)))) := by
  simp only [tailOpss, List.flatten_cons, List.flatten_nil, after_append, after_nil]

/-- The final value is the shared computation of the counts and of the per-class sums recovered from the region's
    result: each stretch's result read at the values the stretches before it left. -/
theorem tail_eq (W : Valuation τ sig (Elt F)) :
    after (List.flatten (tailOpss (F := F))) W (Proc.devRef .tc main_v55)
      = Cert.Tail.tail (F := F) (W (Proc.devRef .tc main_v2)) (Cert.KernelIdeal.Kv.sumsOf (W (Proc.devRef .tc main_v4))) := by
  rw [tail_split, segE_v55, segD_v39, segD_v37, segD_v19, segC_v37, segC_v35, segC_v19, segB_v35 _ (segA_v20 W), segB_v19, segA_v19]
  rfl

/-- No line after the region writes an argument. -/
theorem tail_keeps (W : Valuation τ sig (Elt F)) (b : Ref sig .tc) (hb : b = main_arg0 ∨ b = main_arg1) :
    after (List.flatten (tailOpss (F := F))) W (Proc.devRef .tc b) = W (Proc.devRef .tc b) := by
  rw [tail_split]
  unfold runD runC runB
  rcases hb with rfl | rfl
  · after_results_simp
  · after_results_simp

/-! ## The lines before the accelerator region

Ten lines: the one-hot encoding of the labels (six), its widening and column sums — the counts —, and x with its two
trailing axes merged. -/

theorem pre_split (V : Valuation τ sig (Elt F)) :
    after (List.flatten [hostOps0 (F := F), hostOps0_1]) V = after hostOps0_1 (after hostOps0 V) := by
  simp only [List.flatten_cons, List.flatten_nil, after_append, after_nil]

theorem pre_v0 (V : Valuation τ sig (Elt F)) :
    after (List.flatten [hostOps0 (F := F), hostOps0_1]) V (Proc.devRef .tc main_v0)
      = Cert.KernelIdeal.Kv.onehot (F := F) (V (Proc.devRef .tc main_arg1)) := by
  rw [pre_split]
  after_results_simp
  rfl

attribute [local irreducible] Host.reduceAdd in
theorem pre_v2 (V : Valuation τ sig (Elt F)) :
    after (List.flatten [hostOps0 (F := F), hostOps0_1]) V (Proc.devRef .tc main_v2)
      = Cert.KernelIdeal.Kv.kerCounts (F := F) (V (Proc.devRef .tc main_arg1)) := by
  rw [pre_split]
  after_results_simp
  rfl

theorem pre_v3 (V : Valuation τ sig (Elt F)) :
    after (List.flatten [hostOps0 (F := F), hostOps0_1]) V (Proc.devRef .tc main_v3)
      = Cert.KernelIdeal.Kv.xflat (F := F) (V (Proc.devRef .tc main_arg0)) := by
  rw [pre_split]
  after_results_simp
  rfl

/-- No line before the region writes an argument. -/
theorem pre_keeps (V : Valuation τ sig (Elt F)) (b : Ref sig .tc) (hb : b = main_arg0 ∨ b = main_arg1) :
    after (List.flatten [hostOps0 (F := F), hostOps0_1]) V (Proc.devRef .tc b) = V (Proc.devRef .tc b) := by
  rw [pre_split]
  rcases hb with rfl | rfl
  · after_results_simp
  · after_results_simp

end Cert.KernelIdeal.Tl

end
-- ==== Proof.SegDefs.lean ====
/-
  The two quantities both programs compute from the inputs, written as plain sums over the 4096 rows:
  how many labels equal class k, and the sum over the rows labelled k of x at a fixed position (c, p).
  A label outside {0, 1, 2, 3} equals no class and contributes to neither.
-/
import Idealize.ShloMosaic.Lib.ValueIdx

noncomputable section

open scoped BigOperators

namespace Cert.Seg

open Idealize.ShloMosaic Idealize.ShloMosaic.ValueIdx

/-- The number of rows whose label is the class k. -/
def segCount (lab : IVec (⟨1, ![4096]⟩ : Shape) 32) (k : Fin 4) : EReal :=
  ∑ n : Fin 4096, if lab (ix1 n) = BitVec.ofNat 32 k.val then (1 : EReal) else 0

/-- The sum, over the rows whose label is the class k, of x at position (c, p) of the row. -/
def segSum (x : (⟨3, ![4096, 64, 512]⟩ : Shape).Idx → EReal) (lab : IVec (⟨1, ![4096]⟩ : Shape) 32)
    (k : Fin 4) (c : Fin 64) (p : Fin 512) : EReal :=
  ∑ n : Fin 4096, if lab (ix1 n) = BitVec.ofNat 32 k.val then x (ix3 n c p) else 0

end Cert.Seg

end
-- ==== Proof.KerSums.lean ====
/-
  The kernel program's quantities read at one index, at the ideal values (a float is an extended real, every
  operation is the exact one, a change of format is the identity).

  * The region's first stored value is the zero array: every element is 0.
  * x with its two trailing axes merged reads, at (n, c * 512 + p), x at (n, c, p): the two indices have the same
    row-major position, (n * 64 + c) * 512 + p = n * 32768 + (c * 512 + p).
  * The per-class sums recovered from the two partial sums read, at (k, c, p), the sum over the two halves q of the
    partial sums at (q, k, c * 512 + p): a sum over the leading axis from the initial value 0, then the merged axis
    split at the same row-major position.
  * The one-hot encoding reads, at (n, k), 1 when label n is the word k and 0 otherwise: the label broadcast along
    the row, the class number broadcast down the column, the one-bit word of their equality read as a number.
  * The counts are the column sums of the one-hot encoding, from the initial value 0: at k, the number of rows whose
    label is k.
  * The region's second stored value reads, at (0, k, d), the accumulator there plus the sum over the 64 rows r of
    the block of (one-hot at (r, k)) * (x at (r, d)): a matrix product contracting the row axis of both operands,
    into a zero accumulator, added to the accumulator block with its unit axis dropped and put back.
-/
import proofs.«431240_j9079560864491_3_alg».proof.Proof.KerDefs
import proofs.«431240_j9079560864491_3_alg».proof.Proof.SegDefs
import proofs.«431240_j9079560864491_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Kv

open Idealize.ShloMosaic Idealize.ShloMosaic.ValueIdx Cert.KernelIdeal Cert.KernelIdeal.Gen

/-! ## The zero block -/

/-- The first stored value is the scalar 0 broadcast to [4, 32768] and given a leading unit axis: 0 at every index. -/
theorem pay1_apply (k : Fin 4) (d : Fin 32768) : k0_pay1 (F := Ideal) (ix3 (0 : Fin 1) k d) = 0 := by
  unfold k0_pay1
  exact Ideal.ofBits_zero_f32

/-! ## The merged axis -/

/-- x reshaped from [4096, 64, 512] to [4096, 32768]: position (n, c * 512 + p) holds x at (n, c, p). -/
theorem xflat_apply (x : FVec Ideal S4096x64x512 .f32) (n : Fin 4096) (c : Fin 64) (p : Fin 512) :
    xflat (F := Ideal) x (ix2 n (⟨c.val * 512 + p.val, by omega⟩ : Fin 32768)) = x (ix3 n c p) := by
  unfold xflat
  refine shapeCast_apply x _ _ _ ?_
  rw [Shape.rowMajor_val_three, Shape.rowMajor_val_two]
  show (n.val * 64 + c.val) * 512 + p.val = n.val * 32768 + (c.val * 512 + p.val)
  omega

/-- The per-class sums at (k, c, p): the two partial sums at (q, k, c * 512 + p) added over the halves q. The
    reshape reads the summed array at (k, c * 512 + p); the sum over the leading axis starts from 0 and runs over the
    two coordinates of that axis. -/
theorem sumsOf_apply (acc : FVec Ideal S2x4x32768 .f32) (k : Fin 4) (c : Fin 64) (p : Fin 512) :
    sumsOf (F := Ideal) acc (ix3 k c p) = ∑ q : Fin 2, acc (ix3 q k (⟨c.val * 512 + p.val, by omega⟩ : Fin 32768)) := by
  unfold sumsOf
  refine (shapeCast_apply _ _ (ix3 k c p) (ix2 k (⟨c.val * 512 + p.val, by omega⟩ : Fin 32768)) ?_).trans ?_
  · rw [Shape.rowMajor_val_three, Shape.rowMajor_val_two]
    show k.val * 32768 + (c.val * 512 + p.val) = (k.val * 64 + c.val) * 512 + p.val
    omega
  · have hR : S2x4x32768.Reduces [0] S4x32768 := by decide
    refine (Ideal.hostReduceAdd_single _ hR acc _ _).trans ?_
    show Ideal.ofBits .f32 0x00000000#32
        + ∑ q : Fin 2, acc (hR.lift (ix2 k (⟨c.val * 512 + p.val, by omega⟩ : Fin 32768)) q) = _
    rw [Ideal.ofBits_zero_f32, zero_add]
    refine Finset.sum_congr rfl fun q _ => congrArg acc ?_
    funext a
    match a with
    | ⟨0, _⟩ => exact Fin.ext rfl
    | ⟨1, _⟩ => exact Fin.ext rfl
    | ⟨2, _⟩ => exact Fin.ext rfl

/-! ## The one-hot encoding and the counts -/

/-- The word of an equality test, read as an unsigned number and then as an extended real, is 1 when the two
    words are equal and 0 otherwise. -/
private theorem cmpi_eq_toNat {w : Nat} (a b : BitVec w) :
    (((IntOp.cmpi .eq a b).toNat : ℝ) : EReal) = if a = b then (1 : EReal) else 0 := by
  unfold IntOp.cmpi
  by_cases h : a = b
  · simp [h]
  · simp [h]

/-- The one-hot encoding at (n, k), widened to f32 (the identity here): 1 when label n is the word k, else 0. The
    labels go [4096] → [4096, 1] → [4096, 4], constant along each row, so (n, k) reads label n; the class numbers
    are the second coordinate of a [1, 4] array broadcast down the columns, so (n, k) reads the word k. -/
theorem onehot_apply (lab : IVec S4096 32) (n : Fin 4096) (k : Fin 4) :
    extf .f32 (onehot (F := Ideal) lab) bitsLt_bf16_f32 (ix2 n k)
      = if lab (ix1 n) = BitVec.ofNat 32 k.val then (1 : EReal) else 0 := by
  have hA : broadcastInDim S4096x4 ![0, 1] Facts₀.bcast_S4096x1_S4096x4_0_1
      (broadcastInDim S4096x1 ![0] Facts₀.bcast_S4096_S4096x1_0 lab) (ix2 n k) = lab (ix1 n) := by
    refine (broadcastInDim_apply _ _ _ (ix2 n k) (ix2 n (0 : Fin 1)) ?_).trans ?_
    · intro a
      match a with
      | ⟨0, _⟩ => rfl
      | ⟨1, _⟩ => rfl
    · refine broadcastInDim_apply _ _ _ (ix2 n (0 : Fin 1)) (ix1 n) ?_
      intro a
      match a with
      | ⟨0, _⟩ => rfl
  have hB : broadcastInDim S4096x4 ![0, 1] Facts₀.bcast_S1x4_S4096x4_0_1 (iotaInDim S1x4 32 1) (ix2 n k)
      = BitVec.ofNat 32 k.val := by
    refine (broadcastInDim_apply _ _ _ (ix2 n k) (ix2 (0 : Fin 1) k) ?_).trans rfl
    intro a
    match a with
    | ⟨0, _⟩ => rfl
    | ⟨1, _⟩ => rfl
  show (((IntOp.cmpi .eq
      (broadcastInDim S4096x4 ![0, 1] Facts₀.bcast_S4096x1_S4096x4_0_1
        (broadcastInDim S4096x1 ![0] Facts₀.bcast_S4096_S4096x1_0 lab) (ix2 n k))
      (broadcastInDim S4096x4 ![0, 1] Facts₀.bcast_S1x4_S4096x4_0_1 (iotaInDim S1x4 32 1) (ix2 n k))).toNat : ℝ) : EReal) = _
  rw [hA, hB]
  exact cmpi_eq_toNat _ _

/-- The counts at k: the sum over the 4096 rows, from 0, of the one-hot encoding at (n, k), that is the number of
    rows whose label is the word k. -/
theorem kerCounts_apply (lab : IVec S4096 32) (k : Fin 4) :
    kerCounts (F := Ideal) lab (ix1 k) = Cert.Seg.segCount lab k := by
  unfold kerCounts Cert.Seg.segCount
  have hR : S4096x4.Reduces [0] S4 := by decide
  refine (Ideal.hostReduceAdd_single _ hR _ _ _).trans ?_
  show Ideal.ofBits .f32 0x00000000#32
      + ∑ n : Fin 4096, extf .f32 (onehot (F := Ideal) lab) Facts₀.bitsLt_bf16_f32 (hR.lift (ix1 k) n) = _
  rw [Ideal.ofBits_zero_f32, zero_add]
  refine Finset.sum_congr rfl fun n _ => ?_
  have hi : hR.lift (ix1 k) n = ix2 n k := by
    funext a
    match a with
    | ⟨0, _⟩ => exact Fin.ext rfl
    | ⟨1, _⟩ => exact Fin.ext rfl
  exact (congrArg (extf .f32 (onehot (F := Ideal) lab) Facts₀.bitsLt_bf16_f32) hi).trans (onehot_apply lab n k)

/-! ## The accumulation step

The body's one matrix product contracts axis 0 of both operands: at result index (k, d) and contraction position q,
the left operand is read at (q, k) and the right operand at (q, d). The four coordinates, one statement each. -/

private theorem lhs_axis0 (j : S4x32768.Idx) (q : dot_S64x4_S64x32768_S4x32768_0_0_1_1_n_n.contr.Idx) :
    (dot_S64x4_S64x32768_S4x32768_0_0_1_1_n_n.lhsIdx j q (0 : Fin S64x4.rank)).val = (q ⟨0, by decide⟩).val :=
  DotDims.lhsIdx_val_of_single _ rfl j q

private theorem lhs_axis1 (j : S4x32768.Idx) (q : dot_S64x4_S64x32768_S4x32768_0_0_1_1_n_n.contr.Idx) :
    (dot_S64x4_S64x32768_S4x32768_0_0_1_1_n_n.lhsIdx j q (1 : Fin S64x4.rank)).val = (j (0 : Fin S4x32768.rank)).val :=
  rfl

private theorem rhs_axis0 (j : S4x32768.Idx) (q : dot_S64x4_S64x32768_S4x32768_0_0_1_1_n_n.contr.Idx) :
    (dot_S64x4_S64x32768_S4x32768_0_0_1_1_n_n.rhsIdx j q (0 : Fin S64x32768.rank)).val = (q ⟨0, by decide⟩).val :=
  DotDims.rhsIdx_val_of_single _ rfl j q

private theorem rhs_axis1 (j : S4x32768.Idx) (q : dot_S64x4_S64x32768_S4x32768_0_0_1_1_n_n.contr.Idx) :
    (dot_S64x4_S64x32768_S4x32768_0_0_1_1_n_n.rhsIdx j q (1 : Fin S64x32768.rank)).val = (j (1 : Fin S4x32768.rank)).val :=
  rfl

/-- The second stored value at (0, k, d): the accumulator block there plus ∑ r, (one-hot block at (r, k)) * (x block
    at (r, d)). The outer reshape adds a unit axis and the inner one drops it; the two casts of the operands to
    their own shapes are the identity, and so is the widening of the one-hot block; the product into the zero array is
    the bare sum over the contraction index, re-indexed by its one coordinate r. -/
theorem pay2_apply (x0 : Vec Ideal S64x32768 .f32) (x1 : Vec Ideal S64x4 .bf16) (a : Vec Ideal S1x4x32768 .f32)
    (k : Fin 4) (d : Fin 32768) :
    k0_pay2 (F := Ideal) x0 x1 a (ix3 (0 : Fin 1) k d)
      = a (ix3 (0 : Fin 1) k d) + ∑ r : Fin 64, x1 (ix2 r k) * x0 (ix2 r d) := by
  unfold k0_pay2
  refine (shapeCast_ab_1ab_apply _ _ (0 : Fin 1) k d).trans ?_
  refine (addf_apply _ _ _).trans ?_
  refine congrArg₂ (· + ·) (shapeCast_1ab_ab_apply _ _ k d) ?_
  refine (Ideal.matmul_constant_zero_apply _ _ _ _ _).trans ?_
  refine (Equiv.sum_comp (contrEquiv1 dot_S64x4_S64x32768_S4x32768_0_0_1_1_n_n 64 rfl rfl).symm _).symm.trans ?_
  refine Finset.sum_congr rfl fun r _ => ?_
  refine congrArg₂ (· * ·) ?_ ?_
  · refine (congrFun (shapeCast_self x1 _) _).trans (congrArg x1 ?_)
    funext b
    match b with
    | ⟨0, _⟩ => exact Fin.ext ((lhs_axis0 _ _).trans (contrEquiv1_symm_val _ 64 rfl rfl r))
    | ⟨1, _⟩ => exact Fin.ext (lhs_axis1 _ _)
  · refine (congrFun (shapeCast_self x0 _) _).trans (congrArg x0 ?_)
    funext b
    match b with
    | ⟨0, _⟩ => exact Fin.ext ((rhs_axis0 _ _).trans (contrEquiv1_symm_val _ 64 rfl rfl r))
    | ⟨1, _⟩ => exact Fin.ext (rhs_axis1 _ _)

end Cert.KernelIdeal.Kv

end
-- ==== Proof.AccDefs.lean ====
/-
  The kernel's accumulation, as plain arithmetic over the extended reals. The 4096 rows are visited in 64 steps of
  64 rows; step t adds, for class k and position d, the sum over its 64 rows of (one-hot entry of the row at k) times
  (x of the row at d). The running sum is reset at the first step of each half (steps 0 and 32) and otherwise grows
  by the step's sum; what each half ends with (after steps 31 and 63) is that half's partial sum.
-/
import Idealize.ShloMosaic.Lib.ValueIdx

noncomputable section

open scoped BigOperators

namespace Cert.Acc

open Idealize.ShloMosaic Idealize.ShloMosaic.ValueIdx

/-- Row number n of the 4096 (read modulo 4096, so that it needs no bound). -/
def rowAt (n : ℕ) : Fin 4096 := ⟨n % 4096, Nat.mod_lt _ (by norm_num)⟩

/-- Step t's contribution at class k and position d: the sum over its 64 rows of the one-hot entry times x. -/
def stepSum (oh : (⟨2, ![4096, 4]⟩ : Shape).Idx → EReal) (xf : (⟨2, ![4096, 32768]⟩ : Shape).Idx → EReal)
    (t : ℕ) (k : Fin 4) (d : Fin 32768) : EReal :=
  ∑ r : Fin 64, oh (ix2 (rowAt (t * 64 + r.val)) k) * xf (ix2 (rowAt (t * 64 + r.val)) d)

/-- The running sum after step n: reset at the first step of a half, otherwise the step before plus this step. -/
def runSum (oh : (⟨2, ![4096, 4]⟩ : Shape).Idx → EReal) (xf : (⟨2, ![4096, 32768]⟩ : Shape).Idx → EReal) :
    ℕ → Fin 4 → Fin 32768 → EReal
  | 0 => fun k d => stepSum oh xf 0 k d
  | n + 1 => fun k d =>
    if (n + 1) % 32 = 0 then stepSum oh xf (n + 1) k d else runSum oh xf n k d + stepSum oh xf (n + 1) k d

theorem runSum_zero (oh xf) (k : Fin 4) (d : Fin 32768) : runSum oh xf 0 k d = stepSum oh xf 0 k d := rfl

theorem runSum_reset (oh xf) (n : ℕ) (h : (n + 1) % 32 = 0) (k : Fin 4) (d : Fin 32768) :
    runSum oh xf (n + 1) k d = stepSum oh xf (n + 1) k d := by
  show (if (n + 1) % 32 = 0 then _ else _) = _
  rw [if_pos h]

theorem runSum_step (oh xf) (n : ℕ) (h : ¬(n + 1) % 32 = 0) (k : Fin 4) (d : Fin 32768) :
    runSum oh xf (n + 1) k d = runSum oh xf n k d + stepSum oh xf (n + 1) k d := by
  show (if (n + 1) % 32 = 0 then _ else _) = _
  rw [if_neg h]

end Cert.Acc

end
-- ==== Proof.KIValue.lean ====
/-
  What the kernel program computes, at the exact instance. The body's two cases leave, in the output's staging
  buffer, "zero plus this step's product" and "what was there plus this step's product"; a step's input blocks are
  rows 64 t … 64 t + 63 of x (trailing axes merged) and of the one-hot matrix; so after step n the buffer holds the
  running sum of the steps since the half began. Each half's block is written back once, after its last step, and
  the two blocks tile the result array: the array ends holding the two halves' partial sums. The host lines after
  the region then add the halves, split the merged axis, and run the shared tail on the counts and these sums.
-/
import proofs.«431240_j9079560864491_3_alg».proof.Proof.KIFrame
import proofs.«431240_j9079560864491_3_alg».proof.Proof.KITail
import proofs.«431240_j9079560864491_3_alg».proof.Proof.KerSums
import proofs.«431240_j9079560864491_3_alg».proof.Proof.AccDefs
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)
open scoped BigOperators

namespace Cert.KernelIdeal.Val

open Cert.KernelIdeal Cert.KernelIdeal.Gen Cert.KernelIdeal.Fr Cert.KernelIdeal.Kv

/-! ## The body's two cases as values (any float instance) -/

section Pieces

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step of a half: the buffer held xo; the body leaves xo plus the product of its two input blocks. -/
theorem out_B (c : Dev nD) (i : grid0.Coords) (a2 : Memref sig .tc .vmem S64x32768 .f32) (h2 : a2.IsWhole) (a3 : Memref sig .tc .vmem S64x4 .bf16) (h3 : a3.IsWhole) (a4 : Memref sig .tc .vmem S1x4x32768 .f32) (h4 : a4.IsWhole) (hc : ¬cond0_0 i) (x0 : Vec F S64x32768 .f32) (x1 : Vec F S64x4 .bf16) (xo : Vec F S1x4x32768 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S64x32768) hz2, View.ld_unit_zero (S := S64x4) hz2, View.ld_unit_zero (S := S1x4x32768) hz3]

/-- The first step of a half: the body stores zeros, reads them back, and leaves zeros plus the product. -/
theorem out_A (c : Dev nD) (i : grid0.Coords) (a2 : Memref sig .tc .vmem S64x32768 .f32) (h2 : a2.IsWhole) (a3 : Memref sig .tc .vmem S64x4 .bf16) (h3 : a3.IsWhole) (a4 : Memref sig .tc .vmem S1x4x32768 .f32) (h4 : a4.IsWhole) (hc : cond0_0 i) (x0 : Vec F S64x32768 .f32) (x1 : Vec F S64x4 .bf16) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x4x32768) hz3, View.readCov_unit_zero (S := S1x4x32768) _ hz3]
  simp only [View.readAt_eq_ld, h2.read_unread, h3.read_unread, View.ld_unit_zero (S := S64x32768) hz2, View.ld_unit_zero (S := S64x4) hz2, View.ld_unit_zero (S := S1x4x32768) hz3]

/-- The windows' block indices over the grid: the two inputs' block is the point itself, the output's its half. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)

variable (m : (ℓ : Loc nD τ sig) → Buf (Elt F) ℓ)

/-- The two input blocks at a point and the two input arrays as the region finds them, at their literal types. -/
abbrev xblk (c : Dev nD) (t : Fin cfg0.N) : Vec F S64x32768 .f32 := iblk m c 0 t
abbrev oblk (c : Dev nD) (t : Fin cfg0.N) : Vec F S64x4 .bf16 := iblk m c 1 t
abbrev xarr (c : Dev nD) : Vec F S4096x32768 .f32 := V m c main_v3
abbrev oarr (c : Dev nD) : Vec F S4096x4 .bf16 := V m c main_v0

/-- Row r of step t's block of x is row 64 t + r of the array. -/
theorem xblk_apply (c : Dev nD) (t : Fin cfg0.N) (r : Fin 64) (d : Fin 32768) (n : Fin 4096) (hn : n.val = t.val * 64 + r.val) :
    xblk m c t (ix2 r d) = xarr m c (ix2 n d) := by
  unfold xblk xarr iblk
  rw [View.read_apply]
  show V m c main_v3 _ = V m c main_v3 _
  refine congrArg (V m c main_v3) ?_
  funext a; apply Fin.ext
  match a with
  | ⟨0, _⟩ => show win0_0.index t (0 : Fin 2) * 64 + 1 * r.val = n.val; rw [(idx0 t).1]; omega
  | ⟨1, _⟩ => show win0_0.index t (1 : Fin 2) * 32768 + 1 * d.val = d.val; rw [(idx0 t).2]; omega

/-- The same for the one-hot matrix. -/
theorem oblk_apply (c : Dev nD) (t : Fin cfg0.N) (r : Fin 64) (k : Fin 4) (n : Fin 4096) (hn : n.val = t.val * 64 + r.val) :
    oblk m c t (ix2 r k) = oarr m c (ix2 n k) := by
  unfold oblk oarr iblk
  rw [View.read_apply]
  show V m c main_v0 _ = V m c main_v0 _
  refine congrArg (V m c main_v0) ?_
  funext a; apply Fin.ext
  match a with
  | ⟨0, _⟩ => show win0_1.index t (0 : Fin 2) * 64 + 1 * r.val = n.val; rw [(idx1 t).1]; omega
  | ⟨1, _⟩ => show win0_1.index t (1 : Fin 2) * 4 + 1 * k.val = k.val; rw [(idx1 t).2]; omega

end Pieces

/-! ## The accumulation, at the exact instance -/

section Exact

variable (m : (ℓ : Loc nD τ sig) → Buf (Elt Ideal) ℓ) (ρ : Dev nD → PrngReg)

/-- A step's product read at (k, d) is the step's sum over its 64 rows. -/
theorem step_apply (c : Dev nD) (t : Fin cfg0.N) (a : Vec Ideal S1x4x32768 .f32) (k : Fin 4) (d : Fin 32768) :
    k0_pay2 (F := Ideal) (xblk m c t) (oblk m c t) a (ix3 (0 : Fin 1) k d)
      = a (ix3 (0 : Fin 1) k d) + Cert.Acc.stepSum (oarr m c) (xarr m c) t.val k d := by
  have hN : t.val < 64 := lt_of_lt_of_eq t.isLt (show cfg0.N = 64 from N_0)
  refine (pay2_apply (xblk m c t) (oblk m c t) a k d).trans ?_
  refine congrArg (a (ix3 (0 : Fin 1) k d) + ·) ?_
  unfold Cert.Acc.stepSum
  refine Finset.sum_congr rfl fun r _ => ?_
  have hr : r.val < 64 := r.isLt
  have hrow : (Cert.Acc.rowAt (t.val * 64 + r.val)).val = t.val * 64 + r.val := Nat.mod_eq_of_lt (by omega)
  rw [xblk_apply m c t r d _ hrow, oblk_apply m c t r k _ hrow]

/-- After step n the output's staging buffer holds the running sum. -/
theorem outsAt_eq (c : Dev nD) : ∀ (n : ℕ) (h : n < cfg0.N) (k : Fin 4) (d : Fin 32768),
    outsAt0 m c n h (ix3 (0 : Fin 1) k d) = Cert.Acc.runSum (oarr m c) (xarr m c) n k d
  | 0, h, k, d => by
    rw [outsAt0_A m c ⟨0, h⟩ rfl, out_A]
    refine (step_apply m c ⟨0, h⟩ _ k d).trans ?_
    rw [pay1_apply, zero_add, Cert.Acc.runSum_zero]
  | n + 1, h, k, d => by
    by_cases h0 : (n + 1) % 32 = 0
    · rw [outsAt0_A m c ⟨n + 1, h⟩ h0, out_A]
      refine (step_apply m c ⟨n + 1, h⟩ _ k d).trans ?_
      rw [pay1_apply, zero_add, Cert.Acc.runSum_reset _ _ n h0]
    · rw [outsAt0_B m c ⟨n + 1, h⟩ h0, out_B]
      refine (step_apply m c ⟨n + 1, h⟩ _ k d).trans ?_
      rw [Cert.Acc.runSum_step _ _ n h0]
      exact congrArg (· + Cert.Acc.stepSum (oarr m c) (xarr m c) (n + 1) k d) (outsAt_eq c n _ k d)

/-- What the result array ends holding: at (q, k, d) the running sum after the last step of half q. -/
def acc (c : Dev nD) : FVec Ideal S2x4x32768 .f32 := fun j =>
  Cert.Acc.runSum (oarr m c) (xarr m c) ((j 0).val * 32 + 31) (j 1) (j 2)

theorem mem_blk (t : Fin cfg0.N) (i : S2x4x32768.Idx) :
    i ∈ ((cfg0.win 2).blk t).view.set ↔ ∀ a : Fin 3, win0_2.index t a * S1x4x32768.size a ≤ (i a).val ∧ (i a).val < win0_2.index t a * S1x4x32768.size a + S1x4x32768.size a := by
  show i ∈ ((View.whole main_v4).slice (win0_2.rect t)).set ↔ _
  rw [View.set_slice_whole, Rect.mem_set_unit]
  exact Iff.rfl

/-- What the last step of a half writes back is that half's block of the array of partial sums. -/
theorem flushed_eq (c : Dev nD) (t : Fin cfg0.N) (hf : (cfg0.win 2).flush t = true) :
    (dats m 0 c).flushed 2 t = ((cfg0.win 2).blk t).view.read (Elt Ideal) (acc m c) := by
  show (cfg0.win 2).cut (grid0.coords t) ((dats m 0 c).after 2 t) = _
  rw [after0_2]
  have hN : t.val < 64 := lt_of_lt_of_eq t.isLt (show cfg0.N = 64 from N_0)
  have h31 : t.val % 32 = 31 := (flush0_2 t).mp hf
  obtain ⟨e0, e1, e2⟩ := idx2 t
  refine funext fun (j : S1x4x32768.Idx) => ?_
  rw [View.read_apply]
  show outsAt0 m c t.val t.isLt j = acc m c (((cfg0.win 2).blk t).view.emb j)
  obtain ⟨z, k, d, rfl⟩ : ∃ (z : Fin 1) (k : Fin 4) (d : Fin 32768), j = ix3 z k d := ⟨j 0, j 1, j 2, eq_ix3 j⟩
  obtain rfl : z = 0 := Subsingleton.elim _ _
  rw [outsAt_eq m c t.val t.isLt k d]
  unfold acc
  have c0 : ((((cfg0.win 2).blk t).view.emb (ix3 (0 : Fin 1) k d)) 0).val = t.val / 32 := by
    show win0_2.index t (0 : Fin 3) * 1 + 1 * 0 = _; rw [e0]; omega
  have c1 : (((cfg0.win 2).blk t).view.emb (ix3 (0 : Fin 1) k d)) 1 = k := by
    apply Fin.ext; show win0_2.index t (1 : Fin 3) * 4 + 1 * k.val = _; rw [e1]; omega
  have c2 : (((cfg0.win 2).blk t).view.emb (ix3 (0 : Fin 1) k d)) 2 = d := by
    apply Fin.ext; show win0_2.index t (2 : Fin 3) * 32768 + 1 * d.val = _; rw [e2]; omega
  rw [c0, c1, c2, show t.val / 32 * 32 + 31 = t.val from by omega]

/-- The result array after the run: the two halves' partial sums. -/
theorem final (c : Dev nD) : (dats m 0 c).arrAt 2 cfg0.N = acc m c :=
  (dats m 0 c).arrAt_eq_of_cover 2 (acc m c) (flushed_eq m c) fun i => by
    have hi0 : (i 0).val < 2 := (i 0).isLt
    have hi1 : (i 1).val < 4 := (i 1).isLt
    have hi2 : (i 2).val < 32768 := (i 2).isLt
    have hlt : (i 0).val * 32 + 31 < cfg0.N := by rw [show cfg0.N = 64 from N_0]; omega
    refine ⟨⟨(i 0).val * 32 + 31, hlt⟩, (flush0_2 _).mpr (by dsimp only; omega), ?_⟩
    rw [mem_blk]
    obtain ⟨e0, e1, e2⟩ := idx2 ⟨(i 0).val * 32 + 31, hlt⟩
    intro a
    match a with
    | ⟨0, _⟩ => show win0_2.index _ (0 : Fin 3) * 1 ≤ (i 0).val ∧ (i 0).val < win0_2.index _ (0 : Fin 3) * 1 + 1; rw [e0]; dsimp only; omega
    | ⟨1, _⟩ => show win0_2.index _ (1 : Fin 3) * 4 ≤ (i 1).val ∧ (i 1).val < win0_2.index _ (1 : Fin 3) * 4 + 4; rw [e1]; omega
    | ⟨2, _⟩ => show win0_2.index _ (2 : Fin 3) * 32768 ≤ (i 2).val ∧ (i 2).val < win0_2.index _ (2 : Fin 3) * 32768 + 32768; rw [e2]; omega

/-- The program's result: the shared tail of the one-hot column sums and of the per-class sums recovered from the
    two partial sums. -/
theorem v55_eq (c : Dev nD) :
    Pipeline.afterTail₀ cfgs (dats m) 0 (V0 m) tailOpss c main_v55
      = Cert.Tail.tail (F := Ideal) (kerCounts (m ((c.tc : Thread nD τ).loc main_arg1))) (sumsOf (acc m c)) := by
  unfold Pipeline.afterTail₀
  have e2 : Pipeline.withArrays (cfgs 0).spec c (V0 m c) (fun w => (dats m 0 c).arrAt w (cfgs 0).N) (Proc.devRef .tc main_v2)
      = V0 m c (Proc.devRef .tc main_v2) := Pipeline.withArrays_of_ne _ c (V0 m c) _ main_v2 (by decide)
  have e4 : (Pipeline.withArrays (cfgs 0).spec c (V0 m c) (fun w => (dats m 0 c).arrAt w (cfgs 0).N) (Proc.devRef .tc main_v4) : FVec Ideal S2x4x32768 .f32)
      = acc m c := (Pipeline.withArrays_arr spec0 launch0.win.arr_inj c _ _ 2).trans (final m c)
  refine (Cert.KernelIdeal.Tl.tail_eq _).trans ?_
  exact congrArg₂ (Cert.Tail.tail (F := Ideal)) (e2.trans (Cert.KernelIdeal.Tl.pre_v2 _)) (congrArg sumsOf e4)

/-- The one-hot matrix and the flattened x are what the region's input arrays hold. -/
theorem oarr_eq (c : Dev nD) : oarr m c = onehot (F := Ideal) (m ((c.tc : Thread nD τ).loc main_arg1)) := Cert.KernelIdeal.Tl.pre_v0 _
theorem xarr_eq (c : Dev nD) : xarr m c = xflat (F := Ideal) (m ((c.tc : Thread nD τ).loc main_arg0)) := Cert.KernelIdeal.Tl.pre_v3 _

/-- The run, read: the result at the shared tail of the kernel's counts and sums, the arguments unchanged. -/
theorem run_value : θ_run defs (onTc (τ := τ) (main (F := Ideal))) ⟨m, fun _ => 0, ρ⟩ fun r => ∀ c : Dev nD,
      r.2.mem ((c.tc : Thread nD τ).loc main_v55)
        = Cert.Tail.tail (F := Ideal) (kerCounts (m ((c.tc : Thread nD τ).loc main_arg1))) (sumsOf (acc m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v55 (Pipeline.mem_restRefs_of main_v55 rfl (by decide))).trans (v55_eq m c),
     ((h c).2 main_arg0 (Pipeline.mem_restRefs_of main_arg0 rfl (by decide))).trans (arg_kept m c main_arg0 (by decide)),
     ((h c).2 main_arg1 (Pipeline.mem_restRefs_of main_arg1 rfl (by decide))).trans (arg_kept m c main_arg1 (by decide))⟩)
    (run_main m ρ)

end Exact

end Cert.KernelIdeal.Val

end
-- ==== Proof.RefRun.lean ====
/-
  The reference program as a straight line: its main function, with every module-local function it calls
  substituted at the call (the callee's body over that call's own buffers), is one sequence of 164 elementary
  array operations, each reading buffers written earlier and writing one buffer of its own. A straight line
  always terminates, and each buffer ends at the composition of the operations that lead to it, applied to
  the contents the two argument buffers had at launch.
-/
import proofs.«431240_j9079560864491_3_alg».proof.Proof.Gen.ReferenceIdeal
import Idealize.ShloMosaic.Lib.StableHlo.Run

noncomputable section

namespace Cert.ReferenceIdeal.Rf

open Cert.ReferenceIdeal Cert.ReferenceIdeal.Gen Idealize.ShloMosaic Idealize.ShloMosaic.TcCoe Idealize.SL.Sem Idealize.ShloMosaic.StableHlo

variable {F : FTy → Type} [FloatOps F]

/-- The operations in program order. The counts (ones scattered at the labels) and the sums (the rows of x scattered
    at the labels) come first; then the centres, the 4 x 4 matrix of distances, the strictly-upper-triangular mask
    (nine operations of the triangle function), its running count (five), the clip at zero (three), the wrap by
    six, the scatter of ones and the second running count (three), the floor quotient by four (sixteen), its
    remainder by four (twenty-one), the floor quotient by one and its remainder by four likewise, the two wraps by
    four, the gather of the six distances, their sum and the division by six. -/
abbrev ops : List (HloOp τ sig (Elt F)) :=
  [ nullary main_cst (constant S_ .f32 0x3F800000#32),
    unary main_cst main_v0 (broadcastInDim S4096 ![] bcast_S_S4096 : (⟨S_, .f32⟩ : BufTy).Contents (Elt F) → (⟨S4096, .f32⟩ : BufTy).Contents (Elt F)),
    nullary main_cst_0 (constant S_ .f32 0x00000000#32),
    unary main_cst_0 main_v1 (broadcastInDim S4 ![] bcast_S_S4 : (⟨S_, .f32⟩ : BufTy).Contents (Elt F) → (⟨S4, .f32⟩ : BufTy).Contents (Elt F)),
    unary main_arg1 main_v2 (broadcastInDim S4096x1 ![0] bcast_S4096_S4096x1_0 : (⟨S4096, .i32⟩ : BufTy).Contents (Elt F) → (⟨S4096x1, .i32⟩ : BufTy).Contents (Elt F)),
    ternary main_v1 main_v2 main_v0 main_v3 ((fun x i u => Host.scatterAdd scatter_S4_S4096x1_S4096_n_0_0_1 x i u) : (⟨S4, .f32⟩ : BufTy).Contents (Elt F) → (⟨S4096x1, .i32⟩ : BufTy).Contents (Elt F) → (⟨S4096, .f32⟩ : BufTy).Contents (Elt F) → (⟨S4, .f32⟩ : BufTy).Contents (Elt F)),
    nullary main_cst_1 (constant S_ .f32 0x00000000#32),
    unary main_cst_1 main_v4 (broadcastInDim S4x64x512 ![] bcast_S_S4x64x512 : (⟨S_, .f32⟩ : BufTy).Contents (Elt F) → (⟨S4x64x512, .f32⟩ : BufTy).Contents (Elt F)),
    unary main_arg1 main_v5 (broadcastInDim S4096x1 ![0] bcast_S4096_S4096x1_0 : (⟨S4096, .i32⟩ : BufTy).Contents (Elt F) → (⟨S4096x1, .i32⟩ : BufTy).Contents (Elt F)),
    ternary main_v4 main_v5 main_arg0 main_v6 ((fun x i u => Host.scatterAdd scatter_S4x64x512_S4096x1_S4096x64x512_12_0_0_1 x i u) : (⟨S4x64x512, .f32⟩ : BufTy).Contents (Elt F) → (⟨S4096x1, .i32⟩ : BufTy).Contents (Elt F) → (⟨S4096x64x512, .f32⟩ : BufTy).Contents (Elt F) → (⟨S4x64x512, .f32⟩ : BufTy).Contents (Elt F)),
    nullary main_cst_2 (constant S_ .f32 0x3F800000#32),
    unary main_cst_2 main_v7 (broadcastInDim S4 ![] bcast_S_S4 : (⟨S_, .f32⟩ : BufTy).Contents (Elt F) → (⟨S4, .f32⟩ : BufTy).Contents (Elt F)),
    binary main_v3 main_v7 main_v8 (maximumf : (⟨S4, .f32⟩ : BufTy).Contents (Elt F) → (⟨S4, .f32⟩ : BufTy).Contents (Elt F) → (⟨S4, .f32⟩ : BufTy).Contents (Elt F)),
    unary main_v8 main_v9 (broadcastInDim S4x1x1 ![0] bcast_S4_S4x1x1_0 : (⟨S4, .f32⟩ : BufTy).Contents (Elt F) → (⟨S4x1x1, .f32⟩ : BufTy).Contents (Elt F)),
    unary main_v9 main_v10 (broadcastInDim S4x64x512 ![0, 1, 2] bcast_S4x1x1_S4x64x512_0_1_2 : (⟨S4x1x1, .f32⟩ : BufTy).Contents (Elt F) → (⟨S4x64x512, .f32⟩ : BufTy).Contents (Elt F)),
    binary main_v6 main_v10 main_v11 (Host.divf : (⟨S4x64x512, .f32⟩ : BufTy).Contents (Elt F) → (⟨S4x64x512, .f32⟩ : BufTy).Contents (Elt F) → (⟨S4x64x512, .f32⟩ : BufTy).Contents (Elt F)),
    unary main_v11 main_v12 (broadcastInDim S4x1x64x512 ![0, 2, 3] bcast_S4x64x512_S4x1x64x512_0_2_3 : (⟨S4x64x512, .f32⟩ : BufTy).Contents (Elt F) → (⟨S4x1x64x512, .f32⟩ : BufTy).Contents (Elt F)),
    unary main_v11 main_v13 (broadcastInDim S1x4x64x512 ![1, 2, 3] bcast_S4x64x512_S1x4x64x512_1_2_3 : (⟨S4x64x512, .f32⟩ : BufTy).Contents (Elt F) → (⟨S1x4x64x512, .f32⟩ : BufTy).Contents (Elt F)),
    unary main_v12 main_v14 (broadcastInDim S4x4x64x512 ![0, 1, 2, 3] bcast_S4x1x64x512_S4x4x64x512_0_1_2_3 : (⟨S4x1x64x512, .f32⟩ : BufTy).Contents (Elt F) → (⟨S4x4x64x512, .f32⟩ : BufTy).Contents (Elt F)),
    unary main_v13 main_v15 (broadcastInDim S4x4x64x512 ![0, 1, 2, 3] bcast_S1x4x64x512_S4x4x64x512_0_1_2_3 : (⟨S1x4x64x512, .f32⟩ : BufTy).Contents (Elt F) → (⟨S4x4x64x512, .f32⟩ : BufTy).Contents (Elt F)),
    binary main_v14 main_v15 main_v16 (subf : (⟨S4x4x64x512, .f32⟩ : BufTy).Contents (Elt F) → (⟨S4x4x64x512, .f32⟩ : BufTy).Contents (Elt F) → (⟨S4x4x64x512, .f32⟩ : BufTy).Contents (Elt F)),
    binary main_v16 main_v16 main_v17 (mulf : (⟨S4x4x64x512, .f32⟩ : BufTy).Contents (Elt F) → (⟨S4x4x64x512, .f32⟩ : BufTy).Contents (Elt F) → (⟨S4x4x64x512, .f32⟩ : BufTy).Contents (Elt F)),
    nullary main_cst_3 (constant S_ .f32 0x00000000#32),
    binary main_v17 main_cst_3 main_v18 ((fun x v => Host.reduceAdd x v reducesTo_S4x4x64x512_S4x4_d2_3 h_S_) : (⟨S4x4x64x512, .f32⟩ : BufTy).Contents (Elt F) → (⟨S_, .f32⟩ : BufTy).Contents (Elt F) → (⟨S4x4, .f32⟩ : BufTy).Contents (Elt F)),
    unary main_v18 main_v19 (Host.sqrt : (⟨S4x4, .f32⟩ : BufTy).Contents (Elt F) → (⟨S4x4, .f32⟩ : BufTy).Contents (Elt F)),
    nullary main_cst_4 (constant S_ .f32 0x3F800000#32),
    unary main_cst_4 main_v20 (broadcastInDim S4x4 ![] bcast_S_S4x4 : (⟨S_, .f32⟩ : BufTy).Contents (Elt F) → (⟨S4x4, .f32⟩ : BufTy).Contents (Elt F)),
    TRef.nullary main_call0.v0 (iotaInDim S4x4 32 0),
    TRef.nullary main_call0.c (constantI S_ 32 0#32),
    TRef.unary main_call0.c main_call0.v1 (broadcastInDim S4x4 ![] bcast_S_S4x4),
    TRef.binary main_call0.v0 main_call0.v1 main_call0.v2 addi,
    TRef.nullary main_call0.v3 (iotaInDim S4x4 32 1),
    TRef.binary main_call0.v2 main_call0.v3 main_call0.v4 (cmpi .sge),
    TRef.nullary main_call0.cst (constant S_ .f32 0x00000000#32),
    TRef.unary main_call0.cst main_call0.v5 (broadcastInDim S4x4 ![] bcast_S_S4x4),
    TRef.ternary main_call0.v4 main_call0.v5 (.of main_v20 : TRef sig ⟨S4x4, .f32⟩) main_call0.v6 select,
    nullary main_cst_5 (constant S_ .f32 0x00000000#32),
    unary main_cst_5 main_v22 (broadcastInDim S4x4 ![] bcast_S_S4x4 : (⟨S_, .f32⟩ : BufTy).Contents (Elt F) → (⟨S4x4, .f32⟩ : BufTy).Contents (Elt F)),
    binary main_v21 main_v22 main_v23 (cmpf .une : (⟨S4x4, .f32⟩ : BufTy).Contents (Elt F) → (⟨S4x4, .f32⟩ : BufTy).Contents (Elt F) → (⟨S4x4, .i1⟩ : BufTy).Contents (Elt F)),
    TRef.reshape (.of main_v23 : TRef sig ⟨S4x4, .i1⟩) main_call1.v0 rfl shapeCasts_S4x4_S16,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![16] ![1] ![15] ![0] x v reduceWindows_S16_S16_w16s1p15_0 h_S_),
    nullary main_c (constantI S_ 32 0#32),
    unary main_c main_v25 (broadcastInDim S6 ![] bcast_S_S6 : (⟨S_, .i32⟩ : BufTy).Contents (Elt F) → (⟨S6, .i32⟩ : BufTy).Contents (Elt F)),
    nullary main_c_6 (constantI S_ 32 0#32),
    TRef.unary (.of main_c_6 : TRef sig ⟨S_, .i32⟩) main_call2.v0 id,
    TRef.unary main_call2.v0 main_call2.v1 (broadcastInDim S16 ![] bcast_S_S16),
    TRef.binary main_call2.v1 (.of main_v24 : TRef sig ⟨S16, .i32⟩) main_call2.v2 maxsi,
    nullary main_c_7 (constantI S_ 32 0#32),
    unary main_c_7 main_v27 (broadcastInDim S16 ![] bcast_S_S16 : (⟨S_, .i32⟩ : BufTy).Contents (Elt F) → (⟨S16, .i32⟩ : BufTy).Contents (Elt F)),
    binary main_v26 main_v27 main_v28 (cmpi .slt : (⟨S16, .i32⟩ : BufTy).Contents (Elt F) → (⟨S16, .i32⟩ : BufTy).Contents (Elt F) → (⟨S16, .i1⟩ : BufTy).Contents (Elt F)),
    nullary main_c_8 (constantI S_ 32 6#32),
    unary main_c_8 main_v29 (broadcastInDim S16 ![] bcast_S_S16 : (⟨S_, .i32⟩ : BufTy).Contents (Elt F) → (⟨S16, .i32⟩ : BufTy).Contents (Elt F)),
    binary main_v26 main_v29 main_v30 (addi : (⟨S16, .i32⟩ : BufTy).Contents (Elt F) → (⟨S16, .i32⟩ : BufTy).Contents (Elt F) → (⟨S16, .i32⟩ : BufTy).Contents (Elt F)),
    ternary main_v28 main_v30 main_v26 main_v31 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v31 main_v32 (broadcastInDim S16x1 ![0] bcast_S16_S16x1_0 : (⟨S16, .i32⟩ : BufTy).Contents (Elt F) → (⟨S16x1, .i32⟩ : BufTy).Contents (Elt F)),
    nullary main_c_9 (constantI S_ 32 1#32),
    unary main_c_9 main_v33 (broadcastInDim S16 ![] bcast_S_S16 : (⟨S_, .i32⟩ : BufTy).Contents (Elt F) → (⟨S16, .i32⟩ : BufTy).Contents (Elt F)),
    ternary main_v25 main_v32 main_v33 main_v34 ((fun x i u => Host.scatter scatter_S6_S16x1_S16_n_0_0_1 IntOp.addi x i u) : (⟨S6, .i32⟩ : BufTy).Contents (Elt F) → (⟨S16x1, .i32⟩ : BufTy).Contents (Elt F) → (⟨S16, .i32⟩ : BufTy).Contents (Elt F) → (⟨S6, .i32⟩ : BufTy).Contents (Elt F)),
    TRef.nullary main_call3.call0.c (constantI S_ 32 0#32),
    TRef.unary main_call3.call0.c main_call3.call0.v0 (broadcastInDim S_ ![] bcast_S_S_),
    TRef.binary (.of main_v34 : TRef sig ⟨S6, .i32⟩) main_call3.call0.v0 main_call3.call0.v1 (fun x v => Host.reduceWindow IntOp.addi ![6] ![1] ![5] ![0] x v reduceWindows_S6_S6_w6s1p5_0 h_S_),
    nullary main_c_10 (constantI S_ 32 4#32),
    TRef.unary (.of main_c_10 : TRef sig ⟨S_, .i32⟩) main_call4.v0 (broadcastInDim S6 ![] bcast_S_S6),
    TRef.binary (.of main_v35 : TRef sig ⟨S6, .i32⟩) main_call4.v0 main_call4.v1 Host.divsi,
    TRef.unary (.of main_v35 : TRef sig ⟨S6, .i32⟩) main_call4.v2 signi,
    TRef.unary (.of main_c_10 : TRef sig ⟨S_, .i32⟩) main_call4.v3 signi,
    TRef.unary main_call4.v3 main_call4.v4 (broadcastInDim S6 ![] bcast_S_S6),
    TRef.binary main_call4.v2 main_call4.v4 main_call4.v5 (cmpi .ne),
    TRef.unary (.of main_c_10 : TRef sig ⟨S_, .i32⟩) main_call4.v6 (broadcastInDim S6 ![] bcast_S_S6),
    TRef.binary (.of main_v35 : TRef sig ⟨S6, .i32⟩) main_call4.v6 main_call4.v7 Host.remsi,
    TRef.nullary main_call4.c (constantI S_ 32 0#32),
    TRef.unary main_call4.c main_call4.v8 (broadcastInDim S6 ![] bcast_S_S6),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S6 ![] bcast_S_S6),
    TRef.binary main_call4.v1 main_call4.v11 main_call4.v12 subi,
    TRef.ternary main_call4.v10 main_call4.v12 main_call4.v1 main_call4.call0.v0 select,
    nullary main_c_11 (constantI S_ 32 4#32),
    TRef.unary (.of main_c_11 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S6 ![] bcast_S_S6),
    TRef.binary (.of main_v36 : TRef sig ⟨S6, .i32⟩) main_call5.v3 main_call5.v4 Host.remsi,
    TRef.nullary main_call5.c_1 (constantI S_ 32 0#32),
    TRef.unary main_call5.c_1 main_call5.v5 (broadcastInDim S6 ![] bcast_S_S6),
    TRef.binary main_call5.v4 main_call5.v5 main_call5.v6 (cmpi .ne),
    TRef.nullary main_call5.c_2 (constantI S_ 32 0#32),
    TRef.unary main_call5.c_2 main_call5.v7 (broadcastInDim S6 ![] bcast_S_S6),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S6 ![] bcast_S_S6),
    TRef.binary main_call5.v8 main_call5.v10 main_call5.v11 (cmpi .ne),
    TRef.binary main_call5.v11 main_call5.v6 main_call5.v12 andi,
    TRef.unary main_call5.call0.v0 main_call5.v13 (broadcastInDim S6 ![] bcast_S_S6),
    TRef.binary main_call5.v4 main_call5.v13 main_call5.v14 addi,
    TRef.ternary main_call5.v12 main_call5.v14 main_call5.v4 main_call5.v15 select,
    nullary main_c_12 (constantI S_ 32 1#32),
    TRef.unary (.of main_c_12 : TRef sig ⟨S_, .i32⟩) main_call6.v0 (broadcastInDim S6 ![] bcast_S_S6),
    TRef.binary (.of main_v35 : TRef sig ⟨S6, .i32⟩) main_call6.v0 main_call6.v1 Host.divsi,
    TRef.unary (.of main_v35 : TRef sig ⟨S6, .i32⟩) main_call6.v2 signi,
    TRef.unary (.of main_c_12 : TRef sig ⟨S_, .i32⟩) main_call6.v3 signi,
    TRef.unary main_call6.v3 main_call6.v4 (broadcastInDim S6 ![] bcast_S_S6),
    TRef.binary main_call6.v2 main_call6.v4 main_call6.v5 (cmpi .ne),
    TRef.unary (.of main_c_12 : TRef sig ⟨S_, .i32⟩) main_call6.v6 (broadcastInDim S6 ![] bcast_S_S6),
    TRef.binary (.of main_v35 : TRef sig ⟨S6, .i32⟩) main_call6.v6 main_call6.v7 Host.remsi,
    TRef.nullary main_call6.c (constantI S_ 32 0#32),
    TRef.unary main_call6.c main_call6.v8 (broadcastInDim S6 ![] bcast_S_S6),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S6 ![] bcast_S_S6),
    TRef.binary main_call6.v1 main_call6.v11 main_call6.v12 subi,
    TRef.ternary main_call6.v10 main_call6.v12 main_call6.v1 main_call6.call0.v0 select,
    nullary main_c_13 (constantI S_ 32 4#32),
    TRef.unary (.of main_c_13 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S6 ![] bcast_S_S6),
    TRef.binary (.of main_v38 : TRef sig ⟨S6, .i32⟩) main_call7.v3 main_call7.v4 Host.remsi,
    TRef.nullary main_call7.c_1 (constantI S_ 32 0#32),
    TRef.unary main_call7.c_1 main_call7.v5 (broadcastInDim S6 ![] bcast_S_S6),
    TRef.binary main_call7.v4 main_call7.v5 main_call7.v6 (cmpi .ne),
    TRef.nullary main_call7.c_2 (constantI S_ 32 0#32),
    TRef.unary main_call7.c_2 main_call7.v7 (broadcastInDim S6 ![] bcast_S_S6),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S6 ![] bcast_S_S6),
    TRef.binary main_call7.v8 main_call7.v10 main_call7.v11 (cmpi .ne),
    TRef.binary main_call7.v11 main_call7.v6 main_call7.v12 andi,
    TRef.unary main_call7.call0.v0 main_call7.v13 (broadcastInDim S6 ![] bcast_S_S6),
    TRef.binary main_call7.v4 main_call7.v13 main_call7.v14 addi,
    TRef.ternary main_call7.v12 main_call7.v14 main_call7.v4 main_call7.v15 select,
    nullary main_c_14 (constantI S_ 32 0#32),
    unary main_c_14 main_v40 (broadcastInDim S6 ![] bcast_S_S6 : (⟨S_, .i32⟩ : BufTy).Contents (Elt F) → (⟨S6, .i32⟩ : BufTy).Contents (Elt F)),
    binary main_v37 main_v40 main_v41 (cmpi .slt : (⟨S6, .i32⟩ : BufTy).Contents (Elt F) → (⟨S6, .i32⟩ : BufTy).Contents (Elt F) → (⟨S6, .i1⟩ : BufTy).Contents (Elt F)),
    nullary main_c_15 (constantI S_ 32 4#32),
    unary main_c_15 main_v42 (broadcastInDim S6 ![] bcast_S_S6 : (⟨S_, .i32⟩ : BufTy).Contents (Elt F) → (⟨S6, .i32⟩ : BufTy).Contents (Elt F)),
    binary main_v37 main_v42 main_v43 (addi : (⟨S6, .i32⟩ : BufTy).Contents (Elt F) → (⟨S6, .i32⟩ : BufTy).Contents (Elt F) → (⟨S6, .i32⟩ : BufTy).Contents (Elt F)),
    ternary main_v41 main_v43 main_v37 main_v44 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    nullary main_c_16 (constantI S_ 32 0#32),
    unary main_c_16 main_v45 (broadcastInDim S6 ![] bcast_S_S6 : (⟨S_, .i32⟩ : BufTy).Contents (Elt F) → (⟨S6, .i32⟩ : BufTy).Contents (Elt F)),
    binary main_v39 main_v45 main_v46 (cmpi .slt : (⟨S6, .i32⟩ : BufTy).Contents (Elt F) → (⟨S6, .i32⟩ : BufTy).Contents (Elt F) → (⟨S6, .i1⟩ : BufTy).Contents (Elt F)),
    nullary main_c_17 (constantI S_ 32 4#32),
    unary main_c_17 main_v47 (broadcastInDim S6 ![] bcast_S_S6 : (⟨S_, .i32⟩ : BufTy).Contents (Elt F) → (⟨S6, .i32⟩ : BufTy).Contents (Elt F)),
    binary main_v39 main_v47 main_v48 (addi : (⟨S6, .i32⟩ : BufTy).Contents (Elt F) → (⟨S6, .i32⟩ : BufTy).Contents (Elt F) → (⟨S6, .i32⟩ : BufTy).Contents (Elt F)),
    ternary main_v46 main_v48 main_v39 main_v49 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v44 main_v50 (broadcastInDim S6x1 ![0] bcast_S6_S6x1_0 : (⟨S6, .i32⟩ : BufTy).Contents (Elt F) → (⟨S6x1, .i32⟩ : BufTy).Contents (Elt F)),
    unary main_v49 main_v51 (broadcastInDim S6x1 ![0] bcast_S6_S6x1_0 : (⟨S6, .i32⟩ : BufTy).Contents (Elt F) → (⟨S6x1, .i32⟩ : BufTy).Contents (Elt F)),
    binary main_v50 main_v51 main_v52 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    binary main_v19 main_v52 main_v53 ((fun x i => Host.gather gather_S4x4_S6x2_S6_n_01_n_n_01_1_11 x i) : (⟨S4x4, .f32⟩ : BufTy).Contents (Elt F) → (⟨S6x2, .i32⟩ : BufTy).Contents (Elt F) → (⟨S6, .f32⟩ : BufTy).Contents (Elt F)),
    nullary main_cst_18 (constant S_ .f32 0x00000000#32),
    binary main_v53 main_cst_18 main_v54 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    nullary main_cst_19 (constant S_ .f32 0x40C00000#32),
    binary main_v54 main_cst_19 main_v55 (Host.divf : (⟨S_, .f32⟩ : BufTy).Contents (Elt F) → (⟨S_, .f32⟩ : BufTy).Contents (Elt F) → (⟨S_, .f32⟩ : BufTy).Contents (Elt F)) ]

set_option maxRecDepth 16384 in
set_option maxHeartbeats 4000000 in
/-- The main function is that straight line: with the called functions' definitions unfolded at their calls and
    sequencing re-associated, both sides are the same chain of steps. -/
theorem main_eq (c : Dev nD) : main (F := F) c = seq ops := by
  simp only [main, main_part0, main_part1, fn_triu.body, fn_cumsum_0.body, fn_cumsum.body, fn_clip.body, fn_cumsum_2.body, fn_cumsum_1.body, fn_where.body, fn_floor_divide.body, fn_where_3.body, fn_remainder.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches only buffers of the one core that runs the line. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., unary_bufs_sub .., unary_bufs_sub ..,
    unary_bufs_sub .., unary_bufs_sub .., binary_bufs_sub .., binary_bufs_sub .., nullary_bufs_sub .., binary_bufs_sub ..,
    unary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., binary_bufs_sub ..,
    nullary_bufs_sub .., binary_bufs_sub ..⟩

/-- From any launch memory with all counters at zero, for any float values: every weakly fair execution of the
    reference terminates, and in every final state each buffer holds the fold of the 164 operations over the launch
    contents, read at that buffer. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Rf

end
-- ==== Proof.RefDefs.lean ====
/-
  The reference's counts and sums as it computes them: a scatter-add of ones, and of the rows of x, into zeros,
  each row sent to the slot its label names (a label naming no slot is dropped).
-/
import proofs.«431240_j9079560864491_3_alg».proof.ReferenceIdeal
import proofs.«431240_j9079560864491_3_alg».proof.Proof.Gen.ReferenceIdeal

noncomputable section

namespace Cert.ReferenceIdeal.Rf

open Idealize.ShloMosaic Cert.ReferenceIdeal Cert.ReferenceIdeal.Facts₀

variable {F : FTy → Type} [FloatOps F]

/-- Per class, the number of rows labelled with it: ones scattered into four zeros at the labels. -/
def refCounts (lab : IVec S4096 32) : FVec F S4 .f32 :=
  Host.scatterAdd scatter_S4_S4096x1_S4096_n_0_0_1 (broadcastInDim S4 ![] bcast_S_S4 (constant S_ .f32 0x00000000#32))
    (broadcastInDim S4096x1 ![0] bcast_S4096_S4096x1_0 lab) (broadcastInDim S4096 ![] bcast_S_S4096 (constant S_ .f32 0x3F800000#32))

/-- Per class, the sum of the rows of x labelled with it: the rows scattered into zeros at the labels. -/
def refSums (x : FVec F S4096x64x512 .f32) (lab : IVec S4096 32) : FVec F S4x64x512 .f32 :=
  Host.scatterAdd scatter_S4x64x512_S4096x1_S4096x64x512_12_0_0_1 (broadcastInDim S4x64x512 ![] bcast_S_S4x64x512 (constant S_ .f32 0x00000000#32))
    (broadcastInDim S4096x1 ![0] bcast_S4096_S4096x1_0 lab) x

end Cert.ReferenceIdeal.Rf

end
-- ==== Proof.RefValue.lean ====
/-
  The value the reference computes. Its 164 operations are read in five consecutive stretches:
    (A) the counts and sums by scatter-add, the centres, and the 4 x 4 matrix of Frobenius distances;
    (B1) the strictly-upper-triangular mask, its running count, the scatter of ones at the running counts and the
         second running count: the flat positions of the six pairs;
    (B2) the floor quotient of the flat positions by four and its remainder by four: the row indices;
    (B3) the floor quotient by one and its remainder by four: the column indices;
    (C)  the two index wraps, the gather of the six distances, their sum and the division by six.
  Each stretch's result buffer holds a named function of the buffers the stretch reads, and no stretch overwrites
  a buffer a later stretch reads from an earlier one; composing the five gives the shared closed term applied to
  the reference's counts and sums. The two argument buffers are never written.
-/
import proofs.«431240_j9079560864491_3_alg».proof.Proof.RefRun
import proofs.«431240_j9079560864491_3_alg».proof.Proof.RefDefs
import proofs.«431240_j9079560864491_3_alg».proof.Proof.Tail

noncomputable section

namespace Cert.ReferenceIdeal.Rf

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second line's fold over the first's. -/
theorem after_append (a b : List (HloOp τ sig (Elt F))) (V : Valuation τ sig (Elt F)) :
    after (a ++ b) V = after b (after a V) := by
  induction a generalizing V with
  | nil => rfl
  | cons op l ih => simp only [List.cons_append, after_cons, ih]

/-! ## The five stretches -/

/-- (A) Counts, sums, centres, distances: the first 25 operations. -/
abbrev opsA : List (HloOp τ sig (Elt F)) :=
  [ nullary main_cst (constant S_ .f32 0x3F800000#32),
    unary main_cst main_v0 (broadcastInDim S4096 ![] bcast_S_S4096 : (⟨S_, .f32⟩ : BufTy).Contents (Elt F) → (⟨S4096, .f32⟩ : BufTy).Contents (Elt F)),
    nullary main_cst_0 (constant S_ .f32 0x00000000#32),
    unary main_cst_0 main_v1 (broadcastInDim S4 ![] bcast_S_S4 : (⟨S_, .f32⟩ : BufTy).Contents (Elt F) → (⟨S4, .f32⟩ : BufTy).Contents (Elt F)),
    unary main_arg1 main_v2 (broadcastInDim S4096x1 ![0] bcast_S4096_S4096x1_0 : (⟨S4096, .i32⟩ : BufTy).Contents (Elt F) → (⟨S4096x1, .i32⟩ : BufTy).Contents (Elt F)),
    ternary main_v1 main_v2 main_v0 main_v3 ((fun x i u => Host.scatterAdd scatter_S4_S4096x1_S4096_n_0_0_1 x i u) : (⟨S4, .f32⟩ : BufTy).Contents (Elt F) → (⟨S4096x1, .i32⟩ : BufTy).Contents (Elt F) → (⟨S4096, .f32⟩ : BufTy).Contents (Elt F) → (⟨S4, .f32⟩ : BufTy).Contents (Elt F)),
    nullary main_cst_1 (constant S_ .f32 0x00000000#32),
    unary main_cst_1 main_v4 (broadcastInDim S4x64x512 ![] bcast_S_S4x64x512 : (⟨S_, .f32⟩ : BufTy).Contents (Elt F) → (⟨S4x64x512, .f32⟩ : BufTy).Contents (Elt F)),
    unary main_arg1 main_v5 (broadcastInDim S4096x1 ![0] bcast_S4096_S4096x1_0 : (⟨S4096, .i32⟩ : BufTy).Contents (Elt F) → (⟨S4096x1, .i32⟩ : BufTy).Contents (Elt F)),
    ternary main_v4 main_v5 main_arg0 main_v6 ((fun x i u => Host.scatterAdd scatter_S4x64x512_S4096x1_S4096x64x512_12_0_0_1 x i u) : (⟨S4x64x512, .f32⟩ : BufTy).Contents (Elt F) → (⟨S4096x1, .i32⟩ : BufTy).Contents (Elt F) → (⟨S4096x64x512, .f32⟩ : BufTy).Contents (Elt F) → (⟨S4x64x512, .f32⟩ : BufTy).Contents (Elt F)),
    nullary main_cst_2 (constant S_ .f32 0x3F800000#32),
    unary main_cst_2 main_v7 (broadcastInDim S4 ![] bcast_S_S4 : (⟨S_, .f32⟩ : BufTy).Contents (Elt F) → (⟨S4, .f32⟩ : BufTy).Contents (Elt F)),
    binary main_v3 main_v7 main_v8 (maximumf : (⟨S4, .f32⟩ : BufTy).Contents (Elt F) → (⟨S4, .f32⟩ : BufTy).Contents (Elt F) → (⟨S4, .f32⟩ : BufTy).Contents (Elt F)),
    unary main_v8 main_v9 (broadcastInDim S4x1x1 ![0] bcast_S4_S4x1x1_0 : (⟨S4, .f32⟩ : BufTy).Contents (Elt F) → (⟨S4x1x1, .f32⟩ : BufTy).Contents (Elt F)),
    unary main_v9 main_v10 (broadcastInDim S4x64x512 ![0, 1, 2] bcast_S4x1x1_S4x64x512_0_1_2 : (⟨S4x1x1, .f32⟩ : BufTy).Contents (Elt F) → (⟨S4x64x512, .f32⟩ : BufTy).Contents (Elt F)),
    binary main_v6 main_v10 main_v11 (Host.divf : (⟨S4x64x512, .f32⟩ : BufTy).Contents (Elt F) → (⟨S4x64x512, .f32⟩ : BufTy).Contents (Elt F) → (⟨S4x64x512, .f32⟩ : BufTy).Contents (Elt F)),
    unary main_v11 main_v12 (broadcastInDim S4x1x64x512 ![0, 2, 3] bcast_S4x64x512_S4x1x64x512_0_2_3 : (⟨S4x64x512, .f32⟩ : BufTy).Contents (Elt F) → (⟨S4x1x64x512, .f32⟩ : BufTy).Contents (Elt F)),
    unary main_v11 main_v13 (broadcastInDim S1x4x64x512 ![1, 2, 3] bcast_S4x64x512_S1x4x64x512_1_2_3 : (⟨S4x64x512, .f32⟩ : BufTy).Contents (Elt F) → (⟨S1x4x64x512, .f32⟩ : BufTy).Contents (Elt F)),
    unary main_v12 main_v14 (broadcastInDim S4x4x64x512 ![0, 1, 2, 3] bcast_S4x1x64x512_S4x4x64x512_0_1_2_3 : (⟨S4x1x64x512, .f32⟩ : BufTy).Contents (Elt F) → (⟨S4x4x64x512, .f32⟩ : BufTy).Contents (Elt F)),
    unary main_v13 main_v15 (broadcastInDim S4x4x64x512 ![0, 1, 2, 3] bcast_S1x4x64x512_S4x4x64x512_0_1_2_3 : (⟨S1x4x64x512, .f32⟩ : BufTy).Contents (Elt F) → (⟨S4x4x64x512, .f32⟩ : BufTy).Contents (Elt F)),
    binary main_v14 main_v15 main_v16 (subf : (⟨S4x4x64x512, .f32⟩ : BufTy).Contents (Elt F) → (⟨S4x4x64x512, .f32⟩ : BufTy).Contents (Elt F) → (⟨S4x4x64x512, .f32⟩ : BufTy).Contents (Elt F)),
    binary main_v16 main_v16 main_v17 (mulf : (⟨S4x4x64x512, .f32⟩ : BufTy).Contents (Elt F) → (⟨S4x4x64x512, .f32⟩ : BufTy).Contents (Elt F) → (⟨S4x4x64x512, .f32⟩ : BufTy).Contents (Elt F)),
    nullary main_cst_3 (constant S_ .f32 0x00000000#32),
    binary main_v17 main_cst_3 main_v18 ((fun x v => Host.reduceAdd x v reducesTo_S4x4x64x512_S4x4_d2_3 h_S_) : (⟨S4x4x64x512, .f32⟩ : BufTy).Contents (Elt F) → (⟨S_, .f32⟩ : BufTy).Contents (Elt F) → (⟨S4x4, .f32⟩ : BufTy).Contents (Elt F)),
    unary main_v18 main_v19 (Host.sqrt : (⟨S4x4, .f32⟩ : BufTy).Contents (Elt F) → (⟨S4x4, .f32⟩ : BufTy).Contents (Elt F)) ]

/-- (B1) Mask, running count, scatter of ones, second running count: the next 39. -/
abbrev opsB1 : List (HloOp τ sig (Elt F)) :=
  [ nullary main_cst_4 (constant S_ .f32 0x3F800000#32),
    unary main_cst_4 main_v20 (broadcastInDim S4x4 ![] bcast_S_S4x4 : (⟨S_, .f32⟩ : BufTy).Contents (Elt F) → (⟨S4x4, .f32⟩ : BufTy).Contents (Elt F)),
    TRef.nullary main_call0.v0 (iotaInDim S4x4 32 0),
    TRef.nullary main_call0.c (constantI S_ 32 0#32),
    TRef.unary main_call0.c main_call0.v1 (broadcastInDim S4x4 ![] bcast_S_S4x4),
    TRef.binary main_call0.v0 main_call0.v1 main_call0.v2 addi,
    TRef.nullary main_call0.v3 (iotaInDim S4x4 32 1),
    TRef.binary main_call0.v2 main_call0.v3 main_call0.v4 (cmpi .sge),
    TRef.nullary main_call0.cst (constant S_ .f32 0x00000000#32),
    TRef.unary main_call0.cst main_call0.v5 (broadcastInDim S4x4 ![] bcast_S_S4x4),
    TRef.ternary main_call0.v4 main_call0.v5 (.of main_v20 : TRef sig ⟨S4x4, .f32⟩) main_call0.v6 select,
    nullary main_cst_5 (constant S_ .f32 0x00000000#32),
    unary main_cst_5 main_v22 (broadcastInDim S4x4 ![] bcast_S_S4x4 : (⟨S_, .f32⟩ : BufTy).Contents (Elt F) → (⟨S4x4, .f32⟩ : BufTy).Contents (Elt F)),
    binary main_v21 main_v22 main_v23 (cmpf .une : (⟨S4x4, .f32⟩ : BufTy).Contents (Elt F) → (⟨S4x4, .f32⟩ : BufTy).Contents (Elt F) → (⟨S4x4, .i1⟩ : BufTy).Contents (Elt F)),
    TRef.reshape (.of main_v23 : TRef sig ⟨S4x4, .i1⟩) main_call1.v0 rfl shapeCasts_S4x4_S16,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![16] ![1] ![15] ![0] x v reduceWindows_S16_S16_w16s1p15_0 h_S_),
    nullary main_c (constantI S_ 32 0#32),
    unary main_c main_v25 (broadcastInDim S6 ![] bcast_S_S6 : (⟨S_, .i32⟩ : BufTy).Contents (Elt F) → (⟨S6, .i32⟩ : BufTy).Contents (Elt F)),
    nullary main_c_6 (constantI S_ 32 0#32),
    TRef.unary (.of main_c_6 : TRef sig ⟨S_, .i32⟩) main_call2.v0 id,
    TRef.unary main_call2.v0 main_call2.v1 (broadcastInDim S16 ![] bcast_S_S16),
    TRef.binary main_call2.v1 (.of main_v24 : TRef sig ⟨S16, .i32⟩) main_call2.v2 maxsi,
    nullary main_c_7 (constantI S_ 32 0#32),
    unary main_c_7 main_v27 (broadcastInDim S16 ![] bcast_S_S16 : (⟨S_, .i32⟩ : BufTy).Contents (Elt F) → (⟨S16, .i32⟩ : BufTy).Contents (Elt F)),
    binary main_v26 main_v27 main_v28 (cmpi .slt : (⟨S16, .i32⟩ : BufTy).Contents (Elt F) → (⟨S16, .i32⟩ : BufTy).Contents (Elt F) → (⟨S16, .i1⟩ : BufTy).Contents (Elt F)),
    nullary main_c_8 (constantI S_ 32 6#32),
    unary main_c_8 main_v29 (broadcastInDim S16 ![] bcast_S_S16 : (⟨S_, .i32⟩ : BufTy).Contents (Elt F) → (⟨S16, .i32⟩ : BufTy).Contents (Elt F)),
    binary main_v26 main_v29 main_v30 (addi : (⟨S16, .i32⟩ : BufTy).Contents (Elt F) → (⟨S16, .i32⟩ : BufTy).Contents (Elt F) → (⟨S16, .i32⟩ : BufTy).Contents (Elt F)),
    ternary main_v28 main_v30 main_v26 main_v31 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v31 main_v32 (broadcastInDim S16x1 ![0] bcast_S16_S16x1_0 : (⟨S16, .i32⟩ : BufTy).Contents (Elt F) → (⟨S16x1, .i32⟩ : BufTy).Contents (Elt F)),
    nullary main_c_9 (constantI S_ 32 1#32),
    unary main_c_9 main_v33 (broadcastInDim S16 ![] bcast_S_S16 : (⟨S_, .i32⟩ : BufTy).Contents (Elt F) → (⟨S16, .i32⟩ : BufTy).Contents (Elt F)),
    ternary main_v25 main_v32 main_v33 main_v34 ((fun x i u => Host.scatter scatter_S6_S16x1_S16_n_0_0_1 IntOp.addi x i u) : (⟨S6, .i32⟩ : BufTy).Contents (Elt F) → (⟨S16x1, .i32⟩ : BufTy).Contents (Elt F) → (⟨S16, .i32⟩ : BufTy).Contents (Elt F) → (⟨S6, .i32⟩ : BufTy).Contents (Elt F)),
    TRef.nullary main_call3.call0.c (constantI S_ 32 0#32),
    TRef.unary main_call3.call0.c main_call3.call0.v0 (broadcastInDim S_ ![] bcast_S_S_),
    TRef.binary (.of main_v34 : TRef sig ⟨S6, .i32⟩) main_call3.call0.v0 main_call3.call0.v1 (fun x v => Host.reduceWindow IntOp.addi ![6] ![1] ![5] ![0] x v reduceWindows_S6_S6_w6s1p5_0 h_S_) ]

/-- (B2) Floor quotient by four, then remainder by four: the next 39. -/
abbrev opsB2 : List (HloOp τ sig (Elt F)) :=
  [ nullary main_c_10 (constantI S_ 32 4#32),
    TRef.unary (.of main_c_10 : TRef sig ⟨S_, .i32⟩) main_call4.v0 (broadcastInDim S6 ![] bcast_S_S6),
    TRef.binary (.of main_v35 : TRef sig ⟨S6, .i32⟩) main_call4.v0 main_call4.v1 Host.divsi,
    TRef.unary (.of main_v35 : TRef sig ⟨S6, .i32⟩) main_call4.v2 signi,
    TRef.unary (.of main_c_10 : TRef sig ⟨S_, .i32⟩) main_call4.v3 signi,
    TRef.unary main_call4.v3 main_call4.v4 (broadcastInDim S6 ![] bcast_S_S6),
    TRef.binary main_call4.v2 main_call4.v4 main_call4.v5 (cmpi .ne),
    TRef.unary (.of main_c_10 : TRef sig ⟨S_, .i32⟩) main_call4.v6 (broadcastInDim S6 ![] bcast_S_S6),
    TRef.binary (.of main_v35 : TRef sig ⟨S6, .i32⟩) main_call4.v6 main_call4.v7 Host.remsi,
    TRef.nullary main_call4.c (constantI S_ 32 0#32),
    TRef.unary main_call4.c main_call4.v8 (broadcastInDim S6 ![] bcast_S_S6),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S6 ![] bcast_S_S6),
    TRef.binary main_call4.v1 main_call4.v11 main_call4.v12 subi,
    TRef.ternary main_call4.v10 main_call4.v12 main_call4.v1 main_call4.call0.v0 select,
    nullary main_c_11 (constantI S_ 32 4#32),
    TRef.unary (.of main_c_11 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S6 ![] bcast_S_S6),
    TRef.binary (.of main_v36 : TRef sig ⟨S6, .i32⟩) main_call5.v3 main_call5.v4 Host.remsi,
    TRef.nullary main_call5.c_1 (constantI S_ 32 0#32),
    TRef.unary main_call5.c_1 main_call5.v5 (broadcastInDim S6 ![] bcast_S_S6),
    TRef.binary main_call5.v4 main_call5.v5 main_call5.v6 (cmpi .ne),
    TRef.nullary main_call5.c_2 (constantI S_ 32 0#32),
    TRef.unary main_call5.c_2 main_call5.v7 (broadcastInDim S6 ![] bcast_S_S6),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S6 ![] bcast_S_S6),
    TRef.binary main_call5.v8 main_call5.v10 main_call5.v11 (cmpi .ne),
    TRef.binary main_call5.v11 main_call5.v6 main_call5.v12 andi,
    TRef.unary main_call5.call0.v0 main_call5.v13 (broadcastInDim S6 ![] bcast_S_S6),
    TRef.binary main_call5.v4 main_call5.v13 main_call5.v14 addi,
    TRef.ternary main_call5.v12 main_call5.v14 main_call5.v4 main_call5.v15 select ]

/-- (B3) Floor quotient by one, then remainder by four: the next 39. -/
abbrev opsB3 : List (HloOp τ sig (Elt F)) :=
  [ nullary main_c_12 (constantI S_ 32 1#32),
    TRef.unary (.of main_c_12 : TRef sig ⟨S_, .i32⟩) main_call6.v0 (broadcastInDim S6 ![] bcast_S_S6),
    TRef.binary (.of main_v35 : TRef sig ⟨S6, .i32⟩) main_call6.v0 main_call6.v1 Host.divsi,
    TRef.unary (.of main_v35 : TRef sig ⟨S6, .i32⟩) main_call6.v2 signi,
    TRef.unary (.of main_c_12 : TRef sig ⟨S_, .i32⟩) main_call6.v3 signi,
    TRef.unary main_call6.v3 main_call6.v4 (broadcastInDim S6 ![] bcast_S_S6),
    TRef.binary main_call6.v2 main_call6.v4 main_call6.v5 (cmpi .ne),
    TRef.unary (.of main_c_12 : TRef sig ⟨S_, .i32⟩) main_call6.v6 (broadcastInDim S6 ![] bcast_S_S6),
    TRef.binary (.of main_v35 : TRef sig ⟨S6, .i32⟩) main_call6.v6 main_call6.v7 Host.remsi,
    TRef.nullary main_call6.c (constantI S_ 32 0#32),
    TRef.unary main_call6.c main_call6.v8 (broadcastInDim S6 ![] bcast_S_S6),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S6 ![] bcast_S_S6),
    TRef.binary main_call6.v1 main_call6.v11 main_call6.v12 subi,
    TRef.ternary main_call6.v10 main_call6.v12 main_call6.v1 main_call6.call0.v0 select,
    nullary main_c_13 (constantI S_ 32 4#32),
    TRef.unary (.of main_c_13 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S6 ![] bcast_S_S6),
    TRef.binary (.of main_v38 : TRef sig ⟨S6, .i32⟩) main_call7.v3 main_call7.v4 Host.remsi,
    TRef.nullary main_call7.c_1 (constantI S_ 32 0#32),
    TRef.unary main_call7.c_1 main_call7.v5 (broadcastInDim S6 ![] bcast_S_S6),
    TRef.binary main_call7.v4 main_call7.v5 main_call7.v6 (cmpi .ne),
    TRef.nullary main_call7.c_2 (constantI S_ 32 0#32),
    TRef.unary main_call7.c_2 main_call7.v7 (broadcastInDim S6 ![] bcast_S_S6),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S6 ![] bcast_S_S6),
    TRef.binary main_call7.v8 main_call7.v10 main_call7.v11 (cmpi .ne),
    TRef.binary main_call7.v11 main_call7.v6 main_call7.v12 andi,
    TRef.unary main_call7.call0.v0 main_call7.v13 (broadcastInDim S6 ![] bcast_S_S6),
    TRef.binary main_call7.v4 main_call7.v13 main_call7.v14 addi,
    TRef.ternary main_call7.v12 main_call7.v14 main_call7.v4 main_call7.v15 select ]

/-- (C) Wraps, gather, sum, division by six: the last 22. -/
abbrev opsC : List (HloOp τ sig (Elt F)) :=
  [ nullary main_c_14 (constantI S_ 32 0#32),
    unary main_c_14 main_v40 (broadcastInDim S6 ![] bcast_S_S6 : (⟨S_, .i32⟩ : BufTy).Contents (Elt F) → (⟨S6, .i32⟩ : BufTy).Contents (Elt F)),
    binary main_v37 main_v40 main_v41 (cmpi .slt : (⟨S6, .i32⟩ : BufTy).Contents (Elt F) → (⟨S6, .i32⟩ : BufTy).Contents (Elt F) → (⟨S6, .i1⟩ : BufTy).Contents (Elt F)),
    nullary main_c_15 (constantI S_ 32 4#32),
    unary main_c_15 main_v42 (broadcastInDim S6 ![] bcast_S_S6 : (⟨S_, .i32⟩ : BufTy).Contents (Elt F) → (⟨S6, .i32⟩ : BufTy).Contents (Elt F)),
    binary main_v37 main_v42 main_v43 (addi : (⟨S6, .i32⟩ : BufTy).Contents (Elt F) → (⟨S6, .i32⟩ : BufTy).Contents (Elt F) → (⟨S6, .i32⟩ : BufTy).Contents (Elt F)),
    ternary main_v41 main_v43 main_v37 main_v44 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    nullary main_c_16 (constantI S_ 32 0#32),
    unary main_c_16 main_v45 (broadcastInDim S6 ![] bcast_S_S6 : (⟨S_, .i32⟩ : BufTy).Contents (Elt F) → (⟨S6, .i32⟩ : BufTy).Contents (Elt F)),
    binary main_v39 main_v45 main_v46 (cmpi .slt : (⟨S6, .i32⟩ : BufTy).Contents (Elt F) → (⟨S6, .i32⟩ : BufTy).Contents (Elt F) → (⟨S6, .i1⟩ : BufTy).Contents (Elt F)),
    nullary main_c_17 (constantI S_ 32 4#32),
    unary main_c_17 main_v47 (broadcastInDim S6 ![] bcast_S_S6 : (⟨S_, .i32⟩ : BufTy).Contents (Elt F) → (⟨S6, .i32⟩ : BufTy).Contents (Elt F)),
    binary main_v39 main_v47 main_v48 (addi : (⟨S6, .i32⟩ : BufTy).Contents (Elt F) → (⟨S6, .i32⟩ : BufTy).Contents (Elt F) → (⟨S6, .i32⟩ : BufTy).Contents (Elt F)),
    ternary main_v46 main_v48 main_v39 main_v49 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v44 main_v50 (broadcastInDim S6x1 ![0] bcast_S6_S6x1_0 : (⟨S6, .i32⟩ : BufTy).Contents (Elt F) → (⟨S6x1, .i32⟩ : BufTy).Contents (Elt F)),
    unary main_v49 main_v51 (broadcastInDim S6x1 ![0] bcast_S6_S6x1_0 : (⟨S6, .i32⟩ : BufTy).Contents (Elt F) → (⟨S6x1, .i32⟩ : BufTy).Contents (Elt F)),
    binary main_v50 main_v51 main_v52 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    binary main_v19 main_v52 main_v53 ((fun x i => Host.gather gather_S4x4_S6x2_S6_n_01_n_n_01_1_11 x i) : (⟨S4x4, .f32⟩ : BufTy).Contents (Elt F) → (⟨S6x2, .i32⟩ : BufTy).Contents (Elt F) → (⟨S6, .f32⟩ : BufTy).Contents (Elt F)),
    nullary main_cst_18 (constant S_ .f32 0x00000000#32),
    binary main_v53 main_cst_18 main_v54 ((fun x v => Host.reduceAdd x v reducesTo_S6_S_d0 h_S_) : (⟨S6, .f32⟩ : BufTy).Contents (Elt F) → (⟨S_, .f32⟩ : BufTy).Contents (Elt F) → (⟨S_, .f32⟩ : BufTy).Contents (Elt F)),
    nullary main_cst_19 (constant S_ .f32 0x40C00000#32),
    binary main_v54 main_cst_19 main_v55 (Host.divf : (⟨S_, .f32⟩ : BufTy).Contents (Elt F) → (⟨S_, .f32⟩ : BufTy).Contents (Elt F) → (⟨S_, .f32⟩ : BufTy).Contents (Elt F)) ]

/-- The whole line is the five stretches in order. -/
theorem ops_split : (ops : List (HloOp τ sig (Elt F))) = opsA ++ (opsB1 ++ (opsB2 ++ (opsB3 ++ opsC))) := rfl

/-! ## What each stretch computes

The elementwise and structured array functions are kept folded while two terms are compared: the comparison is of
the way they are composed, never of what they compute. -/

attribute [local irreducible] Host.reduce Host.reduceAdd Host.gather Host.scatter Host.scatterAdd Host.reduceWindow Host.sqrt Host.divf Host.divsi Host.remsi broadcastInDim constant constantI maximumf subf mulf iotaInDim addi subi andi maxsi cmpi cmpf select signi extui shapeCast concatenate in
set_option maxRecDepth 8192 in
set_option maxHeartbeats 1000000 in
/-- (A) ends with the distance matrix of the reference's counts and sums. -/
theorem A_v19 (V : Valuation τ sig (Elt F)) :
    after opsA V (main_v19 : DevRef τ sig)
      = Cert.Tail.norms (F := F) (refCounts (V (main_arg1 : DevRef τ sig)))
          (refSums (V (main_arg0 : DevRef τ sig)) (V (main_arg1 : DevRef τ sig))) := by
  after_results
  rfl

attribute [local irreducible] Host.reduce Host.reduceAdd Host.gather Host.scatter Host.scatterAdd Host.reduceWindow Host.sqrt Host.divf Host.divsi Host.remsi broadcastInDim constant constantI maximumf subf mulf iotaInDim addi subi andi maxsi cmpi cmpf select signi extui shapeCast concatenate in
set_option maxRecDepth 8192 in
set_option maxHeartbeats 1000000 in
/-- (B1) ends with the flat positions, whatever the buffers held before: it reads only constants. -/
theorem B1_v35 (W : Valuation τ sig (Elt F)) :
    after opsB1 W (main_v35 : DevRef τ sig) = Cert.Tail.flatPos (Cert.Tail.runningCount (Cert.Tail.upperMask F)) := by
  after_results_simp
  rfl

attribute [local irreducible] Host.reduce Host.reduceAdd Host.gather Host.scatter Host.scatterAdd Host.reduceWindow Host.sqrt Host.divf Host.divsi Host.remsi broadcastInDim constant constantI maximumf subf mulf iotaInDim addi subi andi maxsi cmpi cmpf select signi extui shapeCast concatenate in
set_option maxRecDepth 8192 in
set_option maxHeartbeats 1000000 in
/-- (B2) takes the flat positions to their floor quotient by four, modulo four. -/
theorem B2_v37 (W : Valuation τ sig (Elt F)) :
    after opsB2 W (main_v37 : DevRef τ sig)
      = Cert.Tail.floorRem (Cert.Tail.floorDiv (W (main_v35 : DevRef τ sig)) (constantI S_ 32 4#32)) (constantI S_ 32 4#32) := by
  after_results_simp
  rfl

attribute [local irreducible] Host.reduce Host.reduceAdd Host.gather Host.scatter Host.scatterAdd Host.reduceWindow Host.sqrt Host.divf Host.divsi Host.remsi broadcastInDim constant constantI maximumf subf mulf iotaInDim addi subi andi maxsi cmpi cmpf select signi extui shapeCast concatenate in
set_option maxRecDepth 8192 in
set_option maxHeartbeats 1000000 in
/-- (B3) takes the flat positions to their floor quotient by one, modulo four. -/
theorem B3_v39 (W : Valuation τ sig (Elt F)) :
    after opsB3 W (main_v39 : DevRef τ sig)
      = Cert.Tail.floorRem (Cert.Tail.floorDiv (W (main_v35 : DevRef τ sig)) (constantI S_ 32 1#32)) (constantI S_ 32 4#32) := by
  after_results_simp
  rfl

attribute [local irreducible] Host.reduce Host.reduceAdd Host.gather Host.scatter Host.scatterAdd Host.reduceWindow Host.sqrt Host.divf Host.divsi Host.remsi broadcastInDim constant constantI maximumf subf mulf iotaInDim addi subi andi maxsi cmpi cmpf select signi extui shapeCast concatenate in
set_option maxRecDepth 8192 in
set_option maxHeartbeats 1000000 in
/-- (C) is the mean of the distance matrix's entries at the six index pairs. -/
theorem C_v55 (W : Valuation τ sig (Elt F)) :
    after opsC W (main_v55 : DevRef τ sig)
      = Cert.Tail.meanAt (F := F) (W (main_v19 : DevRef τ sig)) (W (main_v37 : DevRef τ sig)) (W (main_v39 : DevRef τ sig)) := by
  after_results
  rfl

/-! ## What each stretch leaves alone -/

theorem B1_v19 (W : Valuation τ sig (Elt F)) :
    after opsB1 W (main_v19 : DevRef τ sig) = W (main_v19 : DevRef τ sig) := by
  after_results_simp
theorem B2_v19 (W : Valuation τ sig (Elt F)) :
    after opsB2 W (main_v19 : DevRef τ sig) = W (main_v19 : DevRef τ sig) := by
  after_results_simp
theorem B2_v35 (W : Valuation τ sig (Elt F)) :
    after opsB2 W (main_v35 : DevRef τ sig) = W (main_v35 : DevRef τ sig) := by
  after_results_simp
theorem B3_v19 (W : Valuation τ sig (Elt F)) :
    after opsB3 W (main_v19 : DevRef τ sig) = W (main_v19 : DevRef τ sig) := by
  after_results_simp
theorem B3_v37 (W : Valuation τ sig (Elt F)) :
    after opsB3 W (main_v37 : DevRef τ sig) = W (main_v37 : DevRef τ sig) := by
  after_results_simp

/-! ## The whole line -/

/-- The result buffer holds the shared closed term of the reference's counts and sums. -/
theorem out_eq (V : Valuation τ sig (Elt F)) :
    after ops V (main_v55 : DevRef τ sig)
      = Cert.Tail.tail (F := F) (refCounts (V (main_arg1 : DevRef τ sig)))
          (refSums (V (main_arg0 : DevRef τ sig)) (V (main_arg1 : DevRef τ sig))) := by
  rw [ops_split, after_append, after_append, after_append, after_append, C_v55,
    B3_v19, B2_v19, B1_v19, A_v19, B3_v37, B2_v37, B3_v39, B2_v35, B1_v35]
  rfl

set_option maxRecDepth 8192 in
set_option maxHeartbeats 1000000 in
/-- No operation writes the first argument's buffer. -/
theorem arg0_eq (V : Valuation τ sig (Elt F)) :
    after ops V (main_arg0 : DevRef τ sig) = V (main_arg0 : DevRef τ sig) := by
  after_results_simp

set_option maxRecDepth 8192 in
set_option maxHeartbeats 1000000 in
/-- No operation writes the second argument's buffer. -/
theorem arg1_eq (V : Valuation τ sig (Elt F)) :
    after ops V (main_arg1 : DevRef τ sig) = V (main_arg1 : DevRef τ sig) := by
  after_results_simp

/-- From any launch memory with all counters at zero, for any float values: every weakly fair execution of the
    reference terminates with the result buffer at the shared closed term of the counts and sums of the launch
    contents of the two arguments, and with the two arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = Cert.Tail.tail (F := F) (refCounts (m ((c.tc : Thread nD τ).loc main_arg1)))
              (refSums (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c main_v55).trans (out_eq _), (h c main_arg0).trans (arg0_eq _), (h c main_arg1).trans (arg1_eq _)⟩)
    (run m ρ)

end Cert.ReferenceIdeal.Rf

end
-- ==== Proof.RefSums.lean ====
/-
  The reference's two scatter-adds read at an index, at exact (extended real) arithmetic.

  A scatter-add into zeros sends update element j to the result slot whose index is the start index of j
  (the label of j's row, read as a signed integer and not clamped) plus j's window coordinates; an update
  whose slot lies outside the operand is dropped.  So the value at class k is the sum, over the rows n whose
  label read signed is k, of the update there.  For 0 ≤ k < 4 a 32-bit word reads signed as k exactly when it
  is the word of k, which turns the filtered sum into the plain sum over the 4096 rows with an
  if-then-else on the label.
-/
import proofs.«431240_j9079560864491_3_alg».proof.Proof.RefDefs
import proofs.«431240_j9079560864491_3_alg».proof.Proof.SegDefs
import Idealize.ShloMosaic.Lib.ValueIdx
import Idealize.ShloMosaic.Lib.IdealHost
import Idealize.ShloMosaic.PureOps.Ideal
import Idealize.ShloMosaic.PureOps.Ideal.Laws

noncomputable section

open scoped BigOperators

namespace Cert.ReferenceIdeal.Rf

open Idealize.ShloMosaic Idealize.ShloMosaic.ValueIdx Cert.ReferenceIdeal

/-! ## A scatter's result index, in general -/

/-- An update element lands on result index i exactly when, on every operand axis, its window start plus its
    window coordinate is i's coordinate there. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro he a
      have hf := Option.some.inj he
      have ha : (d.start j idx a + (d.window j a : Int)).toNat = (i a).val := by
        rw [← hf]
      have := (h a).1
      omega
    · intro he
      refine congrArg some (funext fun a => Fin.ext ?_)
      show (d.start j idx a + (d.window j a : Int)).toNat = (i a).val
      rw [he a]; exact Int.toNat_natCast _
  · rename_i h
    constructor
    · intro he; cases he
    · intro he
      refine absurd (fun a => ?_) h
      rw [he a]
      exact ⟨Int.natCast_nonneg _, by exact_mod_cast (i a).isLt⟩

/-! ## The labels as the scatter reads them -/

/-- The scatter indices are the labels with a unit axis appended: row n's one start index is its label. -/
theorem labIdx_apply (lab : IVec S4096 32) (n : Fin 4096) (z : Fin 1) :
    broadcastInDim S4096x1 ![0] Facts₀.bcast_S4096_S4096x1_0 lab (ix2 n z) = lab (ix1 n) := by
  unfold broadcastInDim
  refine congrArg lab (funext fun a => ?_)
  match a with
  | ⟨0, _⟩ => rfl

/-- For 0 ≤ k < 4, a 32-bit word read as a signed integer is k exactly when it is the word of k. -/
theorem toInt_eq_iff (v : BitVec 32) (k : Fin 4) : v.toInt = (k.val : Int) ↔ v = BitVec.ofNat 32 k.val := by
  have hk : (BitVec.ofNat 32 k.val).toInt = (k.val : Int) := by
    fin_cases k <;> rfl
  constructor
  · intro h; exact BitVec.eq_of_toInt_eq (h.trans hk.symm)
  · intro h; rw [h, hk]

/-! ## The counts -/

/-- The start of the one-element window of update n of the counts' scatter: row n's label read signed. -/
theorem start1 (idx : IVec S4096x1 32) (n : Fin 4096) (a : Fin 1) :
    scatter_S4_S4096x1_S4096_n_0_0_1.start (ix1 n) idx a = (idx (ix2 n 0)).toInt := by
  obtain rfl : a = 0 := Subsingleton.elim _ _
  unfold ScatterDims.start
  rw [dif_pos (show (0 : Fin 1) ∈ scatter_S4_S4096x1_S4096_n_0_0_1.scatterDimsToOperandDims from List.mem_singleton.mpr rfl)]
  refine congrArg (fun t => (idx t).toInt) (funext fun b => Fin.ext ?_)
  match b with
  | ⟨0, _⟩ => rfl
  | ⟨1, _⟩ => rfl

/-- The counts' scatter has no window axes: every window coordinate is zero. -/
theorem window1 (j : S4096.Idx) (a : Fin 1) : scatter_S4_S4096x1_S4096_n_0_0_1.window j a = 0 := by
  obtain rfl : a = 0 := Subsingleton.elim _ _
  unfold ScatterDims.window
  rw [dif_neg (by decide)]

/-- Update n of the counts' scatter lands on class k exactly when row n's label is the word of k. -/
theorem lands1 (lab : IVec S4096 32) (n : Fin 4096) (k : Fin 4) :
    scatter_S4_S4096x1_S4096_n_0_0_1.resultIdx? (ix1 n)
        (broadcastInDim S4096x1 ![0] Facts₀.bcast_S4096_S4096x1_0 lab) = some (ix1 k)
      ↔ lab (ix1 n) = BitVec.ofNat 32 k.val := by
  rw [resultIdx?_eq_some_iff, ← toInt_eq_iff]
  constructor
  · intro h
    have h0 := h 0
    rw [start1, window1, labIdx_apply] at h0
    simpa using h0
  · intro h a
    obtain rfl : a = 0 := Subsingleton.elim _ _
    rw [start1, window1, labIdx_apply, h]
    simp

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- THE COUNTS AT CLASS k: the number of rows whose label is k. -/
theorem refCounts_apply (lab : IVec S4096 32) (k : Fin 4) :
    refCounts (F := Ideal) lab (ix1 k) = Cert.Seg.segCount lab k := by
  unfold refCounts Host.scatterAdd
  rw [Ideal.hostScatterAdd_def]
  unfold Ideal.hostScatterAdd Cert.Seg.segCount
  rw [broadcastInDim_scalar_apply, constant_apply, Ideal.ofBits_zero_f32, zero_add, Finset.sum_filter,
    ← Equiv.sum_comp (idxEquiv1 (n := 4096)).symm]
  refine Finset.sum_congr rfl fun n _ => ?_
  show (if scatter_S4_S4096x1_S4096_n_0_0_1.resultIdx? (ix1 n)
        (broadcastInDim S4096x1 ![0] Facts₀.bcast_S4096_S4096x1_0 lab) = some (ix1 k) then _ else _) = _
  have hl := lands1 lab n k
  by_cases h : lab (ix1 n) = BitVec.ofNat 32 k.val
  · rw [if_pos h, if_pos (hl.mpr h), broadcastInDim_scalar_apply, constant_apply, Ideal.ofBits_one_f32]
  · rw [if_neg h, if_neg (fun h' => h (hl.mp h'))]

/-! ## The sums -/

/-- On the class axis the window of update (n, c, p) of the sums' scatter starts at row n's label read signed … -/
theorem start3_0 (idx : IVec S4096x1 32) (n : Fin 4096) (c : Fin 64) (p : Fin 512) :
    scatter_S4x64x512_S4096x1_S4096x64x512_12_0_0_1.start (ix3 n c p) idx (0 : Fin 3) = (idx (ix2 n 0)).toInt := by
  unfold ScatterDims.start
  rw [dif_pos (show (0 : Fin 3) ∈ scatter_S4x64x512_S4096x1_S4096x64x512_12_0_0_1.scatterDimsToOperandDims from
    List.mem_singleton.mpr rfl)]
  refine congrArg (fun t => (idx t).toInt) (funext fun b => Fin.ext ?_)
  match b with
  | ⟨0, _⟩ => rfl
  | ⟨1, _⟩ => rfl

/-- … and on the two axes of a row at zero. -/
theorem start3_1 (idx : IVec S4096x1 32) (j : S4096x64x512.Idx) :
    scatter_S4x64x512_S4096x1_S4096x64x512_12_0_0_1.start j idx (1 : Fin 3) = 0 := by
  unfold ScatterDims.start
  rw [dif_neg (by decide)]
theorem start3_2 (idx : IVec S4096x1 32) (j : S4096x64x512.Idx) :
    scatter_S4x64x512_S4096x1_S4096x64x512_12_0_0_1.start j idx (2 : Fin 3) = 0 := by
  unfold ScatterDims.start
  rw [dif_neg (by decide)]

/-- Its window coordinates: none on the class axis, the position (c, p) within the row on the other two. -/
theorem window3_0 (j : S4096x64x512.Idx) :
    scatter_S4x64x512_S4096x1_S4096x64x512_12_0_0_1.window j (0 : Fin 3) = 0 := by
  unfold ScatterDims.window
  rw [dif_neg (by decide)]
theorem window3_1 (n : Fin 4096) (c : Fin 64) (p : Fin 512) :
    scatter_S4x64x512_S4096x1_S4096x64x512_12_0_0_1.window (ix3 n c p) (1 : Fin 3) = c.val := by
  unfold ScatterDims.window
  rw [dif_pos (by decide)]; rfl
theorem window3_2 (n : Fin 4096) (c : Fin 64) (p : Fin 512) :
    scatter_S4x64x512_S4096x1_S4096x64x512_12_0_0_1.window (ix3 n c p) (2 : Fin 3) = p.val := by
  unfold ScatterDims.window
  rw [dif_pos (by decide)]; rfl

/-- Update (n, c', p') of the sums' scatter lands on (k, c, p) exactly when row n's label is the word of k and the
    positions within the row agree. -/
theorem lands3 (lab : IVec S4096 32) (n : Fin 4096) (c' : Fin 64) (p' : Fin 512) (k : Fin 4) (c : Fin 64) (p : Fin 512) :
    scatter_S4x64x512_S4096x1_S4096x64x512_12_0_0_1.resultIdx? (ix3 n c' p')
        (broadcastInDim S4096x1 ![0] Facts₀.bcast_S4096_S4096x1_0 lab) = some (ix3 k c p)
      ↔ lab (ix1 n) = BitVec.ofNat 32 k.val ∧ c' = c ∧ p' = p := by
  rw [resultIdx?_eq_some_iff, ← toInt_eq_iff]
  constructor
  · intro h
    have h0 := h (0 : Fin 3)
    have h1 := h (1 : Fin 3)
    have h2 := h (2 : Fin 3)
    rw [start3_0, window3_0, labIdx_apply] at h0
    rw [start3_1, window3_1] at h1
    rw [start3_2, window3_2] at h2
    refine ⟨by simpa using h0, Fin.ext ?_, Fin.ext ?_⟩
    · have : ((c'.val : Int)) = (c.val : Int) := by simpa using h1
      exact_mod_cast this
    · have : ((p'.val : Int)) = (p.val : Int) := by simpa using h2
      exact_mod_cast this
  · rintro ⟨hl, rfl, rfl⟩ a
    fin_cases a
    · show scatter_S4x64x512_S4096x1_S4096x64x512_12_0_0_1.start (ix3 n c' p') _ (0 : Fin 3)
        + (scatter_S4x64x512_S4096x1_S4096x64x512_12_0_0_1.window (ix3 n c' p') (0 : Fin 3) : Int) = (k.val : Int)
      rw [start3_0, window3_0, labIdx_apply, hl]; simp
    · show scatter_S4x64x512_S4096x1_S4096x64x512_12_0_0_1.start (ix3 n c' p') _ (1 : Fin 3)
        + (scatter_S4x64x512_S4096x1_S4096x64x512_12_0_0_1.window (ix3 n c' p') (1 : Fin 3) : Int) = (c'.val : Int)
      rw [start3_1, window3_1]; simp
    · show scatter_S4x64x512_S4096x1_S4096x64x512_12_0_0_1.start (ix3 n c' p') _ (2 : Fin 3)
        + (scatter_S4x64x512_S4096x1_S4096x64x512_12_0_0_1.window (ix3 n c' p') (2 : Fin 3) : Int) = (p'.val : Int)
      rw [start3_2, window3_2]; simp

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- THE SUMS AT (k, c, p): the sum, over the rows whose label is k, of x at position (c, p) of the row. Of the updates
    (n, c', p') only those with (c', p') = (c, p) can land on (k, c, p), so the sum over the update index set collapses
    to the sum over the rows. -/
theorem refSums_apply (x : FVec Ideal S4096x64x512 .f32) (lab : IVec S4096 32) (k : Fin 4) (c : Fin 64) (p : Fin 512) :
    refSums (F := Ideal) x lab (ix3 k c p) = Cert.Seg.segSum x lab k c p := by
  unfold refSums Host.scatterAdd
  rw [Ideal.hostScatterAdd_def]
  unfold Ideal.hostScatterAdd Cert.Seg.segSum
  rw [broadcastInDim_scalar_apply, constant_apply, Ideal.ofBits_zero_f32, zero_add, Finset.sum_filter, sum_idx3]
  refine Finset.sum_congr rfl fun n _ => ?_
  refine (Finset.sum_eq_single c (fun c' _ hne => Finset.sum_eq_zero fun p' _ =>
      if_neg fun h => hne ((lands3 lab n c' p' k c p).mp h).2.1) (fun h => absurd (Finset.mem_univ _) h)).trans ?_
  refine (Finset.sum_eq_single p (fun p' _ hne =>
      if_neg fun h => hne ((lands3 lab n c p' k c p).mp h).2.2) (fun h => absurd (Finset.mem_univ _) h)).trans ?_
  have hl := lands3 lab n c p k c p
  by_cases h : lab (ix1 n) = BitVec.ofNat 32 k.val
  · rw [if_pos h, if_pos (hl.mpr ⟨h, rfl, rfl⟩)]
  · rw [if_neg h, if_neg (fun h' => h (hl.mp h').1)]

end Cert.ReferenceIdeal.Rf

end
-- ==== Proof.Bridge.lean ====
/-
  The two programs' counts and sums agree at exact (extended real) arithmetic: read at an index, each is the same
  plain sum over the 4096 rows (the number of rows labelled k; the sum over the rows labelled k of x at a fixed
  position of the row), so the arrays are equal element by element.
-/
import proofs.«431240_j9079560864491_3_alg».proof.Proof.RefSums
import proofs.«431240_j9079560864491_3_alg».proof.Proof.KerSums
import Idealize.ShloMosaic.Lib.ValueIdx

noncomputable section

namespace Cert.Bridge

open Idealize.ShloMosaic Idealize.ShloMosaic.ValueIdx

/-- The counts the kernel program computes (one-hot columns summed over the rows) are the counts the reference
    computes (ones scattered to the labels): at class k both are the number of rows whose label is k. -/
theorem counts_eq (lab : IVec Cert.KernelIdeal.S4096 32) :
    Cert.KernelIdeal.Kv.kerCounts (F := Ideal) lab = Cert.ReferenceIdeal.Rf.refCounts (F := Ideal) lab := by
  funext i
  rw [eq_ix1 i]
  exact (Cert.KernelIdeal.Kv.kerCounts_apply lab (i 0)).trans (Cert.ReferenceIdeal.Rf.refCounts_apply lab (i 0)).symm

/-- An array that at every (k, c, p) is the sum over the rows labelled k of x at (c, p) is the reference's sums
    (the rows of x scattered to the labels). -/
theorem sums_eq (x : FVec Ideal Cert.ReferenceIdeal.S4096x64x512 .f32) (lab : IVec Cert.ReferenceIdeal.S4096 32)
    (S : FVec Ideal Cert.KernelIdeal.S4x64x512 .f32)
    (hS : ∀ (k : Fin 4) (c : Fin 64) (p : Fin 512), S (ix3 k c p) = Cert.Seg.segSum x lab k c p) :
    S = Cert.ReferenceIdeal.Rf.refSums (F := Ideal) x lab := by
  funext i
  rw [eq_ix3 i]
  exact (hS (i 0) (i 1) (i 2)).trans (Cert.ReferenceIdeal.Rf.refSums_apply x lab (i 0) (i 1) (i 2)).symm

end Cert.Bridge

end
-- ==== Proof.AccSums.lean ====
/-
  The kernel's accumulation summed up. Within a half (steps 32 q, …, 32 q + 31) the running sum is reset at the first
  step and grows by each later step's sum, so after the half's last step it is the sum of the half's 32 step sums.
  Step t sums the rows 64 t, …, 64 t + 63, so the triples (q, i, r) ↦ (32 q + i) 64 + r with q < 2, i < 32, r < 64
  run through the row numbers 0, …, 4095 once each: the two halves together are the sum over all 4096 rows of
  (one-hot entry at k) times (x at d). With the one-hot entry 1 on the rows of class k and 0 elsewhere that is the sum
  of x over the rows of class k; on the extended reals 1 * v = v and 0 * v = 0 for every v, the infinite ones
  included, so nothing is asked of x.
-/
import proofs.«431240_j9079560864491_3_alg».proof.Proof.AccDefs
import proofs.«431240_j9079560864491_3_alg».proof.Proof.SegDefs
import Mathlib.Algebra.BigOperators.Group.Finset.Basic
import Mathlib.Algebra.BigOperators.Fin
import Mathlib.Algebra.Notation.Defs

noncomputable section

open scoped BigOperators

namespace Cert.Acc

open Idealize.ShloMosaic Idealize.ShloMosaic.ValueIdx

/-! ## Within a half -/

/-- At the first step of a half the running sum is that step's sum: step 0 starts the run, and at step 32 q with
    q > 0 the sum is reset, since 32 divides the step number. -/
private theorem runSum_start (oh : (⟨2, ![4096, 4]⟩ : Shape).Idx → EReal) (xf : (⟨2, ![4096, 32768]⟩ : Shape).Idx → EReal)
    (q : ℕ) (k : Fin 4) (d : Fin 32768) : runSum oh xf (q * 32) k d = stepSum oh xf (q * 32) k d := by
  cases q with
  | zero => rw [Nat.zero_mul]; exact runSum_zero oh xf k d
  | succ m =>
    have e : (m + 1) * 32 = (m * 32 + 31) + 1 := by omega
    rw [e]
    exact runSum_reset oh xf (m * 32 + 31) (by omega) k d

/-- After step 32 q + i of a half (i < 32) the running sum is the sum of the steps 32 q, …, 32 q + i: by induction
    on i, no step after the first of a half being a multiple of 32. -/
private theorem runSum_prefix (oh : (⟨2, ![4096, 4]⟩ : Shape).Idx → EReal) (xf : (⟨2, ![4096, 32768]⟩ : Shape).Idx → EReal)
    (q : ℕ) (k : Fin 4) (d : Fin 32768) (i : ℕ) (hi : i < 32) :
    runSum oh xf (q * 32 + i) k d = ∑ j ∈ Finset.range (i + 1), stepSum oh xf (q * 32 + j) k d := by
  induction i with
  | zero => rw [Finset.sum_range_one]; exact runSum_start oh xf q k d
  | succ i ih =>
    rw [Finset.sum_range_succ, ← ih (by omega)]
    exact runSum_step oh xf (q * 32 + i) (by omega) k d

theorem runSum_half (oh : (⟨2, ![4096, 4]⟩ : Shape).Idx → EReal) (xf : (⟨2, ![4096, 32768]⟩ : Shape).Idx → EReal)
    (q : Fin 2) (k : Fin 4) (d : Fin 32768) :
    runSum oh xf (q.val * 32 + 31) k d = ∑ i : Fin 32, stepSum oh xf (q.val * 32 + i.val) k d :=
  (runSum_prefix oh xf q.val k d 31 (by omega)).trans
    (Finset.sum_range fun j => stepSum oh xf (q.val * 32 + j) k d)

/-! ## The 2 × 32 × 64 rows are the 4096 rows -/

/-- A sum over the numbers below a b, cut into a blocks of b. -/
private theorem sum_range_mul_blocks {M : Type*} [AddCommMonoid M] (f : ℕ → M) (a b : ℕ) :
    ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-- The term of row number n: its one-hot entry at k times x at d. -/
private def term (oh : (⟨2, ![4096, 4]⟩ : Shape).Idx → EReal) (xf : (⟨2, ![4096, 32768]⟩ : Shape).Idx → EReal)
    (k : Fin 4) (d : Fin 32768) (n : ℕ) : EReal :=
  oh (ix2 (rowAt n) k) * xf (ix2 (rowAt n) d)

/-- A row number below 4096 names itself. -/
private theorem rowAt_val (n : Fin 4096) : rowAt n.val = n := Fin.ext (Nat.mod_eq_of_lt n.isLt)

theorem total (oh : (⟨2, ![4096, 4]⟩ : Shape).Idx → EReal) (xf : (⟨2, ![4096, 32768]⟩ : Shape).Idx → EReal)
    (k : Fin 4) (d : Fin 32768) :
    ∑ q : Fin 2, runSum oh xf (q.val * 32 + 31) k d = ∑ n : Fin 4096, oh (ix2 n k) * xf (ix2 n d) := by
  have hstep : ∀ t : ℕ, stepSum oh xf t k d = ∑ r ∈ Finset.range 64, term oh xf k d (t * 64 + r) := fun t =>
    (Finset.sum_range fun r => term oh xf k d (t * 64 + r)).symm
  have hhalf : ∀ q : Fin 2, runSum oh xf (q.val * 32 + 31) k d
      = ∑ i ∈ Finset.range 32, ∑ r ∈ Finset.range 64, term oh xf k d ((q.val * 32 + i) * 64 + r) := fun q =>
    (runSum_half oh xf q k d).trans
      ((Finset.sum_range fun i => stepSum oh xf (q.val * 32 + i) k d).symm.trans
        (Finset.sum_congr rfl fun i _ => hstep (q.val * 32 + i)))
  calc ∑ q : Fin 2, runSum oh xf (q.val * 32 + 31) k d
      = ∑ q : Fin 2, ∑ i ∈ Finset.range 32, ∑ r ∈ Finset.range 64, term oh xf k d ((q.val * 32 + i) * 64 + r) :=
        Finset.sum_congr rfl fun q _ => hhalf q
    _ = ∑ q ∈ Finset.range 2, ∑ i ∈ Finset.range 32, ∑ r ∈ Finset.range 64, term oh xf k d ((q * 32 + i) * 64 + r) :=
        (Finset.sum_range fun q => ∑ i ∈ Finset.range 32, ∑ r ∈ Finset.range 64, term oh xf k d ((q * 32 + i) * 64 + r)).symm
    _ = ∑ t ∈ Finset.range (2 * 32), ∑ r ∈ Finset.range 64, term oh xf k d (t * 64 + r) :=
        (sum_range_mul_blocks (fun t => ∑ r ∈ Finset.range 64, term oh xf k d (t * 64 + r)) 2 32).symm
    _ = ∑ n ∈ Finset.range (2 * 32 * 64), term oh xf k d n :=
        (sum_range_mul_blocks (term oh xf k d) (2 * 32) 64).symm
    _ = ∑ n : Fin 4096, term oh xf k d n.val := Finset.sum_range (term oh xf k d)
    _ = ∑ n : Fin 4096, oh (ix2 n k) * xf (ix2 n d) :=
        Finset.sum_congr rfl fun n _ => by unfold term; rw [rowAt_val]

/-! ## With the one-hot encoding: the sum over the rows of a class -/

theorem seg_of_onehot (x : (⟨3, ![4096, 64, 512]⟩ : Shape).Idx → EReal) (lab : IVec (⟨1, ![4096]⟩ : Shape) 32)
    (oh : (⟨2, ![4096, 4]⟩ : Shape).Idx → EReal) (xf : (⟨2, ![4096, 32768]⟩ : Shape).Idx → EReal)
    (k : Fin 4) (c : Fin 64) (p : Fin 512)
    (hoh : ∀ n : Fin 4096, oh (ix2 n k) = if lab (ix1 n) = BitVec.ofNat 32 k.val then (1 : EReal) else 0)
    (hxf : ∀ n : Fin 4096, xf (ix2 n (⟨c.val * 512 + p.val, by omega⟩ : Fin 32768)) = x (ix3 n c p)) :
    ∑ q : Fin 2, runSum oh xf (q.val * 32 + 31) k (⟨c.val * 512 + p.val, by omega⟩ : Fin 32768)
      = Cert.Seg.segSum x lab k c p := by
  rw [total]
  unfold Cert.Seg.segSum
  refine Finset.sum_congr rfl fun n _ => ?_
  rw [hoh n, hxf n, ite_mul, one_mul, zero_mul]

end Cert.Acc

end
-- ==== Proof.lean ====
/-
  The kernel sums the rows of x per class by multiplying a one-hot encoding of the labels with x on the matrix
  unit, 64 rows at a time, accumulating each half of the rows in one output block; the reference scatters the rows
  into four slots. Over the extended reals both are, for class k and position (c, p), the sum of x(n, c, p) over
  the rows n whose label is k — a label outside {0, 1, 2, 3} contributes to neither — because a one-hot entry is
  0 or 1, 0 · x = 0 and 1 · x = x for every extended real x, and sums may be regrouped freely; likewise both counts
  are the number of rows labelled k. Everything after the counts and the sums is one and the same computation in
  both programs, so the results are equal. No use is made of the inputs being finite.
  The three programs run to their ends without a fault and leave their arguments unchanged: the kernel programs by
  the pipeline's frame run around their one region, with the accumulation as proof data; the reference by the run of
  its straight line of host operations. The idealization rewrote nothing.
-/
import proofs.«431240_j9079560864491_3_alg».proof.Defs
import proofs.«431240_j9079560864491_3_alg».proof.Proof.Gen.Kernel
import proofs.«431240_j9079560864491_3_alg».proof.Proof.Gen.KernelIdeal
import proofs.«431240_j9079560864491_3_alg».proof.Proof.Gen.ReferenceIdeal
import proofs.«431240_j9079560864491_3_alg».proof.Proof.Gen.Pre_finite_inputs
import proofs.«431240_j9079560864491_3_alg».proof.Proof.KFrame
import proofs.«431240_j9079560864491_3_alg».proof.Proof.KIValue
import proofs.«431240_j9079560864491_3_alg».proof.Proof.RefValue
import proofs.«431240_j9079560864491_3_alg».proof.Proof.Bridge
import proofs.«431240_j9079560864491_3_alg».proof.Proof.AccSums
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Rf.run_value (F := Ideal) m ρ)

theorem preserves : Cert.preserves_Kernel_KernelIdeal := trivial

/-- The kernel's per-class sums, read at (k, c, p): the two halves' partial sums added are the sum over all rows
    labelled k. -/
theorem ker_sums (m : (ℓ : Loc Cert.KernelIdeal.nD Cert.KernelIdeal.τ Cert.KernelIdeal.sig) → Buf (Elt Ideal) ℓ)
    (c : Dev Cert.KernelIdeal.nD) (k : Fin 4) (cc : Fin 64) (p : Fin 512) :
    Cert.KernelIdeal.Kv.sumsOf (Cert.KernelIdeal.Val.acc m c) (ix3 k cc p)
      = Cert.Seg.segSum (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) k cc p := by
  rw [Cert.KernelIdeal.Kv.sumsOf_apply]
  refine Cert.Acc.seg_of_onehot _ _ (Cert.KernelIdeal.Val.oarr m c) (Cert.KernelIdeal.Val.xarr m c) k cc p (fun n => ?_) (fun n => ?_)
  · rw [Cert.KernelIdeal.Val.oarr_eq]
    exact Cert.KernelIdeal.Kv.onehot_apply _ n k
  · rw [Cert.KernelIdeal.Val.xarr_eq]
    exact Cert.KernelIdeal.Kv.xflat_apply _ n cc p

theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Rf.run_value (F := Ideal) m' ρ')
  rw [(hagree c).1, (hagree c).2]
  exact (congrArg₂ (Cert.Tail.tail (F := Ideal)) (Cert.Bridge.counts_eq _)
    (Cert.Bridge.sums_eq _ _ _ (ker_sums m c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
